-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x128 : Shape := ⟨4, ![16, 128, 128, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64 .f32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_cst_24 : FVec F S_ .f32 := constant S_ .f32 0x00000000#32
  let main_v64 : FVec F S64 .f32 := broadcastInDim S64 ![] bcast_S_S64 main_cst_24
  let main_v65 : IVec S64 1 := cmpf .oge main_arg12 main_v64
  let main_c_25 : IVec S_ 1 := constantI S_ 1 1#1
  let main_v66 : IVec S_ 1 := (fun x v => Host.reduce IntOp.andi x v reducesTo_S64_S_d0 h_S_) main_v65 main_c_25
  let main_v67 : IVec S_ 1 := andi main_v63 main_v66
  main_v67

def fn_part2 {F : FTy → Type} [FloatOps F] (main_arg7 : FVec F S64x64 .f32) (main_arg8 : FVec F S64 .f32) (main_arg9 : FVec F S64 .f32) (main_arg10 : FVec F S64 .f32) (main_arg11 : FVec F S64 .f32) (main_arg12 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S128x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x128x128x128 .f32) (main_arg1 : FVec F S128x64 .f32) (main_arg2 : FVec F S64 .f32) (main_arg3 : FVec F S128x64 .f32) (main_arg4 : FVec F S64 .f32) (main_arg5 : FVec F S128x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) : IVec S_ 1 :=
  let main_v0 : FVec F S16x128x128x128 .f32 := Host.absf main_arg0
  let main_cst : FVec F S_ .f32 := constant S_ .f32 0x7F800000#32
  let main_v1 : FVec F S16x128x128x128 .f32 := broadcastInDim S16x128x128x128 ![] bcast_S_S16x128x128x128 main_cst
  let main_v2 : IVec S16x128x128x128 1 := cmpf .olt main_v0 main_v1
  let main_c : IVec S_ 1 := constantI S_ 1 1#1
  let main_v3 : IVec S_ 1 := (fun x v => Host.reduce IntOp.andi x v reducesTo_S16x128x128x128_S_d0_1_2_3 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_v13 main_v16
-- ==== Kernel.lean ====
abbrev S16x128x128x128 : Shape := ⟨4, ![16, 128, 128, 128]⟩
abbrev S128x64 : Shape := ⟨2, ![128, 64]⟩
abbrev S64 : Shape := ⟨1, ![64]⟩
abbrev S64x64 : Shape := ⟨2, ![64, 64]⟩
abbrev S16x16384x128 : Shape := ⟨3, ![16, 16384, 128]⟩
abbrev S128x192 : Shape := ⟨2, ![128, 192]⟩
abbrev S192 : Shape := ⟨1, ![192]⟩
abbrev S1x192 : Shape := ⟨2, ![1, 192]⟩
abbrev S16x16384x64 : Shape := ⟨3, ![16, 16384, 64]⟩
abbrev S1x2048x128 : Shape := ⟨3, ![1, 2048, 128]⟩
abbrev S1x2048x64 : Shape := ⟨3, ![1, 2048, 64]⟩
abbrev S2048x128 : Shape := ⟨2, ![2048, 128]⟩
abbrev S2048x192 : Shape := ⟨2, ![2048, 192]⟩
abbrev S2048x64 : Shape := ⟨2, ![2048, 64]⟩
abbrev S16x64x16384 : Shape := ⟨3, ![16, 64, 16384]⟩
abbrev S1x16384x64 : Shape := ⟨3, ![1, 16384, 64]⟩
abbrev S1x64x16384 : Shape := ⟨3, ![1, 64, 16384]⟩
abbrev S16384x64 : Shape := ⟨2, ![16384, 64]⟩
abbrev S64x1 : Shape := ⟨2, ![64, 1]⟩
abbrev S64x16384 : Shape := ⟨2, ![64, 16384]⟩
abbrev S_ : Shape := ⟨0, ![]⟩
abbrev S1x64 : Shape := ⟨2, ![1, 64]⟩
abbrev S16x128x128x64 : Shape := ⟨4, ![16, 128, 128, 64]⟩

abbrev nBuf : Space → Nat
  | .hbm => 34
  | .vmem => 26
  | .smem => 0
  | _ => 0

abbrev bufTy : (tb : Table) → Fin (tcTables nBuf tb) → BufTy
  | .hbm, ⟨0, _⟩ => ⟨S16x128x128x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S16x16384x128, .f32⟩
  | .hbm, ⟨14, _⟩ => ⟨S128x192, .f32⟩
  | .hbm, ⟨15, _⟩ => ⟨S192, .f32⟩
  | .hbm, ⟨16, _⟩ => ⟨S1x192, .f32⟩
  | .hbm, ⟨17, _⟩ => ⟨S16x16384x64, .bf16⟩
  | .hbm, ⟨18, _⟩ => ⟨S16x16384x64, .bf16⟩
  | .hbm, ⟨19, _⟩ => ⟨S16x16384x64, .bf16⟩
  | .hbm, ⟨20, _⟩ => ⟨S16x64x16384, .bf16⟩
  | .hbm, ⟨21, _⟩ => ⟨S16x16384x64, .bf16⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S16x16384x64, .f32⟩
  | .hbm, ⟨33, _⟩ => ⟨S16x128x128x64, .f32⟩
  | .local _ .vmem, ⟨0, _⟩ => ⟨S1x2048x128, .f32⟩
  | .local _ .vmem, ⟨1, _⟩ => ⟨S1x2048x128, .f32⟩
  | .local _ .vmem, ⟨2, _⟩ => ⟨S128x192, .f32⟩
  | .local _ .vmem, ⟨3, _⟩ => ⟨S1x192, .f32⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x16384x64, .bf16⟩
  | .local _ .vmem, ⟨11, _⟩ => ⟨S1x16384x64, .bf16⟩
  | .local _ .vmem, ⟨12, _⟩ => ⟨S1x16384x64, .bf16⟩
  | .local _ .vmem, ⟨13, _⟩ => ⟨S1x16384x64, .bf16⟩
  | .local _ .vmem, ⟨14, _⟩ => ⟨S1x16384x64, .bf16⟩
  | .local _ .vmem, ⟨15, _⟩ => ⟨S1x16384x64, .bf16⟩
  | .local _ .vmem, ⟨16, _⟩ => ⟨S1x64x16384, .bf16⟩
  | .local _ .vmem, ⟨17, _⟩ => ⟨S1x64x16384, .bf16⟩
  | .local _ .vmem, ⟨18, _⟩ => ⟨S1x2048x64, .bf16⟩
  | .local _ .vmem, ⟨19, _⟩ => ⟨S1x2048x64, .bf16⟩
  | .local _ .vmem, ⟨20, _⟩ => ⟨S64x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x2048x64, .f32⟩
  | .local _ .vmem, ⟨25, _⟩ => ⟨S1x2048x64, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16384x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16384x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x16384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S16x128x128x128_S16x16384x128 : S16x128x128x128.ShapeCasts S16x16384x128
  concatenates_S128x64_S128x64_S128x64_S128x192_d1 : Shape.Concatenates [S128x64, S128x64, S128x64] S128x192 1
  concatenates_S64_S64_S64_S192_d0 : Shape.Concatenates [S64, S64, S64] S192 0
  shapeCasts_S192_S1x192 : S192.ShapeCasts S1x192
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2048x192 : S1x192.Broadcasts S2048x192
  slices_S2048x192_o0_0_S2048x64 : S2048x192.Slices ![0, 0] S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  slices_S2048x192_o0_64_S2048x64 : S2048x192.Slices ![0, 64] S2048x64
  slices_S2048x192_o0_128_S2048x64 : S2048x192.Slices ![0, 128] S2048x64
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  reduces_S64x64_S64 : S64x64.Reduces [1] S64
  shapeCasts_S64_S64x1 : S64.ShapeCasts S64x1
  broadcasts_S64x1_S64x64 : S64x1.Broadcasts S64x64
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  packedbf16_S1x64x16384_S1x64x16384_0_0_0 : (Rect.unit (s := S1x64x16384) ![0, 0, 0] S1x64x16384.size inb_S1x64x16384_S1x64x16384_0_0_0).PackedRows (EltTy.packing .bf16)
  shapeCasts_S16x64x16384_S16x16384x64 : S16x64x16384.ShapeCasts S16x16384x64
  bcast_S_S64 : S_.BroadcastsInDim S64 (![] : Fin 0 → Fin S64.rank)
  shapeCasts_S64_S1x64 : S64.ShapeCasts S1x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S16x16384x64_S16x128x128x64 : S16x16384x64.ShapeCasts S16x128x128x64
  dot_S2048x128_S128x192_S2048x192_1_0_0_1_n_n_wf : DotDims.WF S2048x128 S128x192 S2048x192 [1] [0] [0] [1] [] []
  dot_S16384x64_S16384x64_S64x64_0_0_1_1_n_n_wf : DotDims.WF S16384x64 S16384x64 S64x64 [0] [0] [1] [1] [] []
  dot_S64x64_S16384x64_S64x16384_0_1_1_0_n_n_wf : DotDims.WF S64x64 S16384x64 S64x16384 [0] [1] [1] [0] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x16384x128.size a
  hwx0_0 : ∀ i : grid0.Coords, EltTy.bits .f32 = 32 ∨ (Rect.block (s := S16x16384x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S128x192.size a
  hwx0_1 : ∀ i : grid0.Coords, EltTy.bits .f32 = 32 ∨ (Rect.block (s := S128x192) S128x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x16384x64.size a
  hwx0_3 : ∀ i : grid0.Coords, EltTy.bits .bf16 = 32 ∨ (Rect.block (s := S16x16384x64) S1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S16x16384x64.size a
  hwx0_4 : ∀ i : grid0.Coords, EltTy.bits .bf16 = 32 ∨ (Rect.block (s := S16x16384x64) S1x2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S16x16384x64.size a
  hwx0_5 : ∀ i : grid0.Coords, EltTy.bits .bf16 = 32 ∨ (Rect.block (s := S16x16384x64) S1x2048x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16384x64.size a ≤ S16x16384x64.size a
  hwx1_0 : ∀ i : grid1.Coords, EltTy.bits .bf16 = 32 ∨ (Rect.block (s := S16x16384x64) S1x16384x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16384x64.size a ≤ S16x16384x64.size a
  hwx1_1 : ∀ i : grid1.Coords, EltTy.bits .bf16 = 32 ∨ (Rect.block (s := S16x16384x64) S1x16384x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384x64.size a ≤ S16x16384x64.size a
  hwx1_2 : ∀ i : grid1.Coords, EltTy.bits .bf16 = 32 ∨ (Rect.block (s := S16x16384x64) S1x16384x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x16384.size a ≤ S16x64x16384.size a
  hwx1_3 : ∀ i : grid1.Coords, EltTy.bits .bf16 = 32 ∨ (Rect.block (s := S16x64x16384) S1x64x16384.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x64.size a ≤ S16x16384x64.size a
  hwx2_0 : ∀ i : grid2.Coords, EltTy.bits .bf16 = 32 ∨ (Rect.block (s := S16x16384x64) S1x2048x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048x64.size a ≤ S16x16384x64.size a
  hwx2_5 : ∀ i : grid2.Coords, EltTy.bits .f32 = 32 ∨ (Rect.block (s := S16x16384x64) S1x2048x64.size (cc2_transform_5 i) (hinb2_5 i)).WholeWords (EltTy.packing .f32)

variable [Facts₀]

def dot_S2048x128_S128x192_S2048x192_1_0_0_1_n_n : DotDims S2048x128 S128x192 S2048x192 where
  lhsContracting := [1]
  rhsContracting := [0]
  lhsNonContracting := [0]
  rhsNonContracting := [1]
  lhsBatch := []
  rhsBatch := []
  wf := dot_S2048x128_S128x192_S2048x192_1_0_0_1_n_n_wf
def dot_S16384x64_S16384x64_S64x64_0_0_1_1_n_n : DotDims S16384x64 S16384x64 S64x64 where
  lhsContracting := [0]
  rhsContracting := [0]
  lhsNonContracting := [1]
  rhsNonContracting := [1]
  lhsBatch := []
  rhsBatch := []
  wf := dot_S16384x64_S16384x64_S64x64_0_0_1_1_n_n_wf
def dot_S64x64_S16384x64_S64x16384_0_1_1_0_n_n : DotDims S64x64 S16384x64 S64x16384 where
  lhsContracting := [0]
  rhsContracting := [1]
  lhsNonContracting := [1]
  rhsNonContracting := [0]
  lhsBatch := []
  rhsBatch := []
  wf := dot_S64x64_S16384x64_S64x16384_0_1_1_0_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_1) S1x16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_2) S1x16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S1x16384x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64x16384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x128x128x128 : Shape := ⟨4, ![16, 128, 128, 128]⟩
abbrev S128x64 : Shape := ⟨2, ![128, 64]⟩
abbrev S64 : Shape := ⟨1, ![64]⟩
abbrev S64x64 : Shape := ⟨2, ![64, 64]⟩
abbrev S16x128x128x64 : Shape := ⟨4, ![16, 128, 128, 64]⟩
abbrev S1x1x1x64 : Shape := ⟨4, ![1, 1, 1, 64]⟩
abbrev S16x16384x64 : Shape := ⟨3, ![16, 16384, 64]⟩
abbrev S16x64x64 : Shape := ⟨3, ![16, 64, 64]⟩
abbrev S_ : Shape := ⟨0, ![]⟩
abbrev S16x64 : Shape := ⟨2, ![16, 64]⟩
abbrev S16x64x1 : Shape := ⟨3, ![16, 64, 1]⟩
abbrev S16x64x16384 : Shape := ⟨3, ![16, 64, 16384]⟩

abbrev nBuf : Space → Nat
  | .hbm => 63
  | .vmem => 0
  | .smem => 0
  | _ => 0

abbrev bufTy : (tb : Table) → Fin (tcTables nBuf tb) → BufTy
  | .hbm, ⟨0, _⟩ => ⟨S16x128x128x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S16x128x128x64, .f32⟩
  | .hbm, ⟨14, _⟩ => ⟨S1x1x1x64, .f32⟩
  | .hbm, ⟨15, _⟩ => ⟨S16x128x128x64, .f32⟩
  | .hbm, ⟨16, _⟩ => ⟨S16x128x128x64, .f32⟩
  | .hbm, ⟨17, _⟩ => ⟨S16x16384x64, .f32⟩
  | .hbm, ⟨18, _⟩ => ⟨S16x128x128x64, .f32⟩
  | .hbm, ⟨19, _⟩ => ⟨S1x1x1x64, .f32⟩
  | .hbm, ⟨20, _⟩ => ⟨S16x128x128x64, .f32⟩
  | .hbm, ⟨21, _⟩ => ⟨S16x128x128x64, .f32⟩
  | .hbm, ⟨22, _⟩ => ⟨S16x16384x64, .f32⟩
  | .hbm, ⟨23, _⟩ => ⟨S16x128x128x64, .f32⟩
  | .hbm, ⟨24, _⟩ => ⟨S1x1x1x64, .f32⟩
  | .hbm, ⟨25, _⟩ => ⟨S16x128x128x64, .f32⟩
  | .hbm, ⟨26, _⟩ => ⟨S16x128x128x64, .f32⟩
  | .hbm, ⟨27, _⟩ => ⟨S16x16384x64, .f32⟩
  | .hbm, ⟨28, _⟩ => ⟨S16x64x64, .f32⟩
  | .hbm, ⟨29, _⟩ => ⟨S_, .f32⟩
  | .hbm, ⟨30, _⟩ => ⟨S16x64, .f32⟩
  | .hbm, ⟨31, _⟩ => ⟨S_, .f32⟩
  | .hbm, ⟨32, _⟩ => ⟨S16x64, .f32⟩
  | .hbm, ⟨33, _⟩ => ⟨S16x64, .f32⟩
  | .hbm, ⟨34, _⟩ => ⟨S16x64x1, .f32⟩
  | .hbm, ⟨35, _⟩ => ⟨S16x64x64, .f32⟩
  | .hbm, ⟨36, _⟩ => ⟨S16x64x64, .f32⟩
  | .hbm, ⟨37, _⟩ => ⟨S16x64x64, .f32⟩
  | .hbm, ⟨38, _⟩ => ⟨S_, .f32⟩
  | .hbm, ⟨39, _⟩ => ⟨S16x64, .f32⟩
  | .hbm, ⟨40, _⟩ => ⟨S16x64x1, .f32⟩
  | .hbm, ⟨41, _⟩ => ⟨S16x64x64, .f32⟩
  | .hbm, ⟨42, _⟩ => ⟨S16x64x64, .f32⟩
  | .hbm, ⟨43, _⟩ => ⟨S16x64x16384, .f32⟩
  | .hbm, ⟨44, _⟩ => ⟨S16x128x128x64, .f32⟩
  | .hbm, ⟨45, _⟩ => ⟨S16x128x128x64, .f32⟩
  | .hbm, ⟨46, _⟩ => ⟨S1x1x1x64, .f32⟩
  | .hbm, ⟨47, _⟩ => ⟨S16x128x128x64, .f32⟩
  | .hbm, ⟨48, _⟩ => ⟨S16x128x128x64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x1x1x64, .f32⟩
  | .hbm, ⟨55, _⟩ => ⟨S16x128x128x64, .f32⟩
  | .hbm, ⟨56, _⟩ => ⟨S16x128x128x64, .f32⟩
  | .hbm, ⟨57, _⟩ => ⟨S1x1x1x64, .f32⟩
  | .hbm, ⟨58, _⟩ => ⟨S16x128x128x64, .f32⟩
  | .hbm, ⟨59, _⟩ => ⟨S16x128x128x64, .f32⟩
  | .hbm, ⟨60, _⟩ => ⟨S1x1x1x64, .f32⟩
  | .hbm, ⟨61, _⟩ => ⟨S16x128x128x64, .f32⟩
  | .hbm, ⟨62, _⟩ => ⟨S16x128x128x64, .f32⟩
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S16x128x128x64_0_1_2_3 : S1x1x1x64.BroadcastsInDim S16x128x128x64 (![0, 1, 2, 3] : Fin 4 → Fin S16x128x128x64.rank)
  shapeCasts_S16x128x128x64_S16x16384x64 : S16x128x128x64.ShapeCasts S16x16384x64
  reducesTo_S16x64x64_S16x64_d2 : S16x64x64.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  shapeCasts_S16x64x16384_S16x128x128x64 : S16x64x16384.ShapeCasts S16x128x128x64
  bcast_S_S64 : S_.BroadcastsInDim S64 (![] : Fin 0 → Fin S64.rank)
  dot_S16x128x128x128_S128x64_S16x128x128x64_3_0_012_1_n_n_wf : DotDims.WF S16x128x128x128 S128x64 S16x128x128x64 [3] [0] [0, 1, 2] [1] [] []
  dot_S16x16384x64_S16x16384x64_S16x64x64_1_1_2_2_0_0_wf : DotDims.WF S16x16384x64 S16x16384x64 S16x64x64 [1] [1] [2] [2] [0] [0]
  dot_S16x64x64_S16x16384x64_S16x64x16384_1_2_2_1_0_0_wf : DotDims.WF S16x64x64 S16x16384x64 S16x64x16384 [1] [2] [2] [1] [0] [0]
  dot_S16x128x128x64_S64x64_S16x128x128x64_3_0_012_1_n_n_wf : DotDims.WF S16x128x128x64 S64x64 S16x128x128x64 [3] [0] [0, 1, 2] [1] [] []

variable [Facts₀]

def dot_S16x128x128x128_S128x64_S16x128x128x64_3_0_012_1_n_n : DotDims S16x128x128x128 S128x64 S16x128x128x64 where
  lhsContracting := [3]
  rhsContracting := [0]
  lhsNonContracting := [0, 1, 2]
  rhsNonContracting := [1]
  lhsBatch := []
  rhsBatch := []
  wf := dot_S16x128x128x128_S128x64_S16x128x128x64_3_0_012_1_n_n_wf
def dot_S16x16384x64_S16x16384x64_S16x64x64_1_1_2_2_0_0 : DotDims S16x16384x64 S16x16384x64 S16x64x64 where
  lhsContracting := [1]
  rhsContracting := [1]
  lhsNonContracting := [2]
  rhsNonContracting := [2]
  lhsBatch := [0]
  rhsBatch := [0]
  wf := dot_S16x16384x64_S16x16384x64_S16x64x64_1_1_2_2_0_0_wf
def dot_S16x64x64_S16x16384x64_S16x64x16384_1_2_2_1_0_0 : DotDims S16x64x64 S16x16384x64 S16x64x16384 where
  lhsContracting := [1]
  rhsContracting := [2]
  lhsNonContracting := [2]
  rhsNonContracting := [1]
  lhsBatch := [0]
  rhsBatch := [0]
  wf := dot_S16x64x64_S16x16384x64_S16x64x16384_1_2_2_1_0_0_wf
def dot_S16x128x128x64_S64x64_S16x128x128x64_3_0_012_1_n_n : DotDims S16x128x128x64 S64x64 S16x128x128x64 where
  lhsContracting := [3]
  rhsContracting := [0]
  lhsNonContracting := [0, 1, 2]
  rhsNonContracting := [1]
  lhsBatch := []
  rhsBatch := []
  wf := dot_S16x128x128x64_S64x64_S16x128x128x64_3_0_012_1_n_n_wf

class Facts : Prop extends Facts₀ where

variable [Facts]
-- ==== Proof.Kernel.Body0.lean ====
/-
  The projection kernel (the first pallas_call) at one grid point, as a fact about memory: entered with a block of 2048
  positions of x ([1, 2048, 128]), the three weight matrices side by side ([128, 192]) and the three biases side by side
  ([1, 192]) staged whole, and its three output buffers at anything, the body runs to the end without a fault, leaves the
  inputs as they were and leaves in each output buffer the ONE value it stores there — a payload that is a function of
  the three input blocks only (columns 0–63, 64–127 and 128–191 of x·W + b). From that: the pipeline's proof data and the
  obligation the launch asks for, at every point and on every core, at the contents `V` the region is entered with and for
  any float instance.
-/
import proofs.«181084_j44066364457115_1_alg».proof.Proof.Gen.Kernel.Launch
import proofs.«181084_j44066364457115_1_alg».proof.Proof.Gen.Kernel.Skeleton
import proofs.«181084_j44066364457115_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index never moves is fetched once and still holds that block), whatever proof data has `V`'s array there and a body
    that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S1x2048x128 := Rect.unit (s := S1x2048x128) ![0, 0, 0] S1x2048x128.size inb_S1x2048x128_S1x2048x128_0_0_0
abbrev rW0 : Rect S128x192 := Rect.unit (s := S128x192) ![0, 0] S128x192.size inb_S128x192_S128x192_0_0
abbrev rB0 : Rect S1x192 := Rect.unit (s := S1x192) ![0, 0] S1x192.size inb_S1x192_S1x192_0_0
abbrev rO0 : Rect S1x2048x64 := Rect.unit (s := S1x2048x64) ![0, 0, 0] S1x2048x64.size inb_S1x2048x64_S1x2048x64_0_0_0

/-- Each output buffer after the body: its one store, of that output's payload of the three loaded blocks. -/
def out0_3 (x0 : Vec F S1x2048x128 .f32) (x1 : Vec F S128x192 .f32) (x2 : Vec F S1x192 .f32) : Vec F S1x2048x64 .bf16 :=
  View.canon [⟨rO0, k0_pay2 (View.ld x0 rX0) (View.ld x1 rW0) (View.ld x2 rB0)⟩]
def out0_4 (x0 : Vec F S1x2048x128 .f32) (x1 : Vec F S128x192 .f32) (x2 : Vec F S1x192 .f32) : Vec F S1x2048x64 .bf16 :=
  View.canon [⟨rO0, k0_pay3 (View.ld x0 rX0) (View.ld x1 rW0) (View.ld x2 rB0)⟩]
def out0_5 (x0 : Vec F S1x2048x128 .f32) (x1 : Vec F S128x192 .f32) (x2 : Vec F S1x192 .f32) : Vec F S1x2048x64 .bf16 :=
  View.canon [⟨rO0, k0_pay4 (View.ld x0 rX0) (View.ld x1 rW0) (View.ld x2 rB0)⟩]

/-- A whole-buffer store covers the buffer. -/
theorem cover0_out (p0 : Vec F S1x2048x64 .bf16) (y : S1x2048x64.Idx) :
    ∃ pc ∈ ([⟨rO0, p0⟩] : List (View.Piece (Elt F) S1x2048x64 .bf16)), y ∈ pc.1.set :=
  View.cover_of_tiled [⟨rO0, p0⟩] S1x2048x64.size (by rfl) y

set_option maxHeartbeats 1000000 in
/-- The body's triple on whole staging memrefs. -/
theorem sound_kernel0 (c : Dev nD) (E : Set ℕ) (i : grid0.Coords)
    (arg2 : Memref sig .tc .vmem S1x2048x128 .f32) (harg2 : arg2.IsWhole) (arg3 : Memref sig .tc .vmem S128x192 .f32) (harg3 : arg3.IsWhole)
    (arg4 : Memref sig .tc .vmem S1x192 .f32) (harg4 : arg4.IsWhole) (arg5 : Memref sig .tc .vmem S1x2048x64 .bf16) (harg5 : arg5.IsWhole)
    (arg6 : Memref sig .tc .vmem S1x2048x64 .bf16) (harg6 : arg6.IsWhole) (arg7 : Memref sig .tc .vmem S1x2048x64 .bf16) (harg7 : arg7.IsWhole)
    (x0 : Vec F S1x2048x128 .f32) (x1 : Vec F S128x192 .f32) (x2 : Vec F S1x192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-- The pipeline's proof data on core `c`: the arrays as the region finds them; after the body each input's buffer at its
    block and each output's at its payload of the input blocks; nothing else held, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Body1.lean ====
/-
  The attention kernel (the second pallas_call) at one grid point, as a fact about memory: entered with its three input
  blocks (θ, φ and g of one batch element, each [1, 16384, 64]) staged whole and its output buffer at anything, the body
  runs to the end without a fault, leaves the inputs as they were and leaves in the output buffer the ONE value it stores
  — its payload, a function of the three blocks only. From that: the pipeline's proof data (what each window's buffer
  holds after the body at each point) and the obligation the launch asks for, at every point and on every core.
  Everything is stated at the contents `V` the region is entered with, and for any float instance.
-/
import proofs.«181084_j44066364457115_1_alg».proof.Proof.Gen.Kernel.Launch
import proofs.«181084_j44066364457115_1_alg».proof.Proof.Gen.Kernel.Skeleton
import proofs.«181084_j44066364457115_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whatever proof data has `V`'s array there
    and a body that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rIn1 : Rect S1x16384x64 := Rect.unit (s := S1x16384x64) ![0, 0, 0] S1x16384x64.size inb_S1x16384x64_S1x16384x64_0_0_0
abbrev rOut1 : Rect S1x64x16384 := Rect.unit (s := S1x64x16384) ![0, 0, 0] S1x64x16384.size inb_S1x64x16384_S1x64x16384_0_0_0

/-- The output buffer after the body: its one store, of the payload of the three loaded blocks. -/
def out1_3 (x0 x1 x2 : Vec F S1x16384x64 .bf16) : Vec F S1x64x16384 .bf16 :=
  View.canon [⟨rOut1, k1_pay1 (View.ld x0 rIn1) (View.ld x1 rIn1) (View.ld x2 rIn1)⟩]

/-- The store covers the buffer. -/
theorem cover1_3 (p0 : Vec F S1x64x16384 .bf16) (y : S1x64x16384.Idx) :
    ∃ pc ∈ ([⟨rOut1, p0⟩] : List (View.Piece (Elt F) S1x64x16384 .bf16)), y ∈ pc.1.set :=
  View.cover_of_tiled [⟨rOut1, p0⟩] S1x64x16384.size (by rfl) y

set_option maxHeartbeats 1000000 in
/-- The body's triple on whole staging memrefs. -/
theorem sound_kernel1 (c : Dev nD) (E : Set ℕ) (i : grid1.Coords)
    (arg1 : Memref sig .tc .vmem S1x16384x64 .bf16) (harg1 : arg1.IsWhole) (arg2 : Memref sig .tc .vmem S1x16384x64 .bf16) (harg2 : arg2.IsWhole)
    (arg3 : Memref sig .tc .vmem S1x16384x64 .bf16) (harg3 : arg3.IsWhole) (arg4 : Memref sig .tc .vmem S1x64x16384 .bf16) (harg4 : arg4.IsWhole)
    (x0 x1 x2 : Vec F S1x16384x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body each input's buffer at its
    block and the output's at `out1_3` of the input blocks; nothing else held, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Body2.lean ====
/-
  The output kernel (the third pallas_call) at one grid point, as a fact about memory: entered with a block of 2048
  positions of the re-laid attention map ([1, 2048, 64]), the output weights ([64, 64]) and three rows ([1, 64]: the output
  bias, the batch-norm scale and the batch-norm shift) staged whole, and its output buffer at anything, the body runs to
  the end without a fault, leaves the inputs as they were and leaves in the output buffer the ONE value it stores — a
  payload that is a function of the five input blocks only. From that: the pipeline's proof data and the obligation the
  launch asks for, at every point and on every core, at the contents `V` the region is entered with and for any float
  instance.
-/
import proofs.«181084_j44066364457115_1_alg».proof.Proof.Gen.Kernel.Launch
import proofs.«181084_j44066364457115_1_alg».proof.Proof.Gen.Kernel.Skeleton
import proofs.«181084_j44066364457115_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose block
    index never moves is fetched once and still holds that block), whatever proof data has `V`'s array there and a body
    that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rZ2 : Rect S1x2048x64 := Rect.unit (s := S1x2048x64) ![0, 0, 0] S1x2048x64.size inb_S1x2048x64_S1x2048x64_0_0_0
abbrev rW2 : Rect S64x64 := Rect.unit (s := S64x64) ![0, 0] S64x64.size inb_S64x64_S64x64_0_0
abbrev rV2 : Rect S1x64 := Rect.unit (s := S1x64) ![0, 0] S1x64.size inb_S1x64_S1x64_0_0

/-- The output buffer after the body: its one store, of the payload of the five loaded blocks. -/
def out2_5 (x0 : Vec F S1x2048x64 .bf16) (x1 : Vec F S64x64 .f32) (x2 x3 x4 : Vec F S1x64 .f32) : Vec F S1x2048x64 .f32 :=
  View.canon [⟨rZ2, k2_pay1 (View.ld x0 rZ2) (View.ld x1 rW2) (View.ld x2 rV2) (View.ld x3 rV2) (View.ld x4 rV2)⟩]

/-- The whole-buffer store covers the buffer. -/
theorem cover2_5 (p0 : Vec F S1x2048x64 .f32) (y : S1x2048x64.Idx) :
    ∃ pc ∈ ([⟨rZ2, p0⟩] : List (View.Piece (Elt F) S1x2048x64 .f32)), y ∈ pc.1.set :=
  View.cover_of_tiled [⟨rZ2, p0⟩] S1x2048x64.size (by rfl) y

set_option maxHeartbeats 1000000 in
/-- The body's triple on whole staging memrefs. -/
theorem sound_kernel2 (c : Dev nD) (E : Set ℕ) (i : grid2.Coords)
    (arg2 : Memref sig .tc .vmem S1x2048x64 .bf16) (harg2 : arg2.IsWhole) (arg3 : Memref sig .tc .vmem S64x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole) (arg7 : Memref sig .tc .vmem S1x2048x64 .f32) (harg7 : arg7.IsWhole)
    (x0 : Vec F S1x2048x64 .bf16) (x1 : Vec F S64x64 .f32) (x2 x3 x4 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core `c`: the arrays as the region finds them; after the body each input's buffer at its
    block and the output's at the payload of the input blocks; nothing else held, nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Bounds.lean ====
/-
  What a core's unscoped buffers hold between two items of @main (a stretch of host operations, or one of the three
  kernel regions): the launch memory, then what each host stretch computes, then — for the arrays a region writes — what
  the region's write-backs leave there (the fold of the flushed blocks over the grid, `Dat.arrAt`). These boundary
  contents are defined outright (`W1` … `W6`), each region's proof data being taken at the contents the region is entered
  with. For any float instance.
-/
import proofs.«181084_j44066364457115_1_alg».proof.Proof.Gen.Kernel.Regions
import proofs.«181084_j44066364457115_1_alg».proof.Proof.Kernel.Body0
import proofs.«181084_j44066364457115_1_alg».proof.Proof.Kernel.Body1
import proofs.«181084_j44066364457115_1_alg».proof.Proof.Kernel.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- A valuation read at the TensorCore's references (what a region's proof data take). -/
abbrev tcv (W : Dev nD → Valuation τ sig (Elt F)) : (c : Dev nD) → (b : Ref sig .tc) → Buf (Elt F) ((c : Thread nD τ).loc b) :=
  fun c b => W c b

/-- After the first host stretch (region 0's entry). -/
abbrev W1 : Dev nD → Valuation τ sig (Elt F) := fun c => Gen.V1 m c
/-- After region 0: its three output arrays at what its write-backs leave. -/
def W2 (c : Dev nD) : Valuation τ sig (Elt F) :=
  Function.update (Function.update (Function.update (W1 m c) main_v4_0 ((dat0 (tcv (W1 m)) c).arrAt 3 cfg0.N))
    main_v4_1 ((dat0 (tcv (W1 m)) c).arrAt 4 cfg0.N)) main_v4_2 ((dat0 (tcv (W1 m)) c).arrAt 5 cfg0.N)
/-- After region 1: its output array at what its write-backs leave. -/
def W3 (c : Dev nD) : Valuation τ sig (Elt F) :=
  Function.update (W2 m c) main_v5 ((dat1 (tcv (W2 m)) c).arrAt 3 cfg1.N)
/-- After the second host stretch (region 2's entry). -/
def W4 (c : Dev nD) : Valuation τ sig (Elt F) := StableHlo.after hostOps2 (W3 m c)
/-- After region 2: its output array at what its write-backs leave. -/
def W5 (c : Dev nD) : Valuation τ sig (Elt F) :=
  Function.update (W4 m c) main_v16 ((dat2 (tcv (W4 m)) c).arrAt 5 cfg2.N)
/-- After the last host stretch: the end of @main. -/
def W6 (c : Dev nD) : Valuation τ sig (Elt F) := StableHlo.after hostOps3 (W5 m c)

/-- What the regions leave, as the unknowns the conditional frame's valuations are written over. -/
def outs : Gen.Outs (F := F) := fun J r c =>
  match J with
  | 2 => W2 m c r
  | 3 => W3 m c r
  | 5 => W5 m c r
  | _ => W1 m c r

end Cert.Kernel.Hand

end
-- ==== Proof.Kernel.Run.lean ====
/-
  The whole program as a run. The regions are handed to the launch theorem as segments whose entry and exit states are
  "every unscoped buffer at the boundary's contents (`W1` … `W6`), the generator register at some state, nothing owed";
  the host stretches run over the same buffers. The run's post reads EVERY unscoped buffer at the last boundary's
  contents, so both the frame (the arguments end as launched) and the value (the result buffer ends at `W6`) are
  corollaries. For any float instance.
-/
import proofs.«181084_j44066364457115_1_alg».proof.Proof.Kernel.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Reading the boundary contents -/

set_option maxHeartbeats 400000 in
theorem W2_v4_2 (c : Dev nD) : W2 m c main_v4_2 = (dat0 (tcv (W1 m)) c).arrAt 5 cfg0.N := by
  unfold W2
  exact Function.update_self _ _ _
set_option maxHeartbeats 400000 in
theorem W2_v4_1 (c : Dev nD) : W2 m c main_v4_1 = (dat0 (tcv (W1 m)) c).arrAt 4 cfg0.N := by
  unfold W2
  refine (Function.update_of_ne (StableHlo.devRef_ne_of_ne (by decide)) _ _).trans ?_
  exact Function.update_self _ _ _
set_option maxHeartbeats 400000 in
theorem W2_v4_0 (c : Dev nD) : W2 m c main_v4_0 = (dat0 (tcv (W1 m)) c).arrAt 3 cfg0.N := by
  unfold W2
  refine (Function.update_of_ne (StableHlo.devRef_ne_of_ne (by decide)) _ _).trans ?_
  refine (Function.update_of_ne (StableHlo.devRef_ne_of_ne (by decide)) _ _).trans ?_
  exact Function.update_self _ _ _
set_option maxHeartbeats 400000 in
/-- Region 0 changes only its three output arrays. -/
theorem W2_of (c : Dev nD) (b : Ref sig .tc) (h0 : b ≠ main_v4_0) (h1 : b ≠ main_v4_1) (h2 : b ≠ main_v4_2) : W2 m c b = W1 m c b := by
  unfold W2
  refine (Function.update_of_ne (StableHlo.devRef_ne_of_ne h2) _ _).trans ?_
  refine (Function.update_of_ne (StableHlo.devRef_ne_of_ne h1) _ _).trans ?_
  exact Function.update_of_ne (StableHlo.devRef_ne_of_ne h0) _ _
set_option maxHeartbeats 400000 in
theorem W3_v5 (c : Dev nD) : W3 m c main_v5 = (dat1 (tcv (W2 m)) c).arrAt 3 cfg1.N := by
  unfold W3; exact Function.update_self _ _ _
set_option maxHeartbeats 400000 in
/-- Region 1 changes only its output array. -/
theorem W3_of (c : Dev nD) (b : Ref sig .tc) (h : b ≠ main_v5) : W3 m c b = W2 m c b := by
  unfold W3; exact Function.update_of_ne (StableHlo.devRef_ne_of_ne h) _ _
set_option maxHeartbeats 400000 in
theorem W5_v16 (c : Dev nD) : W5 m c main_v16 = (dat2 (tcv (W4 m)) c).arrAt 5 cfg2.N := by
  unfold W5; exact Function.update_self _ _ _
set_option maxHeartbeats 400000 in
/-- Region 2 changes only its output array. -/
theorem W5_of (c : Dev nD) (b : Ref sig .tc) (h : b ≠ main_v16) : W5 m c b = W4 m c b := by
  unfold W5; exact Function.update_of_ne (StableHlo.devRef_ne_of_ne h) _ _

/-! ## The conditional frame's valuations at these unknowns are the boundary contents -/

theorem update_congr_val {W W' : Valuation τ sig (Elt F)} (r : DevRef τ sig) {x x' : r.ty.Contents (Elt F)} (hW : W = W') (hx : x = x') :
    Function.update W r x = Function.update W' r x' := by subst hW; subst hx; rfl

theorem outs_2 (r : Ref sig .tc) (c : Dev nD) : outs m 2 r c = W2 m c r := rfl
theorem outs_3 (r : Ref sig .tc) (c : Dev nD) : outs m 3 r c = W3 m c r := rfl
theorem outs_5 (r : Ref sig .tc) (c : Dev nD) : outs m 5 r c = W5 m c r := rfl

set_option maxHeartbeats 400000 in
theorem V2_eq (c : Dev nD) : Gen.V2 m (outs m) c = W2 m c := by
  unfold W2
  exact update_congr_val (Proc.devRef .tc main_v4_2)
    (update_congr_val (Proc.devRef .tc main_v4_1)
      (update_congr_val (Proc.devRef .tc main_v4_0) rfl ((outs_2 m main_v4_0 c).trans (W2_v4_0 m c)))
      ((outs_2 m main_v4_1 c).trans (W2_v4_1 m c)))
    ((outs_2 m main_v4_2 c).trans (W2_v4_2 m c))
set_option maxHeartbeats 400000 in
theorem V3_eq (c : Dev nD) : Gen.V3 m (outs m) c = W3 m c := by
  unfold W3
  exact update_congr_val (Proc.devRef .tc main_v5) (V2_eq m c) ((outs_3 m main_v5 c).trans (W3_v5 m c))
set_option maxHeartbeats 400000 in
theorem V4_eq (c : Dev nD) : Gen.V4 m (outs m) c = W4 m c := by
  unfold W4
  exact congrArg (StableHlo.after hostOps2) (V3_eq m c)
set_option maxHeartbeats 400000 in
theorem V5_eq (c : Dev nD) : Gen.V5 m (outs m) c = W5 m c := by
  unfold W5
  exact update_congr_val (Proc.devRef .tc main_v16) (V4_eq m c) ((outs_5 m main_v16 c).trans (W5_v16 m c))
set_option maxHeartbeats 400000 in
theorem V6_eq (c : Dev nD) : Gen.V6 m (outs m) c = W6 m c := by
  unfold W6
  exact congrArg (StableHlo.after hostOps3) (V5_eq m c)

/-! ## Each region's arrays at its exit, and the buffers it leaves alone -/

set_option maxHeartbeats 400000 in
theorem hF0 (c : Dev nD) (w : Fin cfg0.W) : (dat0 (tcv (W1 m)) c).arrAt w cfg0.N = tcv (W2 m) c (Pipeline.arrRef spec0 w) := by
  match w with
  | ⟨0, _⟩ => exact ((dat0 (tcv (W1 m)) c).arrAt_in 0 rfl _).trans ((A_eq0 (tcv (W1 m)) c 0).trans (W2_of m c main_v0 (by decide) (by decide) (by decide)).symm)
  | ⟨1, _⟩ => exact ((dat0 (tcv (W1 m)) c).arrAt_in 1 rfl _).trans ((A_eq0 (tcv (W1 m)) c 1).trans (W2_of m c main_v1 (by decide) (by decide) (by decide)).symm)
  | ⟨2, _⟩ => exact ((dat0 (tcv (W1 m)) c).arrAt_in 2 rfl _).trans ((A_eq0 (tcv (W1 m)) c 2).trans (W2_of m c main_v3 (by decide) (by decide) (by decide)).symm)
  | ⟨3, _⟩ => exact (W2_v4_0 m c).symm
  | ⟨4, _⟩ => exact (W2_v4_1 m c).symm
  | ⟨5, _⟩ => exact (W2_v4_2 m c).symm
theorem hrest0 (c : Dev nD) : ∀ b, b ∉ Finset.univ.image (Pipeline.arrRef spec0) → tcv (W2 m) c b = tcv (W1 m) c b :=
  fun b hb => W2_of m c b
    (fun e => hb (Finset.mem_image.mpr ⟨(3 : Fin 6), Finset.mem_univ _, by subst e; rfl⟩))
    (fun e => hb (Finset.mem_image.mpr ⟨(4 : Fin 6), Finset.mem_univ _, by subst e; rfl⟩))
    (fun e => hb (Finset.mem_image.mpr ⟨(5 : Fin 6), Finset.mem_univ _, by subst e; rfl⟩))

set_option maxHeartbeats 400000 in
theorem hF1 (c : Dev nD) (w : Fin cfg1.W) : (dat1 (tcv (W2 m)) c).arrAt w cfg1.N = tcv (W3 m) c (Pipeline.arrRef spec1 w) := by
  match w with
  | ⟨0, _⟩ => exact ((dat1 (tcv (W2 m)) c).arrAt_in 0 rfl _).trans ((A_eq1 (tcv (W2 m)) c 0).trans (W3_of m c main_v4_1 (by decide)).symm)
  | ⟨1, _⟩ => exact ((dat1 (tcv (W2 m)) c).arrAt_in 1 rfl _).trans ((A_eq1 (tcv (W2 m)) c 1).trans (W3_of m c main_v4_2 (by decide)).symm)
  | ⟨2, _⟩ => exact ((dat1 (tcv (W2 m)) c).arrAt_in 2 rfl _).trans ((A_eq1 (tcv (W2 m)) c 2).trans (W3_of m c main_v4_0 (by decide)).symm)
  | ⟨3, _⟩ => exact (W3_v5 m c).symm
theorem hrest1 (c : Dev nD) : ∀ b, b ∉ Finset.univ.image (Pipeline.arrRef spec1) → tcv (W3 m) c b = tcv (W2 m) c b :=
  fun b hb => W3_of m c b (fun e => hb (Finset.mem_image.mpr ⟨(3 : Fin 4), Finset.mem_univ _, by subst e; rfl⟩))

set_option maxHeartbeats 400000 in
theorem hF2 (c : Dev nD) (w : Fin cfg2.W) : (dat2 (tcv (W4 m)) c).arrAt w cfg2.N = tcv (W5 m) c (Pipeline.arrRef spec2 w) := by
  match w with
  | ⟨0, _⟩ => exact ((dat2 (tcv (W4 m)) c).arrAt_in 0 rfl _).trans ((A_eq2 (tcv (W4 m)) c 0).trans (W5_of m c main_v6 (by decide)).symm)
  | ⟨1, _⟩ => exact ((dat2 (tcv (W4 m)) c).arrAt_in 1 rfl _).trans ((A_eq2 (tcv (W4 m)) c 1).trans (W5_of m c main_arg7 (by decide)).symm)
  | ⟨2, _⟩ => exact ((dat2 (tcv (W4 m)) c).arrAt_in 2 rfl _).trans ((A_eq2 (tcv (W4 m)) c 2).trans (W5_of m c main_v15 (by decide)).symm)
  | ⟨3, _⟩ => exact ((dat2 (tcv (W4 m)) c).arrAt_in 3 rfl _).trans ((A_eq2 (tcv (W4 m)) c 3).trans (W5_of m c main_v13 (by decide)).symm)
  | ⟨4, _⟩ => exact ((dat2 (tcv (W4 m)) c).arrAt_in 4 rfl _).trans ((A_eq2 (tcv (W4 m)) c 4).trans (W5_of m c main_v14 (by decide)).symm)
  | ⟨5, _⟩ => exact (W5_v16 m c).symm
theorem hrest2 (c : Dev nD) : ∀ b, b ∉ Finset.univ.image (Pipeline.arrRef spec2) → tcv (W5 m) c b = tcv (W4 m) c b :=
  fun b hb => W5_of m c b (fun e => hb (Finset.mem_image.mpr ⟨(5 : Fin 6), Finset.mem_univ _, by subst e; rfl⟩))

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (tcv (W1 m)) c
  | ⟨1, _⟩ => fun c => dat1 (tcv (W2 m)) c
  | ⟨2, _⟩ => fun c => dat2 (tcv (W4 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- `iapply` of a library lemma stated over the pinned configuration unifies with the printed one only when unification may
-- unfold plain definitions in a metavariable's type
set_option backward.isDefEq.respectTransparency.types false in
/-- Region 0 over the thread state: entered with every unscoped buffer at `W1`, left with them at `W2`. Its arrays are
    split out of the unscoped buffers at entry and put back at their final contents at exit; the generator register goes
    into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (tcv (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (W1 m) c) (tcv (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- Region 1 over the thread state: entered with every unscoped buffer at `W2`, left with them at `W3`. Its arrays are
    split out of the unscoped buffers at entry and put back at their final contents at exit; the generator register goes
    into the kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (tcv (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (W2 m) c) (tcv (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- Region 2 over the thread state: entered with every unscoped buffer at `W4`, left with them at `W5`. Its arrays are
    split out of the unscoped buffers at entry and put back at their final contents at exit; the generator register goes
    into the kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (tcv (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (W4 m) c) (tcv (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order: a host segment per stretch from its boundary's contents, a region per pallas_call. -/
abbrev segs : List (Pipeline.Seg (pcfgs (F := F)) adm (pdats m) () defs₀ 𝒱₀ L lv) :=
  [ .host (hseg hostOps0 hostOps0_sub hostOps0_fresh (Gen.V0 m)),
    .region (reg0 m),
    .region (reg1 m),
    .host (hseg hostOps2 hostOps2_sub hostOps2_fresh (W3 m)),
    .region (reg2 m),
    .host (hseg hostOps3 hostOps3_sub hostOps3_fresh (W5 m)) ]

/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c =>
      show iprop(StableHlo.held (c : Thread nD τ) (Pipeline.ucRefs τ sig) (StableHlo.after hostOps3 (W5 m c)) ∗ R c)
          ⊢ iprop((StableHlo.held (c : Thread nD τ) (Pipeline.ucRefs τ sig) (W6 m c) ∗ ∃ r, prngReg c r)
            ∗ ∃ W, owes (c : Thread nD τ) (0 : CellTallies nD τ sig Unit) W) from by
        unfold W6
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## The two corollaries -/

/-- Every argument reaches the end as launched: no host stretch writes it, no region changes it. -/
theorem W6_arg (c : Dev nD) (b : Ref sig .tc) (h6 : b ∉ hostOps3_W) (h5 : b ≠ main_v16) (h4 : b ∉ hostOps2_W) (h3 : b ≠ main_v5)
    (h20 : b ≠ main_v4_0) (h21 : b ≠ main_v4_1) (h22 : b ≠ main_v4_2) (h1 : b ∉ hostOps0_W) :
    W6 m c b = m ((c : Thread nD τ).loc b) := by
  unfold W6
  refine (StableHlo.after_of_writes_sub hostOps3 _ hostOps3_writes h6).trans ?_
  refine (W5_of m c b h5).trans ?_
  unfold W4
  refine (StableHlo.after_of_writes_sub hostOps2 _ hostOps2_writes h4).trans ?_
  refine (W3_of m c b h3).trans ?_
  refine (W2_of m c b h20 h21 h22).trans ?_
  exact (Gen.V1_of m c b h1).trans rfl

/-- From a state that has every unscoped buffer at the last boundary's contents: each argument array is as launched. -/
theorem args_kept (s : MemSt nD τ sig (Elt F))
    (hh : ∀ c : Dev nD, ∀ b ∈ Pipeline.ucRefs τ sig, s.mem (((c : Thread nD τ)).1, b) = W6 m c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12) :=
  ⟨(hh c _ (mem_uc main_arg0 (by decide))).trans (W6_arg m c main_arg0 (by decide) (by decide) (by decide) (by decide) (by decide) (by decide) (by decide) (by decide)),
   (hh c _ (mem_uc main_arg1 (by decide))).trans (W6_arg m c main_arg1 (by decide) (by decide) (by decide) (by decide) (by decide) (by decide) (by decide) (by decide)),
   (hh c _ (mem_uc main_arg2 (by decide))).trans (W6_arg m c main_arg2 (by decide) (by decide) (by decide) (by decide) (by decide) (by decide) (by decide) (by decide)),
   (hh c _ (mem_uc main_arg3 (by decide))).trans (W6_arg m c main_arg3 (by decide) (by decide) (by decide) (by decide) (by decide) (by decide) (by decide) (by decide)),
   (hh c _ (mem_uc main_arg4 (by decide))).trans (W6_arg m c main_arg4 (by decide) (by decide) (by decide) (by decide) (by decide) (by decide) (by decide) (by decide)),
   (hh c _ (mem_uc main_arg5 (by decide))).trans (W6_arg m c main_arg5 (by decide) (by decide) (by decide) (by decide) (by decide) (by decide) (by decide) (by decide)),
   (hh c _ (mem_uc main_arg6 (by decide))).trans (W6_arg m c main_arg6 (by decide) (by decide) (by decide) (by decide) (by decide) (by decide) (by decide) (by decide)),
   (hh c _ (mem_uc main_arg7 (by decide))).trans (W6_arg m c main_arg7 (by decide) (by decide) (by decide) (by decide) (by decide) (by decide) (by decide) (by decide)),
   (hh c _ (mem_uc main_arg8 (by decide))).trans (W6_arg m c main_arg8 (by decide) (by decide) (by decide) (by decide) (by decide) (by decide) (by decide) (by decide)),
   (hh c _ (mem_uc main_arg9 (by decide))).trans (W6_arg m c main_arg9 (by decide) (by decide) (by decide) (by decide) (by decide) (by decide) (by decide) (by decide)),
   (hh c _ (mem_uc main_arg10 (by decide))).trans (W6_arg m c main_arg10 (by decide) (by decide) (by decide) (by decide) (by decide) (by decide) (by decide) (by decide)),
   (hh c _ (mem_uc main_arg11 (by decide))).trans (W6_arg m c main_arg11 (by decide) (by decide) (by decide) (by decide) (by decide) (by decide) (by decide) (by decide)),
   (hh c _ (mem_uc main_arg12 (by decide))).trans (W6_arg m c main_arg12 (by decide) (by decide) (by decide) (by decide) (by decide) (by decide) (by decide) (by decide))⟩

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r hh c => args_kept m r.2 hh c) (run_all m ρ)

/-- THE VALUE RUN: the result buffer ends at the last boundary's contents, and every argument array as launched. -/
theorem run_value (ρ : Dev nD → PrngReg) : θ_run defs (onTc (τ := τ) (main (F := F))) ⟨m, fun _ => 0, ρ⟩ (fun r => ∀ c : Dev nD,
      r.2.mem ((c.tc : Thread nD τ).loc main_v17) = W6 m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r hh c => ⟨hh c _ (mem_uc main_v17 (by decide)), args_kept m r.2 hh c⟩) (run_all m ρ)

end Cert.Kernel.Hand

end
-- ==== Proof.KernelIdeal.Body0.lean ====
/-
  The projection kernel (the first pallas_call) at one grid point, as a fact about memory: entered with a block of 2048
  positions of x ([1, 2048, 128]), the three weight matrices side by side ([128, 192]) and the three biases side by side
  ([1, 192]) staged whole, and its three output buffers at anything, the body runs to the end without a fault, leaves the
  inputs as they were and leaves in each output buffer the ONE value it stores there — a payload that is a function of
  the three input blocks only (columns 0–63, 64–127 and 128–191 of x·W + b). From that: the pipeline's proof data and the
  obligation the launch asks for, at every point and on every core, at the contents `V` the region is entered with and for
  any float instance.
-/
import proofs.«181084_j44066364457115_1_alg».proof.Proof.Gen.KernelIdeal.Launch
import proofs.«181084_j44066364457115_1_alg».proof.Proof.Gen.KernelIdeal.Skeleton
import proofs.«181084_j44066364457115_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index never moves is fetched once and still holds that block), whatever proof data has `V`'s array there and a body
    that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S1x2048x128 := Rect.unit (s := S1x2048x128) ![0, 0, 0] S1x2048x128.size inb_S1x2048x128_S1x2048x128_0_0_0
abbrev rW0 : Rect S128x192 := Rect.unit (s := S128x192) ![0, 0] S128x192.size inb_S128x192_S128x192_0_0
abbrev rB0 : Rect S1x192 := Rect.unit (s := S1x192) ![0, 0] S1x192.size inb_S1x192_S1x192_0_0
abbrev rO0 : Rect S1x2048x64 := Rect.unit (s := S1x2048x64) ![0, 0, 0] S1x2048x64.size inb_S1x2048x64_S1x2048x64_0_0_0

/-- Each output buffer after the body: its one store, of that output's payload of the three loaded blocks. -/
def out0_3 (x0 : Vec F S1x2048x128 .f32) (x1 : Vec F S128x192 .f32) (x2 : Vec F S1x192 .f32) : Vec F S1x2048x64 .bf16 :=
  View.canon [⟨rO0, k0_pay2 (View.ld x0 rX0) (View.ld x1 rW0) (View.ld x2 rB0)⟩]
def out0_4 (x0 : Vec F S1x2048x128 .f32) (x1 : Vec F S128x192 .f32) (x2 : Vec F S1x192 .f32) : Vec F S1x2048x64 .bf16 :=
  View.canon [⟨rO0, k0_pay3 (View.ld x0 rX0) (View.ld x1 rW0) (View.ld x2 rB0)⟩]
def out0_5 (x0 : Vec F S1x2048x128 .f32) (x1 : Vec F S128x192 .f32) (x2 : Vec F S1x192 .f32) : Vec F S1x2048x64 .bf16 :=
  View.canon [⟨rO0, k0_pay4 (View.ld x0 rX0) (View.ld x1 rW0) (View.ld x2 rB0)⟩]

/-- A whole-buffer store covers the buffer. -/
theorem cover0_out (p0 : Vec F S1x2048x64 .bf16) (y : S1x2048x64.Idx) :
    ∃ pc ∈ ([⟨rO0, p0⟩] : List (View.Piece (Elt F) S1x2048x64 .bf16)), y ∈ pc.1.set :=
  View.cover_of_tiled [⟨rO0, p0⟩] S1x2048x64.size (by rfl) y

set_option maxHeartbeats 1000000 in
/-- The body's triple on whole staging memrefs. -/
theorem sound_kernel0 (c : Dev nD) (E : Set ℕ) (i : grid0.Coords)
    (arg2 : Memref sig .tc .vmem S1x2048x128 .f32) (harg2 : arg2.IsWhole) (arg3 : Memref sig .tc .vmem S128x192 .f32) (harg3 : arg3.IsWhole)
    (arg4 : Memref sig .tc .vmem S1x192 .f32) (harg4 : arg4.IsWhole) (arg5 : Memref sig .tc .vmem S1x2048x64 .bf16) (harg5 : arg5.IsWhole)
    (arg6 : Memref sig .tc .vmem S1x2048x64 .bf16) (harg6 : arg6.IsWhole) (arg7 : Memref sig .tc .vmem S1x2048x64 .bf16) (harg7 : arg7.IsWhole)
    (x0 : Vec F S1x2048x128 .f32) (x1 : Vec F S128x192 .f32) (x2 : Vec F S1x192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-- The pipeline's proof data on core `c`: the arrays as the region finds them; after the body each input's buffer at its
    block and each output's at its payload of the input blocks; nothing else held, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Body1.lean ====
/-
  The attention kernel (the second pallas_call) at one grid point, as a fact about memory: entered with its three input
  blocks (θ, φ and g of one batch element, each [1, 16384, 64]) staged whole and its output buffer at anything, the body
  runs to the end without a fault, leaves the inputs as they were and leaves in the output buffer the ONE value it stores
  — its payload, a function of the three blocks only. From that: the pipeline's proof data (what each window's buffer
  holds after the body at each point) and the obligation the launch asks for, at every point and on every core.
  Everything is stated at the contents `V` the region is entered with, and for any float instance.
-/
import proofs.«181084_j44066364457115_1_alg».proof.Proof.Gen.KernelIdeal.Launch
import proofs.«181084_j44066364457115_1_alg».proof.Proof.Gen.KernelIdeal.Skeleton
import proofs.«181084_j44066364457115_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whatever proof data has `V`'s array there
    and a body that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rIn1 : Rect S1x16384x64 := Rect.unit (s := S1x16384x64) ![0, 0, 0] S1x16384x64.size inb_S1x16384x64_S1x16384x64_0_0_0
abbrev rOut1 : Rect S1x64x16384 := Rect.unit (s := S1x64x16384) ![0, 0, 0] S1x64x16384.size inb_S1x64x16384_S1x64x16384_0_0_0

/-- The output buffer after the body: its one store, of the payload of the three loaded blocks. -/
def out1_3 (x0 x1 x2 : Vec F S1x16384x64 .bf16) : Vec F S1x64x16384 .bf16 :=
  View.canon [⟨rOut1, k1_pay1 (View.ld x0 rIn1) (View.ld x1 rIn1) (View.ld x2 rIn1)⟩]

/-- The store covers the buffer. -/
theorem cover1_3 (p0 : Vec F S1x64x16384 .bf16) (y : S1x64x16384.Idx) :
    ∃ pc ∈ ([⟨rOut1, p0⟩] : List (View.Piece (Elt F) S1x64x16384 .bf16)), y ∈ pc.1.set :=
  View.cover_of_tiled [⟨rOut1, p0⟩] S1x64x16384.size (by rfl) y

set_option maxHeartbeats 1000000 in
/-- The body's triple on whole staging memrefs. -/
theorem sound_kernel1 (c : Dev nD) (E : Set ℕ) (i : grid1.Coords)
    (arg1 : Memref sig .tc .vmem S1x16384x64 .bf16) (harg1 : arg1.IsWhole) (arg2 : Memref sig .tc .vmem S1x16384x64 .bf16) (harg2 : arg2.IsWhole)
    (arg3 : Memref sig .tc .vmem S1x16384x64 .bf16) (harg3 : arg3.IsWhole) (arg4 : Memref sig .tc .vmem S1x64x16384 .bf16) (harg4 : arg4.IsWhole)
    (x0 x1 x2 : Vec F S1x16384x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body each input's buffer at its
    block and the output's at `out1_3` of the input blocks; nothing else held, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Body2.lean ====
/-
  The output kernel (the third pallas_call) at one grid point, as a fact about memory: entered with a block of 2048
  positions of the re-laid attention map ([1, 2048, 64]), the output weights ([64, 64]) and three rows ([1, 64]: the output
  bias, the batch-norm scale and the batch-norm shift) staged whole, and its output buffer at anything, the body runs to
  the end without a fault, leaves the inputs as they were and leaves in the output buffer the ONE value it stores — a
  payload that is a function of the five input blocks only. From that: the pipeline's proof data and the obligation the
  launch asks for, at every point and on every core, at the contents `V` the region is entered with and for any float
  instance.
-/
import proofs.«181084_j44066364457115_1_alg».proof.Proof.Gen.KernelIdeal.Launch
import proofs.«181084_j44066364457115_1_alg».proof.Proof.Gen.KernelIdeal.Skeleton
import proofs.«181084_j44066364457115_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose block
    index never moves is fetched once and still holds that block), whatever proof data has `V`'s array there and a body
    that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rZ2 : Rect S1x2048x64 := Rect.unit (s := S1x2048x64) ![0, 0, 0] S1x2048x64.size inb_S1x2048x64_S1x2048x64_0_0_0
abbrev rW2 : Rect S64x64 := Rect.unit (s := S64x64) ![0, 0] S64x64.size inb_S64x64_S64x64_0_0
abbrev rV2 : Rect S1x64 := Rect.unit (s := S1x64) ![0, 0] S1x64.size inb_S1x64_S1x64_0_0

/-- The output buffer after the body: its one store, of the payload of the five loaded blocks. -/
def out2_5 (x0 : Vec F S1x2048x64 .bf16) (x1 : Vec F S64x64 .f32) (x2 x3 x4 : Vec F S1x64 .f32) : Vec F S1x2048x64 .f32 :=
  View.canon [⟨rZ2, k2_pay1 (View.ld x0 rZ2) (View.ld x1 rW2) (View.ld x2 rV2) (View.ld x3 rV2) (View.ld x4 rV2)⟩]

/-- The whole-buffer store covers the buffer. -/
theorem cover2_5 (p0 : Vec F S1x2048x64 .f32) (y : S1x2048x64.Idx) :
    ∃ pc ∈ ([⟨rZ2, p0⟩] : List (View.Piece (Elt F) S1x2048x64 .f32)), y ∈ pc.1.set :=
  View.cover_of_tiled [⟨rZ2, p0⟩] S1x2048x64.size (by rfl) y

set_option maxHeartbeats 1000000 in
/-- The body's triple on whole staging memrefs. -/
theorem sound_kernel2 (c : Dev nD) (E : Set ℕ) (i : grid2.Coords)
    (arg2 : Memref sig .tc .vmem S1x2048x64 .bf16) (harg2 : arg2.IsWhole) (arg3 : Memref sig .tc .vmem S64x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole) (arg7 : Memref sig .tc .vmem S1x2048x64 .f32) (harg7 : arg7.IsWhole)
    (x0 : Vec F S1x2048x64 .bf16) (x1 : Vec F S64x64 .f32) (x2 x3 x4 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core `c`: the arrays as the region finds them; after the body each input's buffer at its
    block and the output's at the payload of the input blocks; nothing else held, nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Bounds.lean ====
/-
  What a core's unscoped buffers hold between two items of @main (a stretch of host operations, or one of the three
  kernel regions): the launch memory, then what each host stretch computes, then — for the arrays a region writes — what
  the region's write-backs leave there (the fold of the flushed blocks over the grid, `Dat.arrAt`). These boundary
  contents are defined outright (`W1` … `W6`), each region's proof data being taken at the contents the region is entered
  with. For any float instance.
-/
import proofs.«181084_j44066364457115_1_alg».proof.Proof.Gen.KernelIdeal.Regions
import proofs.«181084_j44066364457115_1_alg».proof.Proof.KernelIdeal.Body0
import proofs.«181084_j44066364457115_1_alg».proof.Proof.KernelIdeal.Body1
import proofs.«181084_j44066364457115_1_alg».proof.Proof.KernelIdeal.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- A valuation read at the TensorCore's references (what a region's proof data take). -/
abbrev tcv (W : Dev nD → Valuation τ sig (Elt F)) : (c : Dev nD) → (b : Ref sig .tc) → Buf (Elt F) ((c : Thread nD τ).loc b) :=
  fun c b => W c b

/-- After the first host stretch (region 0's entry). -/
abbrev W1 : Dev nD → Valuation τ sig (Elt F) := fun c => Gen.V1 m c
/-- After region 0: its three output arrays at what its write-backs leave. -/
def W2 (c : Dev nD) : Valuation τ sig (Elt F) :=
  Function.update (Function.update (Function.update (W1 m c) main_v4_0 ((dat0 (tcv (W1 m)) c).arrAt 3 cfg0.N))
    main_v4_1 ((dat0 (tcv (W1 m)) c).arrAt 4 cfg0.N)) main_v4_2 ((dat0 (tcv (W1 m)) c).arrAt 5 cfg0.N)
/-- After region 1: its output array at what its write-backs leave. -/
def W3 (c : Dev nD) : Valuation τ sig (Elt F) :=
  Function.update (W2 m c) main_v5 ((dat1 (tcv (W2 m)) c).arrAt 3 cfg1.N)
/-- After the second host stretch (region 2's entry). -/
def W4 (c : Dev nD) : Valuation τ sig (Elt F) := StableHlo.after hostOps2 (W3 m c)
/-- After region 2: its output array at what its write-backs leave. -/
def W5 (c : Dev nD) : Valuation τ sig (Elt F) :=
  Function.update (W4 m c) main_v16 ((dat2 (tcv (W4 m)) c).arrAt 5 cfg2.N)
/-- After the last host stretch: the end of @main. -/
def W6 (c : Dev nD) : Valuation τ sig (Elt F) := StableHlo.after hostOps3 (W5 m c)

/-- What the regions leave, as the unknowns the conditional frame's valuations are written over. -/
def outs : Gen.Outs (F := F) := fun J r c =>
  match J with
  | 2 => W2 m c r
  | 3 => W3 m c r
  | 5 => W5 m c r
  | _ => W1 m c r

end Cert.KernelIdeal.Hand

end
-- ==== Proof.KernelIdeal.Run.lean ====
/-
  The whole program as a run. The regions are handed to the launch theorem as segments whose entry and exit states are
  "every unscoped buffer at the boundary's contents (`W1` … `W6`), the generator register at some state, nothing owed";
  the host stretches run over the same buffers. The run's post reads EVERY unscoped buffer at the last boundary's
  contents, so both the frame (the arguments end as launched) and the value (the result buffer ends at `W6`) are
  corollaries. For any float instance.
-/
import proofs.«181084_j44066364457115_1_alg».proof.Proof.KernelIdeal.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Reading the boundary contents -/

set_option maxHeartbeats 400000 in
theorem W2_v4_2 (c : Dev nD) : W2 m c main_v4_2 = (dat0 (tcv (W1 m)) c).arrAt 5 cfg0.N := by
  unfold W2
  exact Function.update_self _ _ _
set_option maxHeartbeats 400000 in
theorem W2_v4_1 (c : Dev nD) : W2 m c main_v4_1 = (dat0 (tcv (W1 m)) c).arrAt 4 cfg0.N := by
  unfold W2
  refine (Function.update_of_ne (StableHlo.devRef_ne_of_ne (by decide)) _ _).trans ?_
  exact Function.update_self _ _ _
set_option maxHeartbeats 400000 in
theorem W2_v4_0 (c : Dev nD) : W2 m c main_v4_0 = (dat0 (tcv (W1 m)) c).arrAt 3 cfg0.N := by
  unfold W2
  refine (Function.update_of_ne (StableHlo.devRef_ne_of_ne (by decide)) _ _).trans ?_
  refine (Function.update_of_ne (StableHlo.devRef_ne_of_ne (by decide)) _ _).trans ?_
  exact Function.update_self _ _ _
set_option maxHeartbeats 400000 in
/-- Region 0 changes only its three output arrays. -/
theorem W2_of (c : Dev nD) (b : Ref sig .tc) (h0 : b ≠ main_v4_0) (h1 : b ≠ main_v4_1) (h2 : b ≠ main_v4_2) : W2 m c b = W1 m c b := by
  unfold W2
  refine (Function.update_of_ne (StableHlo.devRef_ne_of_ne h2) _ _).trans ?_
  refine (Function.update_of_ne (StableHlo.devRef_ne_of_ne h1) _ _).trans ?_
  exact Function.update_of_ne (StableHlo.devRef_ne_of_ne h0) _ _
set_option maxHeartbeats 400000 in
theorem W3_v5 (c : Dev nD) : W3 m c main_v5 = (dat1 (tcv (W2 m)) c).arrAt 3 cfg1.N := by
  unfold W3; exact Function.update_self _ _ _
set_option maxHeartbeats 400000 in
/-- Region 1 changes only its output array. -/
theorem W3_of (c : Dev nD) (b : Ref sig .tc) (h : b ≠ main_v5) : W3 m c b = W2 m c b := by
  unfold W3; exact Function.update_of_ne (StableHlo.devRef_ne_of_ne h) _ _
set_option maxHeartbeats 400000 in
theorem W5_v16 (c : Dev nD) : W5 m c main_v16 = (dat2 (tcv (W4 m)) c).arrAt 5 cfg2.N := by
  unfold W5; exact Function.update_self _ _ _
set_option maxHeartbeats 400000 in
/-- Region 2 changes only its output array. -/
theorem W5_of (c : Dev nD) (b : Ref sig .tc) (h : b ≠ main_v16) : W5 m c b = W4 m c b := by
  unfold W5; exact Function.update_of_ne (StableHlo.devRef_ne_of_ne h) _ _

/-! ## The conditional frame's valuations at these unknowns are the boundary contents -/

theorem update_congr_val {W W' : Valuation τ sig (Elt F)} (r : DevRef τ sig) {x x' : r.ty.Contents (Elt F)} (hW : W = W') (hx : x = x') :
    Function.update W r x = Function.update W' r x' := by subst hW; subst hx; rfl

theorem outs_2 (r : Ref sig .tc) (c : Dev nD) : outs m 2 r c = W2 m c r := rfl
theorem outs_3 (r : Ref sig .tc) (c : Dev nD) : outs m 3 r c = W3 m c r := rfl
theorem outs_5 (r : Ref sig .tc) (c : Dev nD) : outs m 5 r c = W5 m c r := rfl

set_option maxHeartbeats 400000 in
theorem V2_eq (c : Dev nD) : Gen.V2 m (outs m) c = W2 m c := by
  unfold W2
  exact update_congr_val (Proc.devRef .tc main_v4_2)
    (update_congr_val (Proc.devRef .tc main_v4_1)
      (update_congr_val (Proc.devRef .tc main_v4_0) rfl ((outs_2 m main_v4_0 c).trans (W2_v4_0 m c)))
      ((outs_2 m main_v4_1 c).trans (W2_v4_1 m c)))
    ((outs_2 m main_v4_2 c).trans (W2_v4_2 m c))
set_option maxHeartbeats 400000 in
theorem V3_eq (c : Dev nD) : Gen.V3 m (outs m) c = W3 m c := by
  unfold W3
  exact update_congr_val (Proc.devRef .tc main_v5) (V2_eq m c) ((outs_3 m main_v5 c).trans (W3_v5 m c))
set_option maxHeartbeats 400000 in
theorem V4_eq (c : Dev nD) : Gen.V4 m (outs m) c = W4 m c := by
  unfold W4
  exact congrArg (StableHlo.after hostOps2) (V3_eq m c)
set_option maxHeartbeats 400000 in
theorem V5_eq (c : Dev nD) : Gen.V5 m (outs m) c = W5 m c := by
  unfold W5
  exact update_congr_val (Proc.devRef .tc main_v16) (V4_eq m c) ((outs_5 m main_v16 c).trans (W5_v16 m c))
set_option maxHeartbeats 400000 in
theorem V6_eq (c : Dev nD) : Gen.V6 m (outs m) c = W6 m c := by
  unfold W6
  exact congrArg (StableHlo.after hostOps3) (V5_eq m c)

/-! ## Each region's arrays at its exit, and the buffers it leaves alone -/

set_option maxHeartbeats 400000 in
theorem hF0 (c : Dev nD) (w : Fin cfg0.W) : (dat0 (tcv (W1 m)) c).arrAt w cfg0.N = tcv (W2 m) c (Pipeline.arrRef spec0 w) := by
  match w with
  | ⟨0, _⟩ => exact ((dat0 (tcv (W1 m)) c).arrAt_in 0 rfl _).trans ((A_eq0 (tcv (W1 m)) c 0).trans (W2_of m c main_v0 (by decide) (by decide) (by decide)).symm)
  | ⟨1, _⟩ => exact ((dat0 (tcv (W1 m)) c).arrAt_in 1 rfl _).trans ((A_eq0 (tcv (W1 m)) c 1).trans (W2_of m c main_v1 (by decide) (by decide) (by decide)).symm)
  | ⟨2, _⟩ => exact ((dat0 (tcv (W1 m)) c).arrAt_in 2 rfl _).trans ((A_eq0 (tcv (W1 m)) c 2).trans (W2_of m c main_v3 (by decide) (by decide) (by decide)).symm)
  | ⟨3, _⟩ => exact (W2_v4_0 m c).symm
  | ⟨4, _⟩ => exact (W2_v4_1 m c).symm
  | ⟨5, _⟩ => exact (W2_v4_2 m c).symm
theorem hrest0 (c : Dev nD) : ∀ b, b ∉ Finset.univ.image (Pipeline.arrRef spec0) → tcv (W2 m) c b = tcv (W1 m) c b :=
  fun b hb => W2_of m c b
    (fun e => hb (Finset.mem_image.mpr ⟨(3 : Fin 6), Finset.mem_univ _, by subst e; rfl⟩))
    (fun e => hb (Finset.mem_image.mpr ⟨(4 : Fin 6), Finset.mem_univ _, by subst e; rfl⟩))
    (fun e => hb (Finset.mem_image.mpr ⟨(5 : Fin 6), Finset.mem_univ _, by subst e; rfl⟩))

set_option maxHeartbeats 400000 in
theorem hF1 (c : Dev nD) (w : Fin cfg1.W) : (dat1 (tcv (W2 m)) c).arrAt w cfg1.N = tcv (W3 m) c (Pipeline.arrRef spec1 w) := by
  match w with
  | ⟨0, _⟩ => exact ((dat1 (tcv (W2 m)) c).arrAt_in 0 rfl _).trans ((A_eq1 (tcv (W2 m)) c 0).trans (W3_of m c main_v4_1 (by decide)).symm)
  | ⟨1, _⟩ => exact ((dat1 (tcv (W2 m)) c).arrAt_in 1 rfl _).trans ((A_eq1 (tcv (W2 m)) c 1).trans (W3_of m c main_v4_2 (by decide)).symm)
  | ⟨2, _⟩ => exact ((dat1 (tcv (W2 m)) c).arrAt_in 2 rfl _).trans ((A_eq1 (tcv (W2 m)) c 2).trans (W3_of m c main_v4_0 (by decide)).symm)
  | ⟨3, _⟩ => exact (W3_v5 m c).symm
theorem hrest1 (c : Dev nD) : ∀ b, b ∉ Finset.univ.image (Pipeline.arrRef spec1) → tcv (W3 m) c b = tcv (W2 m) c b :=
  fun b hb => W3_of m c b (fun e => hb (Finset.mem_image.mpr ⟨(3 : Fin 4), Finset.mem_univ _, by subst e; rfl⟩))

set_option maxHeartbeats 400000 in
theorem hF2 (c : Dev nD) (w : Fin cfg2.W) : (dat2 (tcv (W4 m)) c).arrAt w cfg2.N = tcv (W5 m) c (Pipeline.arrRef spec2 w) := by
  match w with
  | ⟨0, _⟩ => exact ((dat2 (tcv (W4 m)) c).arrAt_in 0 rfl _).trans ((A_eq2 (tcv (W4 m)) c 0).trans (W5_of m c main_v6 (by decide)).symm)
  | ⟨1, _⟩ => exact ((dat2 (tcv (W4 m)) c).arrAt_in 1 rfl _).trans ((A_eq2 (tcv (W4 m)) c 1).trans (W5_of m c main_arg7 (by decide)).symm)
  | ⟨2, _⟩ => exact ((dat2 (tcv (W4 m)) c).arrAt_in 2 rfl _).trans ((A_eq2 (tcv (W4 m)) c 2).trans (W5_of m c main_v15 (by decide)).symm)
  | ⟨3, _⟩ => exact ((dat2 (tcv (W4 m)) c).arrAt_in 3 rfl _).trans ((A_eq2 (tcv (W4 m)) c 3).trans (W5_of m c main_v13 (by decide)).symm)
  | ⟨4, _⟩ => exact ((dat2 (tcv (W4 m)) c).arrAt_in 4 rfl _).trans ((A_eq2 (tcv (W4 m)) c 4).trans (W5_of m c main_v14 (by decide)).symm)
  | ⟨5, _⟩ => exact (W5_v16 m c).symm
theorem hrest2 (c : Dev nD) : ∀ b, b ∉ Finset.univ.image (Pipeline.arrRef spec2) → tcv (W5 m) c b = tcv (W4 m) c b :=
  fun b hb => W5_of m c b (fun e => hb (Finset.mem_image.mpr ⟨(5 : Fin 6), Finset.mem_univ _, by subst e; rfl⟩))

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (tcv (W1 m)) c
  | ⟨1, _⟩ => fun c => dat1 (tcv (W2 m)) c
  | ⟨2, _⟩ => fun c => dat2 (tcv (W4 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- `iapply` of a library lemma stated over the pinned configuration unifies with the printed one only when unification may
-- unfold plain definitions in a metavariable's type
set_option backward.isDefEq.respectTransparency.types false in
/-- Region 0 over the thread state: entered with every unscoped buffer at `W1`, left with them at `W2`. Its arrays are
    split out of the unscoped buffers at entry and put back at their final contents at exit; the generator register goes
    into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (tcv (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (W1 m) c) (tcv (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- Region 1 over the thread state: entered with every unscoped buffer at `W2`, left with them at `W3`. Its arrays are
    split out of the unscoped buffers at entry and put back at their final contents at exit; the generator register goes
    into the kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (tcv (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (W2 m) c) (tcv (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- Region 2 over the thread state: entered with every unscoped buffer at `W4`, left with them at `W5`. Its arrays are
    split out of the unscoped buffers at entry and put back at their final contents at exit; the generator register goes
    into the kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (tcv (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (W4 m) c) (tcv (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order: a host segment per stretch from its boundary's contents, a region per pallas_call. -/
abbrev segs : List (Pipeline.Seg (pcfgs (F := F)) adm (pdats m) () defs₀ 𝒱₀ L lv) :=
  [ .host (hseg hostOps0 hostOps0_sub hostOps0_fresh (Gen.V0 m)),
    .region (reg0 m),
    .region (reg1 m),
    .host (hseg hostOps2 hostOps2_sub hostOps2_fresh (W3 m)),
    .region (reg2 m),
    .host (hseg hostOps3 hostOps3_sub hostOps3_fresh (W5 m)) ]

/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c =>
      show iprop(StableHlo.held (c : Thread nD τ) (Pipeline.ucRefs τ sig) (StableHlo.after hostOps3 (W5 m c)) ∗ R c)
          ⊢ iprop((StableHlo.held (c : Thread nD τ) (Pipeline.ucRefs τ sig) (W6 m c) ∗ ∃ r, prngReg c r)
            ∗ ∃ W, owes (c : Thread nD τ) (0 : CellTallies nD τ sig Unit) W) from by
        unfold W6
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## The two corollaries -/

/-- Every argument reaches the end as launched: no host stretch writes it, no region changes it. -/
theorem W6_arg (c : Dev nD) (b : Ref sig .tc) (h6 : b ∉ hostOps3_W) (h5 : b ≠ main_v16) (h4 : b ∉ hostOps2_W) (h3 : b ≠ main_v5)
    (h20 : b ≠ main_v4_0) (h21 : b ≠ main_v4_1) (h22 : b ≠ main_v4_2) (h1 : b ∉ hostOps0_W) :
    W6 m c b = m ((c : Thread nD τ).loc b) := by
  unfold W6
  refine (StableHlo.after_of_writes_sub hostOps3 _ hostOps3_writes h6).trans ?_
  refine (W5_of m c b h5).trans ?_
  unfold W4
  refine (StableHlo.after_of_writes_sub hostOps2 _ hostOps2_writes h4).trans ?_
  refine (W3_of m c b h3).trans ?_
  refine (W2_of m c b h20 h21 h22).trans ?_
  exact (Gen.V1_of m c b h1).trans rfl

/-- From a state that has every unscoped buffer at the last boundary's contents: each argument array is as launched. -/
theorem args_kept (s : MemSt nD τ sig (Elt F))
    (hh : ∀ c : Dev nD, ∀ b ∈ Pipeline.ucRefs τ sig, s.mem (((c : Thread nD τ)).1, b) = W6 m c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12) :=
  ⟨(hh c _ (mem_uc main_arg0 (by decide))).trans (W6_arg m c main_arg0 (by decide) (by decide) (by decide) (by decide) (by decide) (by decide) (by decide) (by decide)),
   (hh c _ (mem_uc main_arg1 (by decide))).trans (W6_arg m c main_arg1 (by decide) (by decide) (by decide) (by decide) (by decide) (by decide) (by decide) (by decide)),
   (hh c _ (mem_uc main_arg2 (by decide))).trans (W6_arg m c main_arg2 (by decide) (by decide) (by decide) (by decide) (by decide) (by decide) (by decide) (by decide)),
   (hh c _ (mem_uc main_arg3 (by decide))).trans (W6_arg m c main_arg3 (by decide) (by decide) (by decide) (by decide) (by decide) (by decide) (by decide) (by decide)),
   (hh c _ (mem_uc main_arg4 (by decide))).trans (W6_arg m c main_arg4 (by decide) (by decide) (by decide) (by decide) (by decide) (by decide) (by decide) (by decide)),
   (hh c _ (mem_uc main_arg5 (by decide))).trans (W6_arg m c main_arg5 (by decide) (by decide) (by decide) (by decide) (by decide) (by decide) (by decide) (by decide)),
   (hh c _ (mem_uc main_arg6 (by decide))).trans (W6_arg m c main_arg6 (by decide) (by decide) (by decide) (by decide) (by decide) (by decide) (by decide) (by decide)),
   (hh c _ (mem_uc main_arg7 (by decide))).trans (W6_arg m c main_arg7 (by decide) (by decide) (by decide) (by decide) (by decide) (by decide) (by decide) (by decide)),
   (hh c _ (mem_uc main_arg8 (by decide))).trans (W6_arg m c main_arg8 (by decide) (by decide) (by decide) (by decide) (by decide) (by decide) (by decide) (by decide)),
   (hh c _ (mem_uc main_arg9 (by decide))).trans (W6_arg m c main_arg9 (by decide) (by decide) (by decide) (by decide) (by decide) (by decide) (by decide) (by decide)),
   (hh c _ (mem_uc main_arg10 (by decide))).trans (W6_arg m c main_arg10 (by decide) (by decide) (by decide) (by decide) (by decide) (by decide) (by decide) (by decide)),
   (hh c _ (mem_uc main_arg11 (by decide))).trans (W6_arg m c main_arg11 (by decide) (by decide) (by decide) (by decide) (by decide) (by decide) (by decide) (by decide)),
   (hh c _ (mem_uc main_arg12 (by decide))).trans (W6_arg m c main_arg12 (by decide) (by decide) (by decide) (by decide) (by decide) (by decide) (by decide) (by decide))⟩

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r hh c => args_kept m r.2 hh c) (run_all m ρ)

/-- THE VALUE RUN: the result buffer ends at the last boundary's contents, and every argument array as launched. -/
theorem run_value (ρ : Dev nD → PrngReg) : θ_run defs (onTc (τ := τ) (main (F := F))) ⟨m, fun _ => 0, ρ⟩ (fun r => ∀ c : Dev nD,
      r.2.mem ((c.tc : Thread nD τ).loc main_v17) = W6 m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r hh c => ⟨hh c _ (mem_uc main_v17 (by decide)), args_kept m r.2 hh c⟩) (run_all m ρ)

end Cert.KernelIdeal.Hand

end
-- ==== Proof.Spec.lean ====
/-
  The mathematics of the non-local block, written once over the extended reals and over literal shapes, with no
  program in sight. The input image x is [16, 128, 128, 128] (batch, row, column, channel); a position (row, column)
  is also addressed by the single number n = 128 · row + column < 16384.

    projection   G[b, n, f]  = (∑_c x[b, n / 128, n % 128, c] · W[c, f]) + bias[f]            (three of them: g, θ, φ)
    Gram matrix  FM[b, i, j] = ∑_n θ[b, n, i] · φ[b, n, j]
    softmax      SM[b, i, j] = exp (FM[b, i, j] − M[b, i]) / ∑_j' exp (FM[b, i, j'] − M[b, i]),
                 M[b, i] = max (−∞) (max over j of FM[b, i, j], starting from −∞)
    attention    Z[b, j, n]  = ∑_i SM[b, i, j] · g[b, n, i]
    relayout     ZF[b, n, f] = Z read at the SAME row-major position: Z[b, (64 n + f) / 16384, (64 n + f) % 16384]
    output conv  P[b, n, e]  = (∑_f ZF[b, n, f] · Wo[f, e]) + bo[e]
    batch norm   inv[e] = γ[e] · rsqrt (var[e] + ε);
                 one program computes  P · inv + (β − mean · inv),  the other  (P − mean) · inv + β.

  The two batch-norm forms agree as soon as inv[e], mean[e] and β[e] are real numbers (P may be anything, ±∞ included);
  that is the only place where the two programs differ as formulas.
-/
import Idealize.ShloMosaic.PureOps.Ideal
import Idealize.ShloMosaic.Lib.ValueIdx

noncomputable section

namespace Cert.Spec

open Idealize.ShloMosaic Idealize.ShloMosaic.ValueIdx

/-- The literal shapes. -/
abbrev X4 : Shape := ⟨4, ![16, 128, 128, 128]⟩
abbrev W2 : Shape := ⟨2, ![128, 64]⟩
abbrev V1 : Shape := ⟨1, ![64]⟩
abbrev Wo2 : Shape := ⟨2, ![64, 64]⟩
abbrev A3 : Shape := ⟨3, ![16, 16384, 64]⟩
abbrev F3 : Shape := ⟨3, ![16, 64, 64]⟩
abbrev Z3 : Shape := ⟨3, ![16, 64, 16384]⟩
abbrev R4 : Shape := ⟨4, ![16, 128, 128, 64]⟩

/-- −∞ and the batch-norm ε, as the bit patterns both programs print. -/
abbrev negInf : EReal := Ideal.ofBits .f32 0xFF800000#32
abbrev eps : EReal := Ideal.ofBits .f32 0x3A83126F#32

/-- Row and column of the position numbered n, and back. -/
def rowOf (n : Fin 16384) : Fin 128 := ⟨n.val / 128, by have := n.isLt; omega⟩
def colOf (n : Fin 16384) : Fin 128 := ⟨n.val % 128, by omega⟩
def posOf (h w : Fin 128) : Fin 16384 := ⟨h.val * 128 + w.val, by have := h.isLt; have := w.isLt; omega⟩

/-- A 1×1 convolution with bias at batch b, position n, filter f. -/
def projAt (x : X4.Idx → EReal) (W : W2.Idx → EReal) (bias : V1.Idx → EReal) (b : Fin 16) (n : Fin 16384) (f : Fin 64) : EReal :=
  (∑ c : Fin 128, x (ix4 b (rowOf n) (colOf n) c) * W (ix2 c f)) + bias (ix1 f)

def proj (x : X4.Idx → EReal) (W : W2.Idx → EReal) (bias : V1.Idx → EReal) : A3.Idx → EReal :=
  fun i => projAt x W bias (i 0) (i 1) (i 2)

/-- The f × f Gram matrix of θ and φ over all positions. -/
def gramAt (tx ty : A3.Idx → EReal) (b : Fin 16) (i j : Fin 64) : EReal :=
  ∑ n : Fin 16384, tx (ix3 b n i) * ty (ix3 b n j)

def gram (tx ty : A3.Idx → EReal) : F3.Idx → EReal := fun i => gramAt tx ty (i 0) (i 1) (i 2)

/-- The row maximum the softmax subtracts. -/
def rowMax (fm : F3.Idx → EReal) (b : Fin 16) (i : Fin 64) : EReal :=
  max negInf ((Finset.univ : Finset (Fin 64)).fold max negInf (fun j => fm (ix3 b i j)))

def smAt (fm : F3.Idx → EReal) (b : Fin 16) (i j : Fin 64) : EReal :=
  Ideal.div (Ideal.exp (fm (ix3 b i j) - rowMax fm b i)) (∑ j' : Fin 64, Ideal.exp (fm (ix3 b i j') - rowMax fm b i))

def softmax (fm : F3.Idx → EReal) : F3.Idx → EReal := fun i => smAt fm (i 0) (i 1) (i 2)

/-- The attention output, laid out [batch, filter, position]. -/
def attendAt (sm : F3.Idx → EReal) (g : A3.Idx → EReal) (b : Fin 16) (j : Fin 64) (n : Fin 16384) : EReal :=
  ∑ i : Fin 64, sm (ix3 b i j) * g (ix3 b n i)

def attend (sm : F3.Idx → EReal) (g : A3.Idx → EReal) : Z3.Idx → EReal := fun i => attendAt sm g (i 0) (i 1) (i 2)

/-- [batch, filter, position] re-read as [batch, position, filter] at the same row-major position. -/
def relayAt (z : Z3.Idx → EReal) (b : Fin 16) (n : Fin 16384) (f : Fin 64) : EReal :=
  z (ix3 b (⟨(n.val * 64 + f.val) / 16384, by have := n.isLt; have := f.isLt; omega⟩ : Fin 64)
    (⟨(n.val * 64 + f.val) % 16384, by omega⟩ : Fin 16384))

def relay (z : Z3.Idx → EReal) : A3.Idx → EReal := fun i => relayAt z (i 0) (i 1) (i 2)

/-- The output 1×1 convolution with bias. -/
def outLinAt (zf : A3.Idx → EReal) (Wo : Wo2.Idx → EReal) (bo : V1.Idx → EReal) (b : Fin 16) (n : Fin 16384) (e : Fin 64) : EReal :=
  (∑ f : Fin 64, zf (ix3 b n f) * Wo (ix2 f e)) + bo (ix1 e)

/-- The batch-norm scale. -/
def invAt (gamma var : V1.Idx → EReal) (e : Fin 64) : EReal := gamma (ix1 e) * Ideal.rsqrt (var (ix1 e) + eps)

/-- The attention map of the whole block, from the inputs: what both programs feed to the output convolution. -/
def zflat (x : X4.Idx → EReal) (Wg : W2.Idx → EReal) (bg : V1.Idx → EReal) (Wt : W2.Idx → EReal) (bt : V1.Idx → EReal)
    (Wp : W2.Idx → EReal) (bp : V1.Idx → EReal) : A3.Idx → EReal :=
  relay (attend (softmax (gram (proj x Wt bt) (proj x Wp bp))) (proj x Wg bg))

/-- Batch norm with the mean folded into the shift: scale, then add β − mean · inv. -/
def bnFolded (p inv beta mean : EReal) : EReal := p * inv + (beta - mean * inv)
/-- Batch norm as written: subtract the mean, scale, add β. -/
def bnPlain (p inv beta mean : EReal) : EReal := (p - mean) * inv + beta

/-- The two results, [batch, row, column, filter]. -/
def resFolded (zf : A3.Idx → EReal) (Wo : Wo2.Idx → EReal) (bo gamma beta mean var : V1.Idx → EReal) : R4.Idx → EReal :=
  fun i => bnFolded (outLinAt zf Wo bo (i 0) (posOf (i 1) (i 2)) (i 3)) (invAt gamma var (i 3)) (beta (ix1 (i 3))) (mean (ix1 (i 3)))
def resPlain (zf : A3.Idx → EReal) (Wo : Wo2.Idx → EReal) (bo gamma beta mean var : V1.Idx → EReal) : R4.Idx → EReal :=
  fun i => bnPlain (outLinAt zf Wo bo (i 0) (posOf (i 1) (i 2)) (i 3)) (invAt gamma var (i 3)) (beta (ix1 (i 3))) (mean (ix1 (i 3)))

end Cert.Spec

end
-- ==== Proof.KernelIdeal.Val0.lean ====
/-
  The value of the projection kernel (the first pallas_call) at the ideal instance: each of its three output arrays,
  after the whole grid has run, holds index by index

      out_k[b, n, f] = (∑_c X[b, n, c] · W[c, 64 k + f]) + B[0, 64 k + f]          (k = 0, 1, 2)

  of the three arrays X ([16, 16384, 128]), W ([128, 192]) and B ([1, 192]) the region is entered with. One grid point
  (b, j) computes the 2048 positions 2048 j … 2048 j + 2047 of batch b: the block of X times the whole of W plus the
  bias row, cut into three bands of 64 columns. Then: when X is the image x with its two spatial axes flattened, W the
  three weight matrices side by side and B the three biases side by side as one row, out_k is the k-th 1×1 convolution
  of the specification.
-/
import proofs.«181084_j44066364457115_1_alg».proof.Proof.KernelIdeal.Body0
import proofs.«181084_j44066364457115_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Column f of band k among the 192 columns. -/
def col (k : Fin 3) (f : Fin 64) : Fin 192 := ⟨64 * k.val + f.val, by have := k.isLt; have := f.isLt; omega⟩

/-- Output k of the region as one function of the three arrays it reads. -/
def G0 (X : S16x16384x128.Idx → EReal) (W : S128x192.Idx → EReal) (B : S1x192.Idx → EReal) (k : Fin 3) : S16x16384x64.Idx → EReal :=
  fun i => (∑ c : Fin 128, X (ix3 (i 0) (i 1) c) * W (ix2 c (col k (i 2)))) + B (ix2 (0 : Fin 1) (col k (i 2)))

/-! ## One grid point: the payload at an index -/

/-- The matrix product's operand indices, axis by axis: the left operand is read at (row of the result, contraction
    coordinate), the right at (contraction coordinate, column of the result). -/
theorem lhs_mm_0 (i : S2048x192.Idx) (q : dot_S2048x128_S128x192_S2048x192_1_0_0_1_n_n.contr.Idx) :
    (dot_S2048x128_S128x192_S2048x192_1_0_0_1_n_n.lhsIdx i q 0).val = (i 0).val := by
  unfold DotDims.lhsIdx
  rw [dif_neg (show ¬(0 : Fin S2048x128.rank) ∈ dot_S2048x128_S128x192_S2048x192_1_0_0_1_n_n.lhsBatch by decide), dif_pos (show (0 : Fin S2048x128.rank) ∈ dot_S2048x128_S128x192_S2048x192_1_0_0_1_n_n.lhsNonContracting by decide)]
  rfl
theorem lhs_mm_1 (i : S2048x192.Idx) (q : dot_S2048x128_S128x192_S2048x192_1_0_0_1_n_n.contr.Idx) :
    (dot_S2048x128_S128x192_S2048x192_1_0_0_1_n_n.lhsIdx i q 1).val = (q ⟨0, by decide⟩).val :=
  dot_S2048x128_S128x192_S2048x192_1_0_0_1_n_n.lhsIdx_val_of_single rfl i q
theorem rhs_mm_0 (i : S2048x192.Idx) (q : dot_S2048x128_S128x192_S2048x192_1_0_0_1_n_n.contr.Idx) :
    (dot_S2048x128_S128x192_S2048x192_1_0_0_1_n_n.rhsIdx i q 0).val = (q ⟨0, by decide⟩).val :=
  dot_S2048x128_S128x192_S2048x192_1_0_0_1_n_n.rhsIdx_val_of_single rfl i q
theorem rhs_mm_1 (i : S2048x192.Idx) (q : dot_S2048x128_S128x192_S2048x192_1_0_0_1_n_n.contr.Idx) :
    (dot_S2048x128_S128x192_S2048x192_1_0_0_1_n_n.rhsIdx i q 1).val = (i 1).val := by
  unfold DotDims.rhsIdx
  rw [dif_neg (show ¬(1 : Fin S128x192.rank) ∈ dot_S2048x128_S128x192_S2048x192_1_0_0_1_n_n.rhsBatch by decide), dif_pos (show (1 : Fin S128x192.rank) ∈ dot_S2048x128_S128x192_S2048x192_1_0_0_1_n_n.rhsNonContracting by decide)]
  rfl

/-- The matrix product into the zero accumulator at (r, q): the sum over the 128 channels. -/
theorem mm_apply (a : FVec Ideal S2048x128 .bf16) (b : FVec Ideal S128x192 .bf16) (r : Fin 2048) (q : Fin 192) :
    matmul dot_S2048x128_S128x192_S2048x192_1_0_0_1_n_n none a b (constant (F := Ideal) S2048x192 .f32 0x00000000#32) (ix2 r q)
      = ∑ k : Fin 128, a (ix2 r k) * b (ix2 k q) := by
  refine (Ideal.matmul_constant_zero_apply dot_S2048x128_S128x192_S2048x192_1_0_0_1_n_n none a b (ix2 r q)).trans ?_
  rw [← Equiv.sum_comp (ValueIdx.contrEquiv1 dot_S2048x128_S128x192_S2048x192_1_0_0_1_n_n 128 rfl rfl).symm]
  refine Finset.sum_congr rfl fun k _ => ?_
  have hk := ValueIdx.contrEquiv1_symm_val dot_S2048x128_S128x192_S2048x192_1_0_0_1_n_n 128 rfl rfl k
  have el : dot_S2048x128_S128x192_S2048x192_1_0_0_1_n_n.lhsIdx (ix2 r q) ((ValueIdx.contrEquiv1 dot_S2048x128_S128x192_S2048x192_1_0_0_1_n_n 128 rfl rfl).symm k) = ix2 r k := funext fun ax => Fin.ext (by
    match ax with
    | ⟨0, _⟩ => exact lhs_mm_0 _ _
    | ⟨1, _⟩ => exact (lhs_mm_1 _ _).trans hk)
  have er : dot_S2048x128_S128x192_S2048x192_1_0_0_1_n_n.rhsIdx (ix2 r q) ((ValueIdx.contrEquiv1 dot_S2048x128_S128x192_S2048x192_1_0_0_1_n_n 128 rfl rfl).symm k) = ix2 k q := funext fun ax => Fin.ext (by
    match ax with
    | ⟨0, _⟩ => exact (rhs_mm_0 _ _).trans hk
    | ⟨1, _⟩ => exact rhs_mm_1 _ _)
  rw [el, er]

/-- The block product plus the bias row, at (r, q). -/
theorem pay1_apply (x0 : Vec Ideal S1x2048x128 .f32) (x1 : Vec Ideal S128x192 .f32) (x2 : Vec Ideal S1x192 .f32) (r : Fin 2048) (q : Fin 192) :
    k0_pay1 x0 x1 x2 (ix2 r q) = (∑ c : Fin 128, x0 (ix3 (0 : Fin 1) r c) * x1 (ix2 c q)) + x2 (ix2 (0 : Fin 1) q) := by
  unfold k0_pay1
  rw [addf_apply, mm_apply, broadcastTo_1b_ab_apply, shapeCast_self x2]
  congr 1
  refine Finset.sum_congr rfl fun c _ => ?_
  rw [truncf_apply, truncf_apply, shapeCast_1ab_ab_apply, shapeCast_self]

/-- Band k of it, stored: the staged output block at (0, r, f). -/
theorem pay2_apply (x0 : Vec Ideal S1x2048x128 .f32) (x1 : Vec Ideal S128x192 .f32) (x2 : Vec Ideal S1x192 .f32) (u : Fin 1) (r : Fin 2048) (f : Fin 64) :
    k0_pay2 x0 x1 x2 (ix3 u r f) = (∑ c : Fin 128, x0 (ix3 (0 : Fin 1) r c) * x1 (ix2 c (col 0 f))) + x2 (ix2 (0 : Fin 1) (col 0 f)) := by
  unfold k0_pay2
  rw [shapeCast_ab_1ab_apply, truncf_apply, slice2_axis1_apply 0 _ _ r f (col 0 f) (by show 64 * 0 + f.val = 0 + f.val; omega), pay1_apply]
theorem pay3_apply (x0 : Vec Ideal S1x2048x128 .f32) (x1 : Vec Ideal S128x192 .f32) (x2 : Vec Ideal S1x192 .f32) (u : Fin 1) (r : Fin 2048) (f : Fin 64) :
    k0_pay3 x0 x1 x2 (ix3 u r f) = (∑ c : Fin 128, x0 (ix3 (0 : Fin 1) r c) * x1 (ix2 c (col 1 f))) + x2 (ix2 (0 : Fin 1) (col 1 f)) := by
  unfold k0_pay3
  rw [shapeCast_ab_1ab_apply, truncf_apply, slice2_axis1_apply 64 _ _ r f (col 1 f) (by show 64 * 1 + f.val = 64 + f.val; omega), pay1_apply]
theorem pay4_apply (x0 : Vec Ideal S1x2048x128 .f32) (x1 : Vec Ideal S128x192 .f32) (x2 : Vec Ideal S1x192 .f32) (u : Fin 1) (r : Fin 2048) (f : Fin 64) :
    k0_pay4 x0 x1 x2 (ix3 u r f) = (∑ c : Fin 128, x0 (ix3 (0 : Fin 1) r c) * x1 (ix2 c (col 2 f))) + x2 (ix2 (0 : Fin 1) (col 2 f)) := by
  unfold k0_pay4
  rw [shapeCast_ab_1ab_apply, truncf_apply, slice2_axis1_apply 128 _ _ r f (col 2 f) (by show 64 * 2 + f.val = 128 + f.val; omega), pay1_apply]

/-! ## From blocks to the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- Grid point t = 8 b + j works on batch b … -/
def bOf (t : Fin cfg0.N) : Fin 16 := ⟨t.val / 8, by have h : t.val < 128 := lt_of_lt_of_eq t.isLt N_0; omega⟩
/-- … and on tile j of 2048 positions; -/
def jOf (t : Fin cfg0.N) : Fin 8 := ⟨t.val % 8, by omega⟩
/-- position r of tile j is position 2048 j + r of the image. -/
def row (j : Fin 8) (r : Fin 2048) : Fin 16384 := ⟨2048 * j.val + r.val, by have := j.isLt; have := r.isLt; omega⟩

/-- The printed index maps over the grid: point t reads block (b, j, 0) of X, the one block of W and of B, and writes
    block (b, j, 0) of each output. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)
    ∧ (win0_5.index t (0 : Fin 3) = t.val / 8 ∧ win0_5.index t (1 : Fin 3) = t.val % 8 ∧ win0_5.index t (2 : Fin 3) = 0) :=
  (by decide +kernel : ∀ t : Fin grid0.N, _)

/-- The block of X staged at point t is rows 2048 j … 2048 j + 2047 of batch b. -/
theorem iblk_X (c : Dev nD) (t : Fin cfg0.N) (r : Fin 2048) (ch : Fin 128) :
    (iblk0 V c 0 t : Vec Ideal S1x2048x128 .f32) (ix3 (0 : Fin 1) r ch)
      = (V c main_v0 : S16x16384x128.Idx → EReal) (ix3 (bOf t) (row (jOf t) r) ch) := by
  obtain ⟨⟨a0, a1, a2⟩, -⟩ := idx_facts t
  unfold iblk0
  rw [View.read_apply]
  show V c main_v0 _ = V c main_v0 _
  refine congrArg _ (funext fun a => Fin.ext ?_)
  match a with
  | ⟨0, _⟩ => show win0_0.index t (0 : Fin 3) * 1 + 1 * 0 = t.val / 8; omega
  | ⟨1, _⟩ => show win0_0.index t (1 : Fin 3) * 2048 + 1 * r.val = 2048 * (t.val % 8) + r.val; omega
  | ⟨2, _⟩ => show win0_0.index t (2 : Fin 3) * 128 + 1 * ch.val = ch.val; omega

/-- W and B are staged whole. -/
theorem iblk_W (c : Dev nD) (t : Fin cfg0.N) : (iblk0 V c 1 t : Vec Ideal S128x192 .f32) = (V c main_v1 : S128x192.Idx → EReal) := by
  obtain ⟨-, ⟨b0, b1⟩, -⟩ := idx_facts t
  unfold iblk0
  funext y
  rw [View.read_apply]
  show V c main_v1 _ = V c main_v1 _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 192 + 1 * (y 1).val = (y 1).val; omega
theorem iblk_B (c : Dev nD) (t : Fin cfg0.N) : (iblk0 V c 2 t : Vec Ideal S1x192 .f32) = (V c main_v3 : S1x192.Idx → EReal) := by
  obtain ⟨-, -, ⟨c0, c1⟩, -⟩ := idx_facts t
  unfold iblk0
  funext y
  rw [View.read_apply]
  show V c main_v3 _ = V c main_v3 _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 192 + 1 * (y 1).val = (y 1).val; omega

/-- A staged output block whose entry (u, r, f) is band k of the block product plus bias, computed from block (b, j) of
    X and the whole of W and B, is block (b, j) of output k: its entry y is G0 at the array index i over y. -/
theorem out_eq (k : Fin 3) (P : S1x2048x64.Idx → EReal) (x0 : Vec Ideal S1x2048x128 .f32) (x1 : Vec Ideal S128x192 .f32) (x2 : Vec Ideal S1x192 .f32)
    (hP : ∀ (u : Fin 1) (r : Fin 2048) (f : Fin 64), P (ix3 u r f) = (∑ c : Fin 128, x0 (ix3 (0 : Fin 1) r c) * x1 (ix2 c (col k f))) + x2 (ix2 (0 : Fin 1) (col k f)))
    (X : S16x16384x128.Idx → EReal) (W : S128x192.Idx → EReal) (B : S1x192.Idx → EReal) (b : Fin 16) (j : Fin 8)
    (h0 : ∀ (r : Fin 2048) (c : Fin 128), x0 (ix3 (0 : Fin 1) r c) = X (ix3 b (row j r) c)) (h1 : x1 = W) (h2 : x2 = B)
    (y : S1x2048x64.Idx) (i : S16x16384x64.Idx)
    (hi0 : (i 0).val = b.val) (hi1 : (i 1).val = 2048 * j.val + (y 1).val) (hi2 : (i 2).val = (y 2).val) :
    P y = G0 X W B k i := by
  obtain ⟨u, r, f, rfl⟩ : ∃ (u : Fin 1) (r : Fin 2048) (f : Fin 64), y = ix3 u r f := ⟨y 0, y 1, y 2, eq_ix3 y⟩
  obtain ⟨b', n', f', rfl⟩ : ∃ (b' : Fin 16) (n' : Fin 16384) (f' : Fin 64), i = ix3 b' n' f' := ⟨i 0, i 1, i 2, eq_ix3 i⟩
  obtain rfl : b' = b := Fin.ext hi0
  obtain rfl : n' = row j r := Fin.ext hi1
  obtain rfl : f' = f := Fin.ext hi2
  rw [hP]
  subst h1; subst h2
  show _ = (∑ c : Fin 128, X (ix3 b' (row j r) c) * x1 (ix2 c (col k f'))) + x2 (ix2 (0 : Fin 1) (col k f'))
  congr 1
  exact Finset.sum_congr rfl fun c _ => by rw [h0]

/-- An index of an output array is in point t's block iff each coordinate is in the block's range on its axis. -/
theorem mem_blk3 (t : Fin cfg0.N) (i : S16x16384x64.Idx) :
    i ∈ ((cfg0.win 3).blk t).view.set ↔ ∀ a : Fin 3, win0_3.index t a * S1x2048x64.size a ≤ (i a).val ∧ (i a).val < win0_3.index t a * S1x2048x64.size a + S1x2048x64.size a := by
  show i ∈ ((View.whole main_v4_0).slice (win0_3.rect t)).set ↔ _
  rw [View.set_slice_whole, Rect.mem_set_unit]
  exact Iff.rfl
theorem mem_blk4 (t : Fin cfg0.N) (i : S16x16384x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v4_1).slice (win0_4.rect t)).set ↔ _
  rw [View.set_slice_whole, Rect.mem_set_unit]
  exact Iff.rfl
theorem mem_blk5 (t : Fin cfg0.N) (i : S16x16384x64.Idx) :
    i ∈ ((cfg0.win 5).blk t).view.set ↔ ∀ a : Fin 3, win0_5.index t a * S1x2048x64.size a ≤ (i a).val ∧ (i a).val < win0_5.index t a * S1x2048x64.size a + S1x2048x64.size a := by
  show i ∈ ((View.whole main_v4_2).slice (win0_5.rect t)).set ↔ _
  rw [View.set_slice_whole, Rect.mem_set_unit]
  exact Iff.rfl

/-- The point whose block holds index (b, n, f): 8 b + n / 2048. -/
def ptOf (i : S16x16384x64.Idx) : Fin cfg0.N :=
  ⟨(i 0).val * 8 + (i 1).val / 2048, by
    have h0 : (i 0).val < 16 := (i 0).isLt
    have h1 : (i 1).val < 16384 := (i 1).isLt
    exact lt_of_lt_of_eq (show (i 0).val * 8 + (i 1).val / 2048 < 128 by omega) N_0.symm⟩

/-! ### Output 0 (columns 0–63) -/

/-- What point t writes back is block t of G0 … 0. -/
theorem flushed3_eq (c : Dev nD) (t : Fin cfg0.N) :
    (dat0 V c).flushed 3 t = ((cfg0.win 3).blk t).view.read (Elt Ideal) (G0 (V c main_v0) (V c main_v1) (V c main_v3) 0) := by
  show (cfg0.win 3).cut (grid0.coords t) ((dat0 V c).after 3 t) = _
  rw [after0_3]
  unfold out0_3
  rw [View.canon_unit_zero hz3]
  simp only [View.ld_unit_zero (S := S1x2048x128) hz3, View.ld_unit_zero (S := S128x192) hz2, View.ld_unit_zero (S := S1x192) hz2]
  obtain ⟨-, -, -, ⟨d0, d1, d2⟩, -, -⟩ := idx_facts t
  funext y
  refine out_eq 0 (k0_pay2 (iblk0 V c 0 t) (iblk0 V c 1 t) (iblk0 V c 2 t)) _ _ _ (pay2_apply _ _ _) _ _ _ (bOf t) (jOf t)
    (iblk_X V c t) (iblk_W V c t) (iblk_B V c t) ((cfg0.win 3).xinj (grid0.coords t) y) (((cfg0.win 3).blk t).view.emb y) ?_ ?_ ?_
  · show win0_3.index t (0 : Fin 3) * 1 + 1 * (y 0).val = t.val / 8
    have : (y 0).val < 1 := (y 0).isLt
    omega
  · show win0_3.index t (1 : Fin 3) * 2048 + 1 * (y 1).val = 2048 * (t.val % 8) + (y 1).val
    omega
  · show win0_3.index t (2 : Fin 3) * 64 + 1 * (y 2).val = (y 2).val
    omega

theorem cover3 (i : S16x16384x64.Idx) : ∃ t : Fin cfg0.N, (cfg0.win 3).flush t = true ∧ i ∈ ((cfg0.win 3).blk t).view.set := by
  have h0 : (i 0).val < 16 := (i 0).isLt
  have h1 : (i 1).val < 16384 := (i 1).isLt
  have h2 : (i 2).val < 64 := (i 2).isLt
  refine ⟨ptOf i, flush0_3 _, ?_⟩
  rw [mem_blk3]
  obtain ⟨-, -, -, ⟨d0, d1, d2⟩, -, -⟩ := idx_facts (ptOf i)
  have hv : (ptOf i).val = (i 0).val * 8 + (i 1).val / 2048 := rfl
  intro a
  match a with
  | ⟨0, _⟩ => show win0_3.index (ptOf i) (0 : Fin 3) * 1 ≤ (i 0).val ∧ (i 0).val < win0_3.index (ptOf i) (0 : Fin 3) * 1 + 1; omega
  | ⟨1, _⟩ => show win0_3.index (ptOf i) (1 : Fin 3) * 2048 ≤ (i 1).val ∧ (i 1).val < win0_3.index (ptOf i) (1 : Fin 3) * 2048 + 2048; omega
  | ⟨2, _⟩ => show win0_3.index (ptOf i) (2 : Fin 3) * 64 ≤ (i 2).val ∧ (i 2).val < win0_3.index (ptOf i) (2 : Fin 3) * 64 + 64; omega

/-- Output 0 after the region. -/
theorem final0_3 (c : Dev nD) : (dat0 V c).arrAt 3 cfg0.N = G0 (V c main_v0) (V c main_v1) (V c main_v3) 0 :=
  (dat0 V c).arrAt_eq_of_cover 3 (G0 (V c main_v0) (V c main_v1) (V c main_v3) 0) (fun t _ => flushed3_eq V c t) cover3
/-! ### Output 1 (columns 64–127) -/

/-- What point t writes back is block t of G0 … 1. -/
theorem flushed4_eq (c : Dev nD) (t : Fin cfg0.N) :
    (dat0 V c).flushed 4 t = ((cfg0.win 4).blk t).view.read (Elt Ideal) (G0 (V c main_v0) (V c main_v1) (V c main_v3) 1) := by
  show (cfg0.win 4).cut (grid0.coords t) ((dat0 V c).after 4 t) = _
  rw [after0_4]
  unfold out0_4
  rw [View.canon_unit_zero hz3]
  simp only [View.ld_unit_zero (S := S1x2048x128) hz3, View.ld_unit_zero (S := S128x192) hz2, View.ld_unit_zero (S := S1x192) hz2]
  obtain ⟨-, -, -, -, ⟨d0, d1, d2⟩, -⟩ := idx_facts t
  funext y
  refine out_eq 1 (k0_pay3 (iblk0 V c 0 t) (iblk0 V c 1 t) (iblk0 V c 2 t)) _ _ _ (pay3_apply _ _ _) _ _ _ (bOf t) (jOf t)
    (iblk_X V c t) (iblk_W V c t) (iblk_B V c t) ((cfg0.win 4).xinj (grid0.coords t) y) (((cfg0.win 4).blk t).view.emb y) ?_ ?_ ?_
  · show win0_4.index t (0 : Fin 3) * 1 + 1 * (y 0).val = t.val / 8
    have : (y 0).val < 1 := (y 0).isLt
    omega
  · show win0_4.index t (1 : Fin 3) * 2048 + 1 * (y 1).val = 2048 * (t.val % 8) + (y 1).val
    omega
  · show win0_4.index t (2 : Fin 3) * 64 + 1 * (y 2).val = (y 2).val
    omega

theorem cover4 (i : S16x16384x64.Idx) : ∃ t : Fin cfg0.N, (cfg0.win 4).flush t = true ∧ i ∈ ((cfg0.win 4).blk t).view.set := by
  have h0 : (i 0).val < 16 := (i 0).isLt
  have h1 : (i 1).val < 16384 := (i 1).isLt
  have h2 : (i 2).val < 64 := (i 2).isLt
  refine ⟨ptOf i, flush0_4 _, ?_⟩
  rw [mem_blk4]
  obtain ⟨-, -, -, -, ⟨d0, d1, d2⟩, -⟩ := idx_facts (ptOf i)
  have hv : (ptOf i).val = (i 0).val * 8 + (i 1).val / 2048 := rfl
  intro a
  match a with
  | ⟨0, _⟩ => show win0_4.index (ptOf i) (0 : Fin 3) * 1 ≤ (i 0).val ∧ (i 0).val < win0_4.index (ptOf i) (0 : Fin 3) * 1 + 1; omega
  | ⟨1, _⟩ => show win0_4.index (ptOf i) (1 : Fin 3) * 2048 ≤ (i 1).val ∧ (i 1).val < win0_4.index (ptOf i) (1 : Fin 3) * 2048 + 2048; omega
  | ⟨2, _⟩ => show win0_4.index (ptOf i) (2 : Fin 3) * 64 ≤ (i 2).val ∧ (i 2).val < win0_4.index (ptOf i) (2 : Fin 3) * 64 + 64; omega

/-- Output 1 after the region. -/
theorem final0_4 (c : Dev nD) : (dat0 V c).arrAt 4 cfg0.N = G0 (V c main_v0) (V c main_v1) (V c main_v3) 1 :=
  (dat0 V c).arrAt_eq_of_cover 4 (G0 (V c main_v0) (V c main_v1) (V c main_v3) 1) (fun t _ => flushed4_eq V c t) cover4
/-! ### Output 2 (columns 128–191) -/

/-- What point t writes back is block t of G0 … 2. -/
theorem flushed5_eq (c : Dev nD) (t : Fin cfg0.N) :
    (dat0 V c).flushed 5 t = ((cfg0.win 5).blk t).view.read (Elt Ideal) (G0 (V c main_v0) (V c main_v1) (V c main_v3) 2) := by
  show (cfg0.win 5).cut (grid0.coords t) ((dat0 V c).after 5 t) = _
  rw [after0_5]
  unfold out0_5
  rw [View.canon_unit_zero hz3]
  simp only [View.ld_unit_zero (S := S1x2048x128) hz3, View.ld_unit_zero (S := S128x192) hz2, View.ld_unit_zero (S := S1x192) hz2]
  obtain ⟨-, -, -, -, -, ⟨d0, d1, d2⟩⟩ := idx_facts t
  funext y
  refine out_eq 2 (k0_pay4 (iblk0 V c 0 t) (iblk0 V c 1 t) (iblk0 V c 2 t)) _ _ _ (pay4_apply _ _ _) _ _ _ (bOf t) (jOf t)
    (iblk_X V c t) (iblk_W V c t) (iblk_B V c t) ((cfg0.win 5).xinj (grid0.coords t) y) (((cfg0.win 5).blk t).view.emb y) ?_ ?_ ?_
  · show win0_5.index t (0 : Fin 3) * 1 + 1 * (y 0).val = t.val / 8
    have : (y 0).val < 1 := (y 0).isLt
    omega
  · show win0_5.index t (1 : Fin 3) * 2048 + 1 * (y 1).val = 2048 * (t.val % 8) + (y 1).val
    omega
  · show win0_5.index t (2 : Fin 3) * 64 + 1 * (y 2).val = (y 2).val
    omega

theorem cover5 (i : S16x16384x64.Idx) : ∃ t : Fin cfg0.N, (cfg0.win 5).flush t = true ∧ i ∈ ((cfg0.win 5).blk t).view.set := by
  have h0 : (i 0).val < 16 := (i 0).isLt
  have h1 : (i 1).val < 16384 := (i 1).isLt
  have h2 : (i 2).val < 64 := (i 2).isLt
  refine ⟨ptOf i, flush0_5 _, ?_⟩
  rw [mem_blk5]
  obtain ⟨-, -, -, -, -, ⟨d0, d1, d2⟩⟩ := idx_facts (ptOf i)
  have hv : (ptOf i).val = (i 0).val * 8 + (i 1).val / 2048 := rfl
  intro a
  match a with
  | ⟨0, _⟩ => show win0_5.index (ptOf i) (0 : Fin 3) * 1 ≤ (i 0).val ∧ (i 0).val < win0_5.index (ptOf i) (0 : Fin 3) * 1 + 1; omega
  | ⟨1, _⟩ => show win0_5.index (ptOf i) (1 : Fin 3) * 2048 ≤ (i 1).val ∧ (i 1).val < win0_5.index (ptOf i) (1 : Fin 3) * 2048 + 2048; omega
  | ⟨2, _⟩ => show win0_5.index (ptOf i) (2 : Fin 3) * 64 ≤ (i 2).val ∧ (i 2).val < win0_5.index (ptOf i) (2 : Fin 3) * 64 + 64; omega

/-- Output 2 after the region. -/
theorem final0_5 (c : Dev nD) : (dat0 V c).arrAt 5 cfg0.N = G0 (V c main_v0) (V c main_v1) (V c main_v3) 2 :=
  (dat0 V c).arrAt_eq_of_cover 5 (G0 (V c main_v0) (V c main_v1) (V c main_v3) 2) (fun t _ => flushed5_eq V c t) cover5

/-! ## The arrays the host builds for the region -/

/-- The image with its two spatial axes flattened, at (b, n, c): the image at (b, n / 128, n % 128, c). -/
theorem X_apply (x4 : S16x128x128x128.Idx → EReal) (b : Fin 16) (n : Fin 16384) (c : Fin 128) :
    shapeCast S16x16384x128 x4 shapeCasts_S16x128x128x128_S16x16384x128 (ix3 b n c)
      = x4 (ix4 b (Cert.Spec.rowOf n) (Cert.Spec.colOf n) c) :=
  shapeCast_apply x4 _ _ _ (by
    rw [Shape.rowMajor_val_four, Shape.rowMajor_val_three]
    show ((b.val * 128 + n.val / 128) * 128 + n.val % 128) * 128 + c.val = (b.val * 16384 + n.val) * 128 + c.val
    omega)

/-- The three weight matrices side by side, at column 64 k + f: matrix k at column f. -/
theorem W_apply_0 (W0 W1 W2 : S128x64.Idx → EReal) (c : Fin 128) (f : Fin 64) :
    concatenate S128x192 1 [⟨S128x64, W0⟩, ⟨S128x64, W1⟩, ⟨S128x64, W2⟩] concatenates_S128x64_S128x64_S128x64_S128x192_d1 (ix2 c (col 0 f))
      = W0 (ix2 c f) :=
  concatenate_apply_piece (t := S128x192) (1 : Fin 2) [⟨S128x64, W0⟩, ⟨S128x64, W1⟩, ⟨S128x64, W2⟩] concatenates_S128x64_S128x64_S128x64_S128x192_d1 (ix2 c (col 0 f)) 0 (by show (0 : Nat) < 3; omega) S128x64 W0 rfl rfl 0 (by rfl) (ix2 c f)
    (fun b hb => match b with | ⟨0, _⟩ => rfl | ⟨1, _⟩ => absurd rfl hb)
    (by show 0 + f.val = 64 * 0 + f.val; omega)
theorem W_apply_1 (W0 W1 W2 : S128x64.Idx → EReal) (c : Fin 128) (f : Fin 64) :
    concatenate S128x192 1 [⟨S128x64, W0⟩, ⟨S128x64, W1⟩, ⟨S128x64, W2⟩] concatenates_S128x64_S128x64_S128x64_S128x192_d1 (ix2 c (col 1 f))
      = W1 (ix2 c f) :=
  concatenate_apply_piece (t := S128x192) (1 : Fin 2) [⟨S128x64, W0⟩, ⟨S128x64, W1⟩, ⟨S128x64, W2⟩] concatenates_S128x64_S128x64_S128x64_S128x192_d1 (ix2 c (col 1 f)) 1 (by show (1 : Nat) < 3; omega) S128x64 W1 rfl rfl 64 (by rfl) (ix2 c f)
    (fun b hb => match b with | ⟨0, _⟩ => rfl | ⟨1, _⟩ => absurd rfl hb)
    (by show 64 + f.val = 64 * 1 + f.val; omega)
theorem W_apply_2 (W0 W1 W2 : S128x64.Idx → EReal) (c : Fin 128) (f : Fin 64) :
    concatenate S128x192 1 [⟨S128x64, W0⟩, ⟨S128x64, W1⟩, ⟨S128x64, W2⟩] concatenates_S128x64_S128x64_S128x64_S128x192_d1 (ix2 c (col 2 f))
      = W2 (ix2 c f) :=
  concatenate_apply_piece (t := S128x192) (1 : Fin 2) [⟨S128x64, W0⟩, ⟨S128x64, W1⟩, ⟨S128x64, W2⟩] concatenates_S128x64_S128x64_S128x64_S128x192_d1 (ix2 c (col 2 f)) 2 (by show (2 : Nat) < 3; omega) S128x64 W2 rfl rfl 128 (by rfl) (ix2 c f)
    (fun b hb => match b with | ⟨0, _⟩ => rfl | ⟨1, _⟩ => absurd rfl hb)
    (by show 128 + f.val = 64 * 2 + f.val; omega)

/-- The three biases end to end as one row, at column 64 k + f: bias k at f. -/
theorem B_apply_0 (b0 b1 b2 : S64.Idx → EReal) (f : Fin 64) :
    shapeCast S1x192 (concatenate S192 0 [⟨S64, b0⟩, ⟨S64, b1⟩, ⟨S64, b2⟩] concatenates_S64_S64_S64_S192_d0) shapeCasts_S192_S1x192 (ix2 (0 : Fin 1) (col 0 f))
      = b0 (ix1 f) :=
  (shapeCast_a_1a_apply _ _ _ _).trans
    (concatenate_apply_piece (t := S192) (0 : Fin 1) [⟨S64, b0⟩, ⟨S64, b1⟩, ⟨S64, b2⟩] concatenates_S64_S64_S64_S192_d0 (ix1 (col 0 f)) 0 (by show (0 : Nat) < 3; omega) S64 b0 rfl rfl 0 (by rfl) (ix1 f)
      (fun b hb => match b with | ⟨0, _⟩ => absurd rfl hb)
      (by show 0 + f.val = 64 * 0 + f.val; omega))
theorem B_apply_1 (b0 b1 b2 : S64.Idx → EReal) (f : Fin 64) :
    shapeCast S1x192 (concatenate S192 0 [⟨S64, b0⟩, ⟨S64, b1⟩, ⟨S64, b2⟩] concatenates_S64_S64_S64_S192_d0) shapeCasts_S192_S1x192 (ix2 (0 : Fin 1) (col 1 f))
      = b1 (ix1 f) :=
  (shapeCast_a_1a_apply _ _ _ _).trans
    (concatenate_apply_piece (t := S192) (0 : Fin 1) [⟨S64, b0⟩, ⟨S64, b1⟩, ⟨S64, b2⟩] concatenates_S64_S64_S64_S192_d0 (ix1 (col 1 f)) 1 (by show (1 : Nat) < 3; omega) S64 b1 rfl rfl 64 (by rfl) (ix1 f)
      (fun b hb => match b with | ⟨0, _⟩ => absurd rfl hb)
      (by show 64 + f.val = 64 * 1 + f.val; omega))
theorem B_apply_2 (b0 b1 b2 : S64.Idx → EReal) (f : Fin 64) :
    shapeCast S1x192 (concatenate S192 0 [⟨S64, b0⟩, ⟨S64, b1⟩, ⟨S64, b2⟩] concatenates_S64_S64_S64_S192_d0) shapeCasts_S192_S1x192 (ix2 (0 : Fin 1) (col 2 f))
      = b2 (ix1 f) :=
  (shapeCast_a_1a_apply _ _ _ _).trans
    (concatenate_apply_piece (t := S192) (0 : Fin 1) [⟨S64, b0⟩, ⟨S64, b1⟩, ⟨S64, b2⟩] concatenates_S64_S64_S64_S192_d0 (ix1 (col 2 f)) 2 (by show (2 : Nat) < 3; omega) S64 b2 rfl rfl 128 (by rfl) (ix1 f)
      (fun b hb => match b with | ⟨0, _⟩ => absurd rfl hb)
      (by show 128 + f.val = 64 * 2 + f.val; omega))

/-- On those arrays output k of the region is the k-th 1×1 convolution of the image. -/
theorem glue0 (x4 : S16x128x128x128.Idx → EReal) (W0 W1 W2 : S128x64.Idx → EReal) (b0 b1 b2 : S64.Idx → EReal) :
    G0 (shapeCast S16x16384x128 x4 shapeCasts_S16x128x128x128_S16x16384x128)
        (concatenate S128x192 1 [⟨S128x64, W0⟩, ⟨S128x64, W1⟩, ⟨S128x64, W2⟩] concatenates_S128x64_S128x64_S128x64_S128x192_d1)
        (shapeCast S1x192 (concatenate S192 0 [⟨S64, b0⟩, ⟨S64, b1⟩, ⟨S64, b2⟩] concatenates_S64_S64_S64_S192_d0) shapeCasts_S192_S1x192) 0
      = Cert.Spec.proj x4 W0 b0
    ∧ G0 (shapeCast S16x16384x128 x4 shapeCasts_S16x128x128x128_S16x16384x128)
        (concatenate S128x192 1 [⟨S128x64, W0⟩, ⟨S128x64, W1⟩, ⟨S128x64, W2⟩] concatenates_S128x64_S128x64_S128x64_S128x192_d1)
        (shapeCast S1x192 (concatenate S192 0 [⟨S64, b0⟩, ⟨S64, b1⟩, ⟨S64, b2⟩] concatenates_S64_S64_S64_S192_d0) shapeCasts_S192_S1x192) 1
      = Cert.Spec.proj x4 W1 b1
    ∧ G0 (shapeCast S16x16384x128 x4 shapeCasts_S16x128x128x128_S16x16384x128)
        (concatenate S128x192 1 [⟨S128x64, W0⟩, ⟨S128x64, W1⟩, ⟨S128x64, W2⟩] concatenates_S128x64_S128x64_S128x64_S128x192_d1)
        (shapeCast S1x192 (concatenate S192 0 [⟨S64, b0⟩, ⟨S64, b1⟩, ⟨S64, b2⟩] concatenates_S64_S64_S64_S192_d0) shapeCasts_S192_S1x192) 2
      = Cert.Spec.proj x4 W2 b2 := by
  refine ⟨funext fun i => ?_, funext fun i => ?_, funext fun i => ?_⟩
  · obtain ⟨b, n, f, rfl⟩ : ∃ (b : Fin 16) (n : Fin 16384) (f : Fin 64), i = ix3 b n f := ⟨i 0, i 1, i 2, eq_ix3 i⟩
    unfold G0 Cert.Spec.proj Cert.Spec.projAt
    show (∑ c : Fin 128, _ * _) + shapeCast S1x192 _ _ (ix2 (0 : Fin 1) (col 0 f)) = (∑ c : Fin 128, _ * _) + b0 (ix1 f)
    rw [B_apply_0]
    congr 1
    exact Finset.sum_congr rfl fun c _ => by
      show shapeCast S16x16384x128 x4 _ (ix3 b n c) * concatenate S128x192 1 _ _ (ix2 c (col 0 f)) = x4 (ix4 b (Cert.Spec.rowOf n) (Cert.Spec.colOf n) c) * W0 (ix2 c f)
      rw [X_apply, W_apply_0]
  · obtain ⟨b, n, f, rfl⟩ : ∃ (b : Fin 16) (n : Fin 16384) (f : Fin 64), i = ix3 b n f := ⟨i 0, i 1, i 2, eq_ix3 i⟩
    unfold G0 Cert.Spec.proj Cert.Spec.projAt
    show (∑ c : Fin 128, _ * _) + shapeCast S1x192 _ _ (ix2 (0 : Fin 1) (col 1 f)) = (∑ c : Fin 128, _ * _) + b1 (ix1 f)
    rw [B_apply_1]
    congr 1
    exact Finset.sum_congr rfl fun c _ => by
      show shapeCast S16x16384x128 x4 _ (ix3 b n c) * concatenate S128x192 1 _ _ (ix2 c (col 1 f)) = x4 (ix4 b (Cert.Spec.rowOf n) (Cert.Spec.colOf n) c) * W1 (ix2 c f)
      rw [X_apply, W_apply_1]
  · obtain ⟨b, n, f, rfl⟩ : ∃ (b : Fin 16) (n : Fin 16384) (f : Fin 64), i = ix3 b n f := ⟨i 0, i 1, i 2, eq_ix3 i⟩
    unfold G0 Cert.Spec.proj Cert.Spec.projAt
    show (∑ c : Fin 128, _ * _) + shapeCast S1x192 _ _ (ix2 (0 : Fin 1) (col 2 f)) = (∑ c : Fin 128, _ * _) + b2 (ix1 f)
    rw [B_apply_2]
    congr 1
    exact Finset.sum_congr rfl fun c _ => by
      show shapeCast S16x16384x128 x4 _ (ix3 b n c) * concatenate S128x192 1 _ _ (ix2 c (col 2 f)) = x4 (ix4 b (Cert.Spec.rowOf n) (Cert.Spec.colOf n) c) * W2 (ix2 c f)
      rw [X_apply, W_apply_2]

end Cert.KernelIdeal.Val0

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KernelIdeal.Val1.lean ====
/-
  The value of the attention region: what its output array [16, 64, 16384] holds after the sixteen grid points, index by
  index, as a function of the three arrays θ, φ, g the region is entered with. At one point the body's payload is, at
  (filter j, position n), the sum over rows i of the softmax of the Gram product θᵀφ at (i, j) times g at (n, i); the
  softmax subtracts max(−∞, row maximum), exponentiates and divides by the row sum, which is the specification's softmax
  term for term. Point t reads and writes batch element t whole, and the sixteen blocks cover the array.
-/
import proofs.«181084_j44066364457115_1_alg».proof.Proof.KernelIdeal.Body1
import proofs.«181084_j44066364457115_1_alg».proof.Proof.Spec
import proofs.«181084_j44066364457115_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The two products of the body, read at an entry -/

/-- θᵀφ: the left operand is read at (position, row), -/
theorem gramL_0 (i : S64x64.Idx) (q : dot_S16384x64_S16384x64_S64x64_0_0_1_1_n_n.contr.Idx) :
    (dot_S16384x64_S16384x64_S64x64_0_0_1_1_n_n.lhsIdx i q 0).val = (q ⟨0, by decide⟩).val :=
  dot_S16384x64_S16384x64_S64x64_0_0_1_1_n_n.lhsIdx_val_of_single rfl i q
theorem gramL_1 (i : S64x64.Idx) (q : dot_S16384x64_S16384x64_S64x64_0_0_1_1_n_n.contr.Idx) :
    (dot_S16384x64_S16384x64_S64x64_0_0_1_1_n_n.lhsIdx i q 1).val = (i 0).val := by
  unfold DotDims.lhsIdx
  rw [dif_neg (show ¬(1 : Fin S16384x64.rank) ∈ dot_S16384x64_S16384x64_S64x64_0_0_1_1_n_n.lhsBatch by decide), dif_pos (show (1 : Fin S16384x64.rank) ∈ dot_S16384x64_S16384x64_S64x64_0_0_1_1_n_n.lhsNonContracting by decide)]
  rfl
/-- the right operand at (position, column). -/
theorem gramR_0 (i : S64x64.Idx) (q : dot_S16384x64_S16384x64_S64x64_0_0_1_1_n_n.contr.Idx) :
    (dot_S16384x64_S16384x64_S64x64_0_0_1_1_n_n.rhsIdx i q 0).val = (q ⟨0, by decide⟩).val :=
  dot_S16384x64_S16384x64_S64x64_0_0_1_1_n_n.rhsIdx_val_of_single rfl i q
theorem gramR_1 (i : S64x64.Idx) (q : dot_S16384x64_S16384x64_S64x64_0_0_1_1_n_n.contr.Idx) :
    (dot_S16384x64_S16384x64_S64x64_0_0_1_1_n_n.rhsIdx i q 1).val = (i 1).val := by
  unfold DotDims.rhsIdx
  rw [dif_neg (show ¬(1 : Fin S16384x64.rank) ∈ dot_S16384x64_S16384x64_S64x64_0_0_1_1_n_n.rhsBatch by decide), dif_pos (show (1 : Fin S16384x64.rank) ∈ dot_S16384x64_S16384x64_S64x64_0_0_1_1_n_n.rhsNonContracting by decide)]
  rfl

/-- The Gram product at (i, j): the sum over positions of θ[n, i] · φ[n, j]. -/
theorem gram_apply (a b : FVec Ideal S16384x64 .bf16) (i j : Fin 64) :
    matmul dot_S16384x64_S16384x64_S64x64_0_0_1_1_n_n none a b (constant (F := Ideal) S64x64 .f32 0x00000000#32) (ix2 i j)
      = ∑ n : Fin 16384, a (ix2 n i) * b (ix2 n j) := by
  simp only [matmul]
  rw [Ideal.matmul_constant_zero_apply, ← Equiv.sum_comp (ValueIdx.contrEquiv1 dot_S16384x64_S16384x64_S64x64_0_0_1_1_n_n 16384 rfl rfl).symm]
  refine Finset.sum_congr rfl fun k _ => ?_
  have hk := ValueIdx.contrEquiv1_symm_val dot_S16384x64_S16384x64_S64x64_0_0_1_1_n_n 16384 rfl rfl k
  have el : dot_S16384x64_S16384x64_S64x64_0_0_1_1_n_n.lhsIdx (ix2 i j) ((ValueIdx.contrEquiv1 dot_S16384x64_S16384x64_S64x64_0_0_1_1_n_n 16384 rfl rfl).symm k) = ix2 k i := funext fun ax => Fin.ext (by
    match ax with
    | ⟨0, _⟩ => exact (gramL_0 _ _).trans hk
    | ⟨1, _⟩ => exact gramL_1 _ _)
  have er : dot_S16384x64_S16384x64_S64x64_0_0_1_1_n_n.rhsIdx (ix2 i j) ((ValueIdx.contrEquiv1 dot_S16384x64_S16384x64_S64x64_0_0_1_1_n_n 16384 rfl rfl).symm k) = ix2 k j := funext fun ax => Fin.ext (by
    match ax with
    | ⟨0, _⟩ => exact (gramR_0 _ _).trans hk
    | ⟨1, _⟩ => exact gramR_1 _ _)
  rw [el, er]

/-- smᵀ·gᵀ: the left operand is read at (row of the softmax, filter), -/
theorem attL_0 (i : S64x16384.Idx) (q : dot_S64x64_S16384x64_S64x16384_0_1_1_0_n_n.contr.Idx) :
    (dot_S64x64_S16384x64_S64x16384_0_1_1_0_n_n.lhsIdx i q 0).val = (q ⟨0, by decide⟩).val :=
  dot_S64x64_S16384x64_S64x16384_0_1_1_0_n_n.lhsIdx_val_of_single rfl i q
theorem attL_1 (i : S64x16384.Idx) (q : dot_S64x64_S16384x64_S64x16384_0_1_1_0_n_n.contr.Idx) :
    (dot_S64x64_S16384x64_S64x16384_0_1_1_0_n_n.lhsIdx i q 1).val = (i 0).val := by
  unfold DotDims.lhsIdx
  rw [dif_neg (show ¬(1 : Fin S64x64.rank) ∈ dot_S64x64_S16384x64_S64x16384_0_1_1_0_n_n.lhsBatch by decide), dif_pos (show (1 : Fin S64x64.rank) ∈ dot_S64x64_S16384x64_S64x16384_0_1_1_0_n_n.lhsNonContracting by decide)]
  rfl
/-- the right operand at (position, row of the softmax). -/
theorem attR_0 (i : S64x16384.Idx) (q : dot_S64x64_S16384x64_S64x16384_0_1_1_0_n_n.contr.Idx) :
    (dot_S64x64_S16384x64_S64x16384_0_1_1_0_n_n.rhsIdx i q 0).val = (i 1).val := by
  unfold DotDims.rhsIdx
  rw [dif_neg (show ¬(0 : Fin S16384x64.rank) ∈ dot_S64x64_S16384x64_S64x16384_0_1_1_0_n_n.rhsBatch by decide), dif_pos (show (0 : Fin S16384x64.rank) ∈ dot_S64x64_S16384x64_S64x16384_0_1_1_0_n_n.rhsNonContracting by decide)]
  rfl
theorem attR_1 (i : S64x16384.Idx) (q : dot_S64x64_S16384x64_S64x16384_0_1_1_0_n_n.contr.Idx) :
    (dot_S64x64_S16384x64_S64x16384_0_1_1_0_n_n.rhsIdx i q 1).val = (q ⟨0, by decide⟩).val :=
  dot_S64x64_S16384x64_S64x16384_0_1_1_0_n_n.rhsIdx_val_of_single rfl i q

/-- The attention product at (j, n): the sum over rows i of sm[i, j] · g[n, i]. -/
theorem att_apply (a : FVec Ideal S64x64 .bf16) (b : FVec Ideal S16384x64 .bf16) (j : Fin 64) (n : Fin 16384) :
    matmul dot_S64x64_S16384x64_S64x16384_0_1_1_0_n_n none a b (constant (F := Ideal) S64x16384 .f32 0x00000000#32) (ix2 j n)
      = ∑ i : Fin 64, a (ix2 i j) * b (ix2 n i) := by
  simp only [matmul]
  rw [Ideal.matmul_constant_zero_apply, ← Equiv.sum_comp (ValueIdx.contrEquiv1 dot_S64x64_S16384x64_S64x16384_0_1_1_0_n_n 64 rfl rfl).symm]
  refine Finset.sum_congr rfl fun k _ => ?_
  have hk := ValueIdx.contrEquiv1_symm_val dot_S64x64_S16384x64_S64x16384_0_1_1_0_n_n 64 rfl rfl k
  have el : dot_S64x64_S16384x64_S64x16384_0_1_1_0_n_n.lhsIdx (ix2 j n) ((ValueIdx.contrEquiv1 dot_S64x64_S16384x64_S64x16384_0_1_1_0_n_n 64 rfl rfl).symm k) = ix2 k j := funext fun ax => Fin.ext (by
    match ax with
    | ⟨0, _⟩ => exact (attL_0 _ _).trans hk
    | ⟨1, _⟩ => exact attL_1 _ _)
  have er : dot_S64x64_S16384x64_S64x16384_0_1_1_0_n_n.rhsIdx (ix2 j n) ((ValueIdx.contrEquiv1 dot_S64x64_S16384x64_S64x16384_0_1_1_0_n_n 64 rfl rfl).symm k) = ix2 n k := funext fun ax => Fin.ext (by
    match ax with
    | ⟨0, _⟩ => exact attR_0 _ _
    | ⟨1, _⟩ => exact (attR_1 _ _).trans hk)
  rw [el, er]

/-! ## The softmax of the body, read at an entry -/

/-- The index a reduction over the columns inserts: row i with column k. -/
theorem lift_row (i : Fin 64) (k : Fin 64) : reduces_S64x64_S64.lift (ix1 i) k = ix2 i k :=
  funext fun c => Fin.ext (by match c with | ⟨0, _⟩ => rfl | ⟨1, _⟩ => rfl)

/-- The row maximum the body subtracts: −∞ against the maximum over the row, itself started at −∞. -/
def rowMaxK (fm : FVec Ideal S64x64 .f32) : FVec Ideal S64 .f32 :=
  maximumf (broadcast S64 (Scalar.ofBits (F := Ideal) .f32 0xFF800000#32))
    (multiReduction (F := Ideal) .maximumf [1] S64 fm 0xFF800000#32 reduces_S64x64_S64 (.inl rfl) rfl)

/-- The exponentials of the entries less their row's maximum. -/
def expK (fm : FVec Ideal S64x64 .f32) : FVec Ideal S64x64 .f32 :=
  exp (subf fm (broadcastTo S64x64 (shapeCast S64x1 (rowMaxK fm) shapeCasts_S64_S64x1) broadcasts_S64x1_S64x64))

/-- Each divided by its row's sum. -/
def smK (fm : FVec Ideal S64x64 .f32) : FVec Ideal S64x64 .f32 :=
  divf (expK fm) (broadcastTo S64x64 (shapeCast S64x1
    (multiReduction (F := Ideal) .add [1] S64 (expK fm) 0x00000000#32 reduces_S64x64_S64 (.inl rfl) rfl) shapeCasts_S64_S64x1) broadcasts_S64x1_S64x64)

theorem rowMaxK_apply (fm : FVec Ideal S64x64 .f32) (i : Fin 64) :
    rowMaxK fm (ix1 i) = max Cert.Spec.negInf ((Finset.univ : Finset (Fin 64)).fold max Cert.Spec.negInf (fun j => fm (ix2 i j))) := by
  unfold rowMaxK
  rw [maximumf_apply, broadcast_apply]
  refine congrArg (max _) ?_
  refine (Ideal.multiReduction_maximumf_single fm 0xFF800000#32 reduces_S64x64_S64 (.inl rfl) rfl (ix1 i)).trans ?_
  refine congrArg (Finset.fold max _ · Finset.univ) ?_
  funext j
  exact congrArg fm (lift_row i j)

theorem expK_apply (fm : FVec Ideal S64x64 .f32) (i j : Fin 64) :
    expK fm (ix2 i j) = Ideal.exp (fm (ix2 i j) - rowMaxK fm (ix1 i)) := by
  unfold expK
  show Ideal.exp (fm (ix2 i j) - broadcastTo S64x64 (shapeCast S64x1 (rowMaxK fm) shapeCasts_S64_S64x1) broadcasts_S64x1_S64x64 (ix2 i j)) = _
  rw [Cert.LibColumn.broadcastTo_column_apply]

theorem smK_apply (fm : FVec Ideal S64x64 .f32) (i j : Fin 64) :
    smK fm (ix2 i j) = Ideal.div (expK fm (ix2 i j)) (∑ j' : Fin 64, expK fm (ix2 i j')) := by
  unfold smK
  rw [divf_apply, Cert.LibColumn.broadcastTo_column_apply]
  refine congrArg (Ideal.div _) ?_
  refine (Ideal.multiReduction_add_single (expK fm) 0x00000000#32 reduces_S64x64_S64 (.inl rfl) rfl (ix1 i)).trans ?_
  refine Finset.sum_congr rfl fun k _ => ?_
  exact congrArg (expK fm) (lift_row i k)

/-- When the entries are those of FM at batch b, the body's softmax is the specification's. -/
theorem smK_eq (fm : FVec Ideal S64x64 .f32) (FM : Cert.Spec.F3.Idx → EReal) (b : Fin 16)
    (hfm : ∀ i j : Fin 64, fm (ix2 i j) = FM (ix3 b i j)) (i j : Fin 64) :
    smK fm (ix2 i j) = Cert.Spec.softmax FM (ix3 b i j) := by
  have hmax : rowMaxK fm (ix1 i) = Cert.Spec.rowMax FM b i := by
    rw [rowMaxK_apply]
    unfold Cert.Spec.rowMax
    refine congrArg (max _) (congrArg (Finset.fold max _ · Finset.univ) ?_)
    funext j'
    exact hfm i j'
  have hexp : ∀ j' : Fin 64, expK fm (ix2 i j') = Ideal.exp (FM (ix3 b i j') - Cert.Spec.rowMax FM b i) := fun j' => by
    rw [expK_apply, hmax, hfm]
  rw [smK_apply, hexp]
  show _ = Cert.Spec.smAt FM b i j
  unfold Cert.Spec.smAt
  refine congrArg (Ideal.div _) (Finset.sum_congr rfl fun j' _ => hexp j')

/-! ## The body's payload at an entry -/

/-- The payload is the attention product of the softmax of the Gram product, through its casts. -/
theorem pay_eq (x0 x1 x2 : Vec Ideal S1x16384x64 .bf16) :
    k1_pay1 x0 x1 x2 = shapeCast S1x64x16384 (truncf .bf16 (matmul dot_S64x64_S16384x64_S64x16384_0_1_1_0_n_n none
      (truncf .bf16 (smK (matmul dot_S16384x64_S16384x64_S64x64_0_0_1_1_n_n none
        (shapeCast S16384x64 x0 shapeCasts_S1x16384x64_S16384x64 : FVec Ideal S16384x64 .bf16)
        (shapeCast S16384x64 x1 shapeCasts_S1x16384x64_S16384x64 : FVec Ideal S16384x64 .bf16)
        (constant (F := Ideal) S64x64 .f32 0x00000000#32))) bitsLt_bf16_f32)
      (shapeCast S16384x64 x2 shapeCasts_S1x16384x64_S16384x64 : FVec Ideal S16384x64 .bf16) (constant (F := Ideal) S64x16384 .f32 0x00000000#32)) bitsLt_bf16_f32)
      shapeCasts_S64x16384_S1x64x16384 := rfl

/-- With the three blocks those of θ, φ and g at batch b, the payload at (filter j, position n) is the specification's
    attention output there. -/
theorem pay_apply (x0 x1 x2 : Vec Ideal S1x16384x64 .bf16) (T P G : Cert.Spec.A3.Idx → EReal) (b : Fin 16)
    (h0 : ∀ (n : Fin 16384) (f : Fin 64), x0 (ix3 0 n f) = T (ix3 b n f))
    (h1 : ∀ (n : Fin 16384) (f : Fin 64), x1 (ix3 0 n f) = P (ix3 b n f))
    (h2 : ∀ (n : Fin 16384) (f : Fin 64), x2 (ix3 0 n f) = G (ix3 b n f))
    (u : Fin 1) (j : Fin 64) (n : Fin 16384) :
    k1_pay1 x0 x1 x2 (ix3 u j n) = Cert.Spec.attend (Cert.Spec.softmax (Cert.Spec.gram T P)) G (ix3 b j n) := by
  rw [pay_eq, shapeCast_ab_1ab_apply, truncf_apply, att_apply]
  show _ = Cert.Spec.attendAt (Cert.Spec.softmax (Cert.Spec.gram T P)) G b j n
  unfold Cert.Spec.attendAt
  refine Finset.sum_congr rfl fun i _ => ?_
  rw [truncf_apply, shapeCast_1ab_ab_apply, h2]
  refine congrArg (· * _) ?_
  refine smK_eq _ (Cert.Spec.gram T P) b (fun i' j' => ?_) i j
  rw [gram_apply]
  show _ = Cert.Spec.gramAt T P b i' j'
  unfold Cert.Spec.gramAt
  refine Finset.sum_congr rfl fun m _ => ?_
  rw [shapeCast_1ab_ab_apply, shapeCast_1ab_ab_apply, h0, h1]

/-! ## From the blocks to the array -/

variable (V : (c : Dev nD) → (b : Ref sig .tc) → Buf (Elt Ideal) ((c : Thread nD τ).loc b))

theorem hz : (![0, 0, 0] : Fin 3 → Nat) = fun _ => 0 := funext fun a => by fin_cases a <;> rfl

/-- The four windows' index maps at grid point t: the block index is (t, 0, 0), so each block is batch element t, whole. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The batch element point t works on. -/
def bat (t : Fin cfg1.N) : Fin 16 := ⟨t.val, lt_of_lt_of_eq t.isLt N_1⟩

/-- θ's block at point t is θ at batch element t. -/
theorem iblk_0 (c : Dev nD) (t : Fin cfg1.N) (n : Fin 16384) (f : Fin 64) :
    (iblk1 V c 0 t : Vec Ideal S1x16384x64 .bf16) (ix3 0 n f) = (V c main_v4_1 : Cert.Spec.A3.Idx → EReal) (ix3 (bat t) n f) := by
  obtain ⟨e0, e1, e2, -⟩ := idx_facts t
  unfold iblk1
  rw [View.read_apply]
  show (V c main_v4_1 : Cert.Spec.A3.Idx → EReal) _ = _
  refine congrArg _ (funext fun a => Fin.ext ?_)
  match a with
  | ⟨0, _⟩ => show win1_0.index t (0 : Fin 3) * 1 + 1 * 0 = t.val; omega
  | ⟨1, _⟩ => show win1_0.index t (1 : Fin 3) * 16384 + 1 * n.val = n.val; omega
  | ⟨2, _⟩ => show win1_0.index t (2 : Fin 3) * 64 + 1 * f.val = f.val; omega

/-- φ's block likewise, -/
theorem iblk_1 (c : Dev nD) (t : Fin cfg1.N) (n : Fin 16384) (f : Fin 64) :
    (iblk1 V c 1 t : Vec Ideal S1x16384x64 .bf16) (ix3 0 n f) = (V c main_v4_2 : Cert.Spec.A3.Idx → EReal) (ix3 (bat t) n f) := by
  obtain ⟨-, -, -, e0, e1, e2, -⟩ := idx_facts t
  unfold iblk1
  rw [View.read_apply]
  show (V c main_v4_2 : Cert.Spec.A3.Idx → EReal) _ = _
  refine congrArg _ (funext fun a => Fin.ext ?_)
  match a with
  | ⟨0, _⟩ => show win1_1.index t (0 : Fin 3) * 1 + 1 * 0 = t.val; omega
  | ⟨1, _⟩ => show win1_1.index t (1 : Fin 3) * 16384 + 1 * n.val = n.val; omega
  | ⟨2, _⟩ => show win1_1.index t (2 : Fin 3) * 64 + 1 * f.val = f.val; omega

/-- and g's. -/
theorem iblk_2 (c : Dev nD) (t : Fin cfg1.N) (n : Fin 16384) (f : Fin 64) :
    (iblk1 V c 2 t : Vec Ideal S1x16384x64 .bf16) (ix3 0 n f) = (V c main_v4_0 : Cert.Spec.A3.Idx → EReal) (ix3 (bat t) n f) := by
  obtain ⟨-, -, -, -, -, -, e0, e1, e2, -⟩ := idx_facts t
  unfold iblk1
  rw [View.read_apply]
  show (V c main_v4_0 : Cert.Spec.A3.Idx → EReal) _ = _
  refine congrArg _ (funext fun a => Fin.ext ?_)
  match a with
  | ⟨0, _⟩ => show win1_2.index t (0 : Fin 3) * 1 + 1 * 0 = t.val; omega
  | ⟨1, _⟩ => show win1_2.index t (1 : Fin 3) * 16384 + 1 * n.val = n.val; omega
  | ⟨2, _⟩ => show win1_2.index t (2 : Fin 3) * 64 + 1 * f.val = f.val; omega

/-- What point t writes back is block t of the specification's attention output of the arrays the region is entered with. -/
theorem flushed_eq (c : Dev nD) (t : Fin cfg1.N) :
    (dat1 V c).flushed 3 t = ((cfg1.win 3).blk t).view.read (Elt Ideal)
      (Cert.Spec.attend (Cert.Spec.softmax (Cert.Spec.gram (V c main_v4_1) (V c main_v4_2))) (V c main_v4_0)) := by
  show (cfg1.win 3).cut (grid1.coords t) ((dat1 V c).after 3 t) = _
  rw [after1_3]
  unfold out1_3
  rw [View.canon_unit_zero hz]
  simp only [View.ld_unit_zero (S := S1x16384x64) hz]
  obtain ⟨-, -, -, -, -, -, -, -, -, e0, e1, e2⟩ := idx_facts t
  funext y
  obtain ⟨u, j, n, rfl⟩ : ∃ (u : Fin 1) (j : Fin 64) (n : Fin 16384), y = ix3 u j n := ⟨y 0, y 1, y 2, eq_ix3 y⟩
  rw [View.read_apply]
  refine (pay_apply (iblk1 V c 0 t) (iblk1 V c 1 t) (iblk1 V c 2 t) (V c main_v4_1) (V c main_v4_2) (V c main_v4_0) (bat t)
    (iblk_0 V c t) (iblk_1 V c t) (iblk_2 V c t) u j n).trans ?_
  refine congrArg _ (funext fun a => Fin.ext ?_)
  have hu : u.val = 0 := by omega
  match a with
  | ⟨0, _⟩ => show t.val = win1_3.index t (0 : Fin 3) * 1 + 1 * u.val; omega
  | ⟨1, _⟩ => show j.val = win1_3.index t (1 : Fin 3) * 64 + 1 * j.val; omega
  | ⟨2, _⟩ => show n.val = win1_3.index t (2 : Fin 3) * 16384 + 1 * n.val; omega

/-- An index of the output array is in point t's block iff each coordinate is in the block's range on its axis. -/
theorem mem_blk (t : Fin cfg1.N) (i : S16x64x16384.Idx) :
    i ∈ ((cfg1.win 3).blk t).view.set ↔ ∀ a : Fin 3, win1_3.index t a * S1x64x16384.size a ≤ (i a).val
      ∧ (i a).val < win1_3.index t a * S1x64x16384.size a + S1x64x16384.size a := by
  show i ∈ ((View.whole main_v5).slice (win1_3.rect t)).set ↔ _
  rw [View.set_slice_whole, Rect.mem_set_unit]
  exact Iff.rfl

/-- Every index of the output array is in the block of the point of its batch element. -/
theorem cover (i : S16x64x16384.Idx) :
    ∃ t : Fin cfg1.N, (cfg1.win 3).flush t = true ∧ i ∈ ((cfg1.win 3).blk t).view.set := by
  have h0 : (i 0).val < 16 := (i 0).isLt
  have h1 : (i 1).val < 64 := (i 1).isLt
  have h2 : (i 2).val < 16384 := (i 2).isLt
  obtain ⟨-, -, -, -, -, -, -, -, -, e0, e1, e2⟩ := idx_facts ⟨(i 0).val, lt_of_lt_of_eq h0 N_1.symm⟩
  have e0' : win1_3.index ⟨(i 0).val, lt_of_lt_of_eq h0 N_1.symm⟩ (0 : Fin 3) = (i 0).val := e0
  refine ⟨⟨(i 0).val, lt_of_lt_of_eq h0 N_1.symm⟩, flush1_3 _, ?_⟩
  rw [mem_blk]
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 64 ≤ (i 1).val ∧ (i 1).val < win1_3.index _ (1 : Fin 3) * 64 + 64; omega
  | ⟨2, _⟩ => show win1_3.index _ (2 : Fin 3) * 16384 ≤ (i 2).val ∧ (i 2).val < win1_3.index _ (2 : Fin 3) * 16384 + 16384; omega

/-- THE OUTPUT ARRAY after the region: the attention output of the softmax of the Gram matrix of the θ and φ arrays, on
    the g array, as the region finds them. -/
theorem final1 (c : Dev nD) : (dat1 V c).arrAt 3 cfg1.N
    = Cert.Spec.attend (Cert.Spec.softmax (Cert.Spec.gram (V c main_v4_1) (V c main_v4_2))) (V c main_v4_0) :=
  (dat1 V c).arrAt_eq_of_cover 3 _ (fun t _ => flushed_eq V c t) cover

end Cert.KernelIdeal.Val1

end
-- ==== Proof.KernelIdeal.Val2.lean ====
/-
  The value of the output kernel (the third kernel call of the program) at the ideal values: its output array after the region, index by
  index, as a function of the arrays the region is entered with. At a grid point (b, j) the body holds positions
  2048 j … 2048 j + 2047 of batch b; at row r and filter e of that block it leaves
      ((∑_f Z[r, f] · Wo[f, e]) + bo[e]) · inv[e] + shift[e],
  and every point writes its block back, the blocks tiling the array. The host operations around it (two reshapes and
  the batch-norm scale and shift) are then read at an index: the whole tail is the specification's folded batch norm of
  the output convolution of the relaid attention map.
-/
import proofs.«181084_j44066364457115_1_alg».proof.Proof.KernelIdeal.Body2
import proofs.«181084_j44066364457115_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the output array ends holding: the output convolution with bias, scaled and shifted per filter. -/
def G2 (ZF : S16x16384x64.Idx → EReal) (Wo : S64x64.Idx → EReal) (BO INV SH : S1x64.Idx → EReal) : S16x16384x64.Idx → EReal :=
  fun i => ((∑ f : Fin 64, ZF (ix3 (i 0) (i 1) f) * Wo (ix2 f (i 2))) + BO (ix2 (0 : Fin 1) (i 2))) * INV (ix2 (0 : Fin 1) (i 2)) + SH (ix2 (0 : Fin 1) (i 2))

/-! ## The block product at an index -/

theorem lhs_mm_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_mm_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_mm_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_mm_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The block product into a zero accumulator, at row r and filter e, is the sum over the contracted filter. -/
theorem mm_apply (A : FVec Ideal S2048x64 .bf16) (B : FVec Ideal S64x64 .bf16) (r : Fin 2048) (e : Fin 64) :
    matmul dot_S2048x64_S64x64_S2048x64_1_0_0_1_n_n none A B (constant (F := Ideal) S2048x64 .f32 0x00000000#32) (ix2 r e)
      = ∑ k : Fin 64, A (ix2 r k) * B (ix2 k e) := by
  simp only [matmul]
  rw [Ideal.matmul_constant_zero_apply, ← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 r e) ((ValueIdx.contrEquiv1 dot_S2048x64_S64x64_S2048x64_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S2048x64_S64x64_S2048x64_1_0_0_1_n_n.rhsIdx (ix2 r e) ((ValueIdx.contrEquiv1 dot_S2048x64_S64x64_S2048x64_1_0_0_1_n_n 64 rfl rfl).symm k) = ix2 k e := funext fun a => Fin.ext (by
    match a with
    | ⟨0, _⟩ => exact (rhs_mm_0 _ _).trans hk
    | ⟨1, _⟩ => exact rhs_mm_1 _ _)
  rw [el, er]

/-! ## The payload at an index -/

/-- A row [1, 64] broadcast over the 2048 rows reads the row at the filter coordinate. -/
theorem row_bcast (x : FVec Ideal S1x64 .f32) (r : Fin 2048) (e : Fin 64) :
    broadcastTo S2048x64 x broadcasts_S1x64_S2048x64 (ix2 r e) = x (ix2 (0 : Fin 1) e) :=
  broadcastTo_apply x broadcasts_S1x64_S2048x64 (ix2 r e) (ix2 (0 : Fin 1) e) (fun a => by
    match a with
    | ⟨0, _⟩ => rfl
    | ⟨1, _⟩ => rfl)

/-- Dropping the leading unit axis of the block: row r, filter k. -/
theorem cast_in (x : FVec Ideal S1x2048x64 .bf16) (r : Fin 2048) (k : Fin 64) :
    shapeCast S2048x64 x shapeCasts_S1x2048x64_S2048x64 (ix2 r k) = x (ix3 (0 : Fin 1) r k) :=
  shapeCast_apply x shapeCasts_S1x2048x64_S2048x64 (ix2 r k) (ix3 (0 : Fin 1) r k) (by
    rw [Shape.rowMajor_val_three, Shape.rowMajor_val_two]
    show (0 * 2048 + r.val) * 64 + k.val = r.val * 64 + k.val
    omega)

/-- Putting the leading unit axis back. -/
theorem cast_out (y : FVec Ideal S2048x64 .f32) (r : Fin 2048) (e : Fin 64) :
    shapeCast S1x2048x64 y shapeCasts_S2048x64_S1x2048x64 (ix3 (0 : Fin 1) r e) = y (ix2 r e) :=
  shapeCast_apply y shapeCasts_S2048x64_S1x2048x64 (ix3 (0 : Fin 1) r e) (ix2 r e) (by
    rw [Shape.rowMajor_val_three, Shape.rowMajor_val_two]
    show r.val * 64 + e.val = (0 * 2048 + r.val) * 64 + e.val
    omega)

/-- The body's payload at row r and filter e of its block. -/
theorem pay_apply (x0 : Vec Ideal S1x2048x64 .bf16) (x1 : Vec Ideal S64x64 .f32) (x2 x3 x4 : Vec Ideal S1x64 .f32) (r : Fin 2048) (e : Fin 64) :
    k2_pay1 x0 x1 x2 x3 x4 (ix3 (0 : Fin 1) r e)
      = ((∑ f : Fin 64, x0 (ix3 (0 : Fin 1) r f) * x1 (ix2 f e)) + x2 (ix2 (0 : Fin 1) e)) * x3 (ix2 (0 : Fin 1) e) + x4 (ix2 (0 : Fin 1) e) := by
  unfold k2_pay1
  rw [cast_out, addf_apply, mulf_apply, addf_apply, row_bcast, row_bcast, row_bcast, shapeCast_self, shapeCast_self, shapeCast_self, mm_apply]
  simp only [cast_in, truncf_apply]

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the attention block moves with the output block, the weights and the
    three rows stay at their one block, and the output's block indices stay in their ranges. -/
theorem idx_facts : ∀ t : Fin cfg2.N,
    win2_0.index t (0 : Fin 3) = win2_5.index t (0 : Fin 3) ∧ win2_0.index t (1 : Fin 3) = win2_5.index t (1 : Fin 3)
    ∧ win2_0.index t (2 : Fin 3) = 0 ∧ win2_5.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) ≤ 15 ∧ win2_5.index t (1 : Fin 3) ≤ 7 :=
  (by decide +kernel : ∀ t : Fin grid2.N, _)

/-- Every block of the array is some point's. -/
theorem idx_onto : ∀ (q0 : Fin 16) (q1 : Fin 8), ∃ t : Fin cfg2.N, win2_5.index t = ![q0.val, q1.val, 0] :=
  (by decide +kernel : ∀ (q0 : Fin 16) (q1 : Fin 8), ∃ t : Fin grid2.N, win2_5.index t = ![q0.val, q1.val, 0])

/-- One grid point, over variables: when the staged attention block is rows 2048 q … 2048 q + 2047 of batch p of ZF and
    the other four staged blocks are the whole arrays, the payload at row r, filter e is G2 at (p, 2048 q + r, e). -/
theorem point_value (ZF : S16x16384x64.Idx → EReal) (Wo : S64x64.Idx → EReal) (BO INV SH : S1x64.Idx → EReal)
    (x0 : Vec Ideal S1x2048x64 .bf16) (x1 : Vec Ideal S64x64 .f32) (x2 x3 x4 : Vec Ideal S1x64 .f32)
    (p q : Nat) (hp : p < 16) (hq : q < 8) (r : Fin 2048) (e : Fin 64)
    (h0 : ∀ f : Fin 64, x0 (ix3 (0 : Fin 1) r f) = ZF (ix3 (⟨p, hp⟩ : Fin 16) (⟨q * 2048 + r.val, by have := r.isLt; omega⟩ : Fin 16384) f))
    (h1 : ∀ f : Fin 64, x1 (ix2 f e) = Wo (ix2 f e))
    (h2 : x2 (ix2 (0 : Fin 1) e) = BO (ix2 (0 : Fin 1) e)) (h3 : x3 (ix2 (0 : Fin 1) e) = INV (ix2 (0 : Fin 1) e))
    (h4 : x4 (ix2 (0 : Fin 1) e) = SH (ix2 (0 : Fin 1) e))
    (i : S16x16384x64.Idx) (hi0 : i 0 = (⟨p, hp⟩ : Fin 16)) (hi1 : i 1 = (⟨q * 2048 + r.val, by have := r.isLt; omega⟩ : Fin 16384)) (hi2 : i 2 = e) :
    k2_pay1 x0 x1 x2 x3 x4 (ix3 (0 : Fin 1) r e) = G2 ZF Wo BO INV SH i := by
  rw [pay_apply]
  unfold G2
  rw [hi0, hi1, hi2, h2, h3, h4]
  simp only [h0, h1]

/-- WHAT POINT t WRITES BACK is block t of G2 of the arrays as the region finds them. -/
theorem flushed_eq (c : Dev nD) (t : Fin cfg2.N) :
    (dat2 V c).flushed 5 t = ((cfg2.win 5).blk t).view.read (Elt Ideal) (G2 (V c main_v6) (V c main_arg7) (V c main_v15) (V c main_v13) (V c main_v14)) := by
  show (cfg2.win 5).cut (grid2.coords t) ((dat2 V c).after 5 t) = _
  rw [after2_5]
  unfold out2_5
  rw [View.canon_unit_zero hz3]
  simp only [View.ld_unit_zero (S := S1x2048x64) hz3, View.ld_unit_zero (S := S64x64) hz2, View.ld_unit_zero (S := S1x64) hz2]
  funext j
  have hj0 : (j 0).val < 1 := (j 0).isLt
  have hj1 : (j 1).val < 2048 := (j 1).isLt
  have hj2 : (j 2).val < 64 := (j 2).isLt
  obtain ⟨e00, e01, e02, e52, e10, e11, e20, e21, e30, e31, e40, e41, b0, b1⟩ := idx_facts t
  show k2_pay1 (iblk2 V c 0 t) (iblk2 V c 1 t) (iblk2 V c 2 t) (iblk2 V c 3 t) (iblk2 V c 4 t) ((win2 5).xinj (grid2.coords t) j)
    = G2 (V c main_v6) (V c main_arg7) (V c main_v15) (V c main_v13) (V c main_v14) (((cfg2.win 5).blk t).view.emb j)
  have hy : (win2 5).xinj (grid2.coords t) j = ix3 (0 : Fin 1) (⟨(j 1).val, hj1⟩ : Fin 2048) (⟨(j 2).val, hj2⟩ : Fin 64) :=
    funext fun a => Fin.ext (by
      match a with
      | ⟨0, _⟩ => show (j 0).val = 0; omega
      | ⟨1, _⟩ => rfl
      | ⟨2, _⟩ => rfl)
  rw [hy]
  refine point_value _ _ _ _ _ _ _ _ _ _ (win2_5.index t (0 : Fin 3)) (win2_5.index t (1 : Fin 3)) (by omega) (by omega) _ _ ?_ ?_ ?_ ?_ ?_ _ ?_ ?_ ?_
  · intro f
    show V c main_v6 (((cfg2.win 0).blk t).view.emb (ix3 (0 : Fin 1) (⟨(j 1).val, hj1⟩ : Fin 2048) f)) = _
    refine congrArg _ (funext fun a => Fin.ext ?_)
    match a with
    | ⟨0, _⟩ => show win2_0.index t (0 : Fin 3) * 1 + 1 * 0 = win2_5.index t (0 : Fin 3); omega
    | ⟨1, _⟩ => show win2_0.index t (1 : Fin 3) * 2048 + 1 * (j 1).val = win2_5.index t (1 : Fin 3) * 2048 + (j 1).val; omega
    | ⟨2, _⟩ => show win2_0.index t (2 : Fin 3) * 64 + 1 * f.val = f.val; omega
  · intro f
    show V c main_arg7 (((cfg2.win 1).blk t).view.emb (ix2 f (⟨(j 2).val, hj2⟩ : Fin 64))) = _
    refine congrArg _ (funext fun a => Fin.ext ?_)
    match a with
    | ⟨0, _⟩ => show win2_1.index t (0 : Fin 2) * 64 + 1 * f.val = f.val; omega
    | ⟨1, _⟩ => show win2_1.index t (1 : Fin 2) * 64 + 1 * (j 2).val = (j 2).val; omega
  · show V c main_v15 (((cfg2.win 2).blk t).view.emb (ix2 (0 : Fin 1) (⟨(j 2).val, hj2⟩ : Fin 64))) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * (j 2).val = (j 2).val; omega
  · show V c main_v13 (((cfg2.win 3).blk t).view.emb (ix2 (0 : Fin 1) (⟨(j 2).val, hj2⟩ : Fin 64))) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (j 2).val = (j 2).val; omega
  · show V c main_v14 (((cfg2.win 4).blk t).view.emb (ix2 (0 : Fin 1) (⟨(j 2).val, hj2⟩ : Fin 64))) = _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * (j 2).val = (j 2).val; omega
  · apply Fin.ext
    show win2_5.index t (0 : Fin 3) * 1 + 1 * (j 0).val = win2_5.index t (0 : Fin 3); omega
  · apply Fin.ext
    show win2_5.index t (1 : Fin 3) * 2048 + 1 * (j 1).val = win2_5.index t (1 : Fin 3) * 2048 + (j 1).val; omega
  · apply Fin.ext
    show win2_5.index t (2 : Fin 3) * 64 + 1 * (j 2).val = (j 2).val; omega

/-- An index of the array is in point t's block iff each coordinate is in the block's range on its axis. -/
theorem mem_blk (t : Fin cfg2.N) (i : S16x16384x64.Idx) :
    i ∈ ((cfg2.win 5).blk t).view.set ↔ ∀ a : Fin 3, win2_5.index t a * S1x2048x64.size a ≤ (i a).val ∧ (i a).val < win2_5.index t a * S1x2048x64.size a + S1x2048x64.size a := by
  show i ∈ ((View.whole main_v16).slice (win2_5.rect t)).set ↔ _
  rw [View.set_slice_whole, Rect.mem_set_unit]
  exact Iff.rfl

/-- The blocks tile the array: the index (b, n, e) is in the block of the point (b, n / 2048). -/
theorem cover (i : S16x16384x64.Idx) : ∃ t : Fin cfg2.N, (cfg2.win 5).flush t = true ∧ i ∈ ((cfg2.win 5).blk t).view.set := by
  have hi0 : (i 0).val < 16 := (i 0).isLt
  have hi1 : (i 1).val < 16384 := (i 1).isLt
  have hi2 : (i 2).val < 64 := (i 2).isLt
  obtain ⟨t, ht⟩ := idx_onto ⟨(i 0).val, hi0⟩ ⟨(i 1).val / 2048, by omega⟩
  have q0 : win2_5.index t (0 : Fin 3) = (i 0).val := congrFun ht 0
  have q1 : win2_5.index t (1 : Fin 3) = (i 1).val / 2048 := congrFun ht 1
  have q2 : win2_5.index t (2 : Fin 3) = 0 := congrFun ht 2
  refine ⟨t, flush2_5 t, ?_⟩
  rw [mem_blk]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 2048 ≤ (i 1).val ∧ (i 1).val < win2_5.index t (1 : Fin 3) * 2048 + 2048; omega
  | ⟨2, _⟩ => show win2_5.index t (2 : Fin 3) * 64 ≤ (i 2).val ∧ (i 2).val < win2_5.index t (2 : Fin 3) * 64 + 64; omega

/-- THE ARRAY after the region: G2 of the arrays as the region finds them. -/
theorem final2 (c : Dev nD) : (dat2 V c).arrAt 5 cfg2.N = G2 (V c main_v6) (V c main_arg7) (V c main_v15) (V c main_v13) (V c main_v14) :=
  (dat2 V c).arrAt_eq_of_cover 5 (G2 (V c main_v6) (V c main_arg7) (V c main_v15) (V c main_v13) (V c main_v14)) (fun t _ => flushed_eq V c t) cover

/-! ## The host operations around the region, read at an index -/

/-- G2 at explicit coordinates. -/
theorem G2_ix3 (ZF : S16x16384x64.Idx → EReal) (Wo : S64x64.Idx → EReal) (BO INV SH : S1x64.Idx → EReal) (b : Fin 16) (n : Fin 16384) (e : Fin 64) :
    G2 ZF Wo BO INV SH (ix3 b n e)
      = ((∑ f : Fin 64, ZF (ix3 b n f) * Wo (ix2 f e)) + BO (ix2 (0 : Fin 1) e)) * INV (ix2 (0 : Fin 1) e) + SH (ix2 (0 : Fin 1) e) := rfl

/-- A vector [64] re-laid as one row [1, 64] reads, at (0, e), the vector at e. -/
theorem row_cast (v : S64.Idx → EReal) (e : Fin 64) :
    shapeCast S1x64 v shapeCasts_S64_S1x64 (ix2 (0 : Fin 1) e) = v (ix1 e) :=
  shapeCast_apply v shapeCasts_S64_S1x64 (ix2 (0 : Fin 1) e) (ix1 e) (by
    rw [Shape.rowMajor_val_one, Shape.rowMajor_val_two]
    show e.val = 0 * 64 + e.val
    omega)

/-- The attention map [16, 64, 16384] re-laid as [16, 16384, 64]: at (b, n, f) it reads the same row-major position,
    (b, (64 n + f) / 16384, (64 n + f) % 16384): the relayout of the specification. -/
theorem relay_cast (z : S16x64x16384.Idx → EReal) (b : Fin 16) (n : Fin 16384) (f : Fin 64) :
    shapeCast S16x16384x64 z shapeCasts_S16x64x16384_S16x16384x64 (ix3 b n f) = Cert.Spec.relayAt z b n f := by
  have hb := b.isLt; have hn := n.isLt; have hf := f.isLt
  unfold Cert.Spec.relayAt
  exact shapeCast_apply z shapeCasts_S16x64x16384_S16x16384x64 (ix3 b n f)
    (ix3 b (⟨(n.val * 64 + f.val) / 16384, by omega⟩ : Fin 64) (⟨(n.val * 64 + f.val) % 16384, by omega⟩ : Fin 16384)) (by
      rw [Shape.rowMajor_val_three, Shape.rowMajor_val_three]
      show (b.val * 64 + (n.val * 64 + f.val) / 16384) * 16384 + (n.val * 64 + f.val) % 16384 = (b.val * 16384 + n.val) * 64 + f.val
      omega)

/-- The result [16, 16384, 64] re-laid as [16, 128, 128, 64]: at (b, h, w, e) it reads (b, 128 h + w, e). -/
theorem out_cast (y : S16x16384x64.Idx → EReal) (b : Fin 16) (h w : Fin 128) (e : Fin 64) :
    shapeCast S16x128x128x64 y shapeCasts_S16x16384x64_S16x128x128x64 (ix4 b h w e) = y (ix3 b (Cert.Spec.posOf h w) e) := by
  have hb := b.isLt; have hh := h.isLt; have hw := w.isLt; have he := e.isLt
  exact shapeCast_apply y shapeCasts_S16x16384x64_S16x128x128x64 (ix4 b h w e) (ix3 b (Cert.Spec.posOf h w) e) (by
    rw [Shape.rowMajor_val_three, Shape.rowMajor_val_four]
    show (b.val * 16384 + (h.val * 128 + w.val)) * 64 + e.val = ((b.val * 128 + h.val) * 128 + w.val) * 64 + e.val
    omega)

/-- The region's result between its two reshapes, with the scale inv = γ · rsqrt (var + ε) and the shift β − mean · inv
    computed by the host before it, is the folded batch norm of the output convolution of the relaid attention map. -/
theorem glue2 (z : S16x64x16384.Idx → EReal) (Wo : S64x64.Idx → EReal) (bo gamma beta mean var : S64.Idx → EReal) :
    shapeCast S16x128x128x64
      (G2 (shapeCast S16x16384x64 z shapeCasts_S16x64x16384_S16x16384x64) Wo (shapeCast S1x64 bo shapeCasts_S64_S1x64)
          (shapeCast S1x64 (mulf gamma (Host.rsqrt (addf var (broadcastInDim S64 ![] bcast_S_S64 (constant (F := Ideal) S_ .f32 0x3A83126F#32))))) shapeCasts_S64_S1x64)
          (shapeCast S1x64 (subf beta (mulf mean (mulf gamma (Host.rsqrt (addf var (broadcastInDim S64 ![] bcast_S_S64 (constant (F := Ideal) S_ .f32 0x3A83126F#32))))))) shapeCasts_S64_S1x64))
      shapeCasts_S16x16384x64_S16x128x128x64
    = Cert.Spec.resFolded (Cert.Spec.relay z) Wo bo gamma beta mean var := by
  funext i
  obtain ⟨b, h, w, e, rfl⟩ : ∃ (b : Fin 16) (h w : Fin 128) (e : Fin 64), i = ix4 b h w e := ⟨i 0, i 1, i 2, i 3, eq_ix4 i⟩
  rw [out_cast, G2_ix3]
  simp only [relay_cast, row_cast]
  rfl

end Cert.KernelIdeal.Val2

end
-- ==== Proof.KernelIdeal.Value.lean ====
/-
  The value chain through the program at the ideal values: what the result array [16, 128, 128, 64] holds at the end, as a
  function of the thirteen arguments. The first host operations reshape the image to [16, 16384, 128] and lay the three
  projection weights and biases side by side; region 0 leaves the three projections g, θ, φ; region 1 leaves the attention
  output of the softmax of the Gram matrix of θ and φ, on g; the next host operations re-lay it as [16, 16384, 64] and form
  the batch-norm scale γ · rsqrt (var + ε) and shift β − mean · scale; region 2 leaves the output convolution scaled and
  shifted; the last reshape gives the result. Each array a region writes holds what the region's write-backs leave, each
  array nothing writes holds its launch contents, and the composition is the specification's folded batch norm of the
  output convolution of the relaid attention map.
-/
import proofs.«181084_j44066364457115_1_alg».proof.Proof.KernelIdeal.Bounds
import proofs.«181084_j44066364457115_1_alg».proof.Proof.KernelIdeal.Val0
import proofs.«181084_j44066364457115_1_alg».proof.Proof.KernelIdeal.Val1
import proofs.«181084_j44066364457115_1_alg».proof.Proof.KernelIdeal.Val2
import proofs.«181084_j44066364457115_1_alg».proof.Proof.Spec
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## What each kernel region leaves in the arrays it writes -/

set_option maxHeartbeats 400000 in
theorem W2_v4_2 (c : Dev nD) : W2 m c main_v4_2 = (dat0 (tcv (W1 m)) c).arrAt 5 cfg0.N := by
  unfold W2; exact Function.update_self _ _ _

set_option maxHeartbeats 400000 in
theorem W2_v4_1 (c : Dev nD) : W2 m c main_v4_1 = (dat0 (tcv (W1 m)) c).arrAt 4 cfg0.N := by
  unfold W2
  refine (Function.update_of_ne (StableHlo.devRef_ne_of_ne (by decide)) _ _).trans ?_
  exact Function.update_self _ _ _

set_option maxHeartbeats 400000 in
theorem W2_v4_0 (c : Dev nD) : W2 m c main_v4_0 = (dat0 (tcv (W1 m)) c).arrAt 3 cfg0.N := by
  unfold W2
  refine (Function.update_of_ne (StableHlo.devRef_ne_of_ne (by decide)) _ _).trans ?_
  refine (Function.update_of_ne (StableHlo.devRef_ne_of_ne (by decide)) _ _).trans ?_
  exact Function.update_self _ _ _

set_option maxHeartbeats 400000 in
theorem W3_v5 (c : Dev nD) : W3 m c main_v5 = (dat1 (tcv (W2 m)) c).arrAt 3 cfg1.N := by
  unfold W3; exact Function.update_self _ _ _

set_option maxHeartbeats 400000 in
theorem W5_v16 (c : Dev nD) : W5 m c main_v16 = (dat2 (tcv (W4 m)) c).arrAt 5 cfg2.N := by
  unfold W5; exact Function.update_self _ _ _

/-! ## The arrays an item leaves as they were -/

set_option maxHeartbeats 400000 in
theorem W1_of (c : Dev nD) (r : Ref sig .tc) (h : r ∉ (hostOps0_W : List (Ref sig .tc))) :
    W1 m c r = m ((c : Thread nD τ).loc r) :=
  (Gen.V1_of m c r h).trans rfl

set_option maxHeartbeats 400000 in
theorem W2_of (c : Dev nD) (r : Ref sig .tc) (h0 : r ≠ main_v4_0) (h1 : r ≠ main_v4_1) (h2 : r ≠ main_v4_2) :
    W2 m c r = W1 m c r := by
  unfold W2
  refine (Function.update_of_ne (StableHlo.devRef_ne_of_ne h2) _ _).trans ?_
  refine (Function.update_of_ne (StableHlo.devRef_ne_of_ne h1) _ _).trans ?_
  exact Function.update_of_ne (StableHlo.devRef_ne_of_ne h0) _ _

set_option maxHeartbeats 400000 in
theorem W3_of (c : Dev nD) (r : Ref sig .tc) (h : r ≠ main_v5) : W3 m c r = W2 m c r := by
  unfold W3; exact Function.update_of_ne (StableHlo.devRef_ne_of_ne h) _ _

set_option maxHeartbeats 400000 in
theorem W4_of (c : Dev nD) (r : Ref sig .tc) (h : r ∉ (hostOps2_W : List (Ref sig .tc))) : W4 m c r = W3 m c r := by
  unfold W4; exact StableHlo.after_of_writes_sub hostOps2 _ hostOps2_writes h

/-- An array that no host operation before region 2 writes and no region changes is as launched when region 2 is entered. -/
theorem W3_arg (c : Dev nD) (r : Ref sig .tc) (h5 : r ≠ main_v5) (h0 : r ≠ main_v4_0) (h1 : r ≠ main_v4_1) (h2 : r ≠ main_v4_2)
    (h : r ∉ (hostOps0_W : List (Ref sig .tc))) : W3 m c r = m ((c : Thread nD τ).loc r) :=
  (W3_of m c r h5).trans ((W2_of m c r h0 h1 h2).trans (W1_of m c r h))

theorem W3_arg7 (c : Dev nD) : W3 m c main_arg7 = m ((c : Thread nD τ).loc main_arg7) :=
  W3_arg m c main_arg7 (by decide) (by decide) (by decide) (by decide) (by decide)
theorem W3_arg8 (c : Dev nD) : W3 m c main_arg8 = m ((c : Thread nD τ).loc main_arg8) :=
  W3_arg m c main_arg8 (by decide) (by decide) (by decide) (by decide) (by decide)
theorem W3_arg9 (c : Dev nD) : W3 m c main_arg9 = m ((c : Thread nD τ).loc main_arg9) :=
  W3_arg m c main_arg9 (by decide) (by decide) (by decide) (by decide) (by decide)
theorem W3_arg10 (c : Dev nD) : W3 m c main_arg10 = m ((c : Thread nD τ).loc main_arg10) :=
  W3_arg m c main_arg10 (by decide) (by decide) (by decide) (by decide) (by decide)
theorem W3_arg11 (c : Dev nD) : W3 m c main_arg11 = m ((c : Thread nD τ).loc main_arg11) :=
  W3_arg m c main_arg11 (by decide) (by decide) (by decide) (by decide) (by decide)
theorem W3_arg12 (c : Dev nD) : W3 m c main_arg12 = m ((c : Thread nD τ).loc main_arg12) :=
  W3_arg m c main_arg12 (by decide) (by decide) (by decide) (by decide) (by decide)
theorem W4_arg7 (c : Dev nD) : W4 m c main_arg7 = m ((c : Thread nD τ).loc main_arg7) :=
  (W4_of m c main_arg7 (by decide)).trans (W3_arg7 m c)

/-! ## What the host operations between the regions compute -/

/-- ε as the one-entry array the program broadcasts. -/
abbrev epsV : FVec Ideal S64 .f32 := broadcastInDim S64 ![] bcast_S_S64 (constant (F := Ideal) S_ .f32 0x3A83126F#32)
/-- The batch-norm scale γ · rsqrt (var + ε) and shift β − mean · scale, as the program computes them. -/
abbrev invV (gamma var : FVec Ideal S64 .f32) : FVec Ideal S64 .f32 := mulf gamma (Host.rsqrt (addf var epsV))
abbrev shiftV (gamma beta mean var : FVec Ideal S64 .f32) : FVec Ideal S64 .f32 := subf beta (mulf mean (invV gamma var))

set_option maxHeartbeats 400000 in
theorem W1_v0 (c : Dev nD) : (W1 m c main_v0 : S16x16384x128.Idx → EReal)
    = shapeCast S16x16384x128 (m ((c : Thread nD τ).loc main_arg0) : S16x128x128x128.Idx → EReal) shapeCasts_S16x128x128x128_S16x16384x128 := by
  show StableHlo.after hostOps0 (fun b => m (c, b)) (Proc.devRef .tc main_v0) = _
  after_results
  rfl

set_option maxHeartbeats 400000 in
theorem W1_v1 (c : Dev nD) : (W1 m c main_v1 : S128x192.Idx → EReal)
    = concatenate S128x192 1 [⟨S128x64, (m ((c : Thread nD τ).loc main_arg1) : S128x64.Idx → EReal)⟩, ⟨S128x64, (m ((c : Thread nD τ).loc main_arg3) : S128x64.Idx → EReal)⟩,
        ⟨S128x64, (m ((c : Thread nD τ).loc main_arg5) : S128x64.Idx → EReal)⟩] concatenates_S128x64_S128x64_S128x64_S128x192_d1 := by
  show StableHlo.after hostOps0 (fun b => m (c, b)) (Proc.devRef .tc main_v1) = _
  after_results
  rfl

set_option maxHeartbeats 400000 in
theorem W1_v3 (c : Dev nD) : (W1 m c main_v3 : S1x192.Idx → EReal)
    = shapeCast S1x192 (concatenate S192 0 [⟨S64, (m ((c : Thread nD τ).loc main_arg2) : S64.Idx → EReal)⟩, ⟨S64, (m ((c : Thread nD τ).loc main_arg4) : S64.Idx → EReal)⟩,
        ⟨S64, (m ((c : Thread nD τ).loc main_arg6) : S64.Idx → EReal)⟩] concatenates_S64_S64_S64_S192_d0) shapeCasts_S192_S1x192 := by
  show StableHlo.after hostOps0 (fun b => m (c, b)) (Proc.devRef .tc main_v3) = _
  after_results
  rfl

set_option maxHeartbeats 400000 in
theorem W4_v6 (c : Dev nD) : (W4 m c main_v6 : S16x16384x64.Idx → EReal)
    = shapeCast S16x16384x64 (W3 m c main_v5 : S16x64x16384.Idx → EReal) shapeCasts_S16x64x16384_S16x16384x64 := by
  unfold W4
  show StableHlo.after hostOps2 (W3 m c) (Proc.devRef .tc main_v6) = _
  after_results
  rfl

set_option maxHeartbeats 400000 in
theorem W4_v15 (c : Dev nD) : (W4 m c main_v15 : S1x64.Idx → EReal)
    = shapeCast S1x64 (W3 m c main_arg8 : S64.Idx → EReal) shapeCasts_S64_S1x64 := by
  unfold W4
  show StableHlo.after hostOps2 (W3 m c) (Proc.devRef .tc main_v15) = _
  after_results
  rfl

set_option maxHeartbeats 400000 in
theorem W4_v13 (c : Dev nD) : (W4 m c main_v13 : S1x64.Idx → EReal)
    = shapeCast S1x64 (invV (W3 m c main_arg9) (W3 m c main_arg12)) shapeCasts_S64_S1x64 := by
  unfold W4
  show StableHlo.after hostOps2 (W3 m c) (Proc.devRef .tc main_v13) = _
  after_results
  rfl

set_option maxHeartbeats 400000 in
theorem W4_v14 (c : Dev nD) : (W4 m c main_v14 : S1x64.Idx → EReal)
    = shapeCast S1x64 (shiftV (W3 m c main_arg9) (W3 m c main_arg10) (W3 m c main_arg11) (W3 m c main_arg12)) shapeCasts_S64_S1x64 := by
  unfold W4
  show StableHlo.after hostOps2 (W3 m c) (Proc.devRef .tc main_v14) = _
  after_results
  rfl

set_option maxHeartbeats 400000 in
theorem W6_v17 (c : Dev nD) : (W6 m c main_v17 : S16x128x128x64.Idx → EReal)
    = shapeCast S16x128x128x64 (W5 m c main_v16 : S16x16384x64.Idx → EReal) shapeCasts_S16x16384x64_S16x128x128x64 := by
  unfold W6
  show StableHlo.after hostOps3 (W5 m c) (Proc.devRef .tc main_v17) = _
  after_results
  rfl

/-! ## The chain through the program -/

/-- The three projections region 0 leaves: g, θ and φ of the input image. -/
theorem proj_g (c : Dev nD) : (W2 m c main_v4_0 : S16x16384x64.Idx → EReal)
    = Cert.Spec.proj (m ((c : Thread nD τ).loc main_arg0)) (m ((c : Thread nD τ).loc main_arg1)) (m ((c : Thread nD τ).loc main_arg2)) := by
  have g := Val0.glue0 (m ((c : Thread nD τ).loc main_arg0)) (m ((c : Thread nD τ).loc main_arg1)) (m ((c : Thread nD τ).loc main_arg3))
    (m ((c : Thread nD τ).loc main_arg5)) (m ((c : Thread nD τ).loc main_arg2)) (m ((c : Thread nD τ).loc main_arg4)) (m ((c : Thread nD τ).loc main_arg6))
  rw [← W1_v0 m c, ← W1_v1 m c, ← W1_v3 m c] at g
  exact (W2_v4_0 m c).trans ((Val0.final0_3 (tcv (W1 m)) c).trans g.1)

theorem proj_theta (c : Dev nD) : (W2 m c main_v4_1 : S16x16384x64.Idx → EReal)
    = Cert.Spec.proj (m ((c : Thread nD τ).loc main_arg0)) (m ((c : Thread nD τ).loc main_arg3)) (m ((c : Thread nD τ).loc main_arg4)) := by
  have g := Val0.glue0 (m ((c : Thread nD τ).loc main_arg0)) (m ((c : Thread nD τ).loc main_arg1)) (m ((c : Thread nD τ).loc main_arg3))
    (m ((c : Thread nD τ).loc main_arg5)) (m ((c : Thread nD τ).loc main_arg2)) (m ((c : Thread nD τ).loc main_arg4)) (m ((c : Thread nD τ).loc main_arg6))
  rw [← W1_v0 m c, ← W1_v1 m c, ← W1_v3 m c] at g
  exact (W2_v4_1 m c).trans ((Val0.final0_4 (tcv (W1 m)) c).trans g.2.1)

theorem proj_phi (c : Dev nD) : (W2 m c main_v4_2 : S16x16384x64.Idx → EReal)
    = Cert.Spec.proj (m ((c : Thread nD τ).loc main_arg0)) (m ((c : Thread nD τ).loc main_arg5)) (m ((c : Thread nD τ).loc main_arg6)) := by
  have g := Val0.glue0 (m ((c : Thread nD τ).loc main_arg0)) (m ((c : Thread nD τ).loc main_arg1)) (m ((c : Thread nD τ).loc main_arg3))
    (m ((c : Thread nD τ).loc main_arg5)) (m ((c : Thread nD τ).loc main_arg2)) (m ((c : Thread nD τ).loc main_arg4)) (m ((c : Thread nD τ).loc main_arg6))
  rw [← W1_v0 m c, ← W1_v1 m c, ← W1_v3 m c] at g
  exact (W2_v4_2 m c).trans ((Val0.final0_5 (tcv (W1 m)) c).trans g.2.2)

/-- The attention output region 1 leaves, from the inputs. -/
theorem attn (c : Dev nD) : (W3 m c main_v5 : S16x64x16384.Idx → EReal)
    = Cert.Spec.attend (Cert.Spec.softmax (Cert.Spec.gram
        (Cert.Spec.proj (m ((c : Thread nD τ).loc main_arg0)) (m ((c : Thread nD τ).loc main_arg3)) (m ((c : Thread nD τ).loc main_arg4)))
        (Cert.Spec.proj (m ((c : Thread nD τ).loc main_arg0)) (m ((c : Thread nD τ).loc main_arg5)) (m ((c : Thread nD τ).loc main_arg6)))))
        (Cert.Spec.proj (m ((c : Thread nD τ).loc main_arg0)) (m ((c : Thread nD τ).loc main_arg1)) (m ((c : Thread nD τ).loc main_arg2))) := by
  rw [← proj_g m c, ← proj_theta m c, ← proj_phi m c]
  exact (W3_v5 m c).trans (Val1.final1 (tcv (W2 m)) c)

/-- THE RESULT ARRAY at the end of the program: the folded batch norm of the output convolution of the relaid attention map
    of the inputs. -/
theorem kernel_value (c : Dev nD) : (W6 m c main_v17 : S16x128x128x64.Idx → EReal)
    = Cert.Spec.resFolded (Cert.Spec.zflat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have g := Val2.glue2 (W3 m c main_v5) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
  rw [attn m c] at g
  refine Eq.trans ?_ g
  refine (W6_v17 m c).trans (congrArg (shapeCast S16x128x128x64 · shapeCasts_S16x16384x64_S16x128x128x64) ?_)
  refine (W5_v16 m c).trans ((Val2.final2 (tcv (W4 m)) c).trans ?_)
  show Val2.G2 (W4 m c main_v6) (W4 m c main_arg7) (W4 m c main_v15) (W4 m c main_v13) (W4 m c main_v14) = _
  rw [W4_v6, W4_arg7, W4_v15, W4_v13, W4_v14, W3_arg8, W3_arg9, W3_arg10, W3_arg11, W3_arg12, attn]

end Cert.KernelIdeal.Val

end
-- ==== Proof.RefAttend.lean ====
/-
  The reference program's attention stages are the mathematics of the non-local block, stage by stage: each of the
  three 1×1 convolutions with bias (g, θ, φ) read at batch b, position n = 128 · row + column and filter f is the
  channel sum plus the bias; the Gram matrix of θ and φ is the sum over all positions; the softmax subtracts the
  row maximum (taken from −∞ and joined once more with −∞), exponentiates and divides by the row's sum started from 0;
  the attention output at (b, j, n) is the sum over filters i of the softmax entry (b, i, j) times g at (b, n, i).
  Every equation is between whole arrays and is proved entry by entry: an index is split into its coordinates, the
  stage is read at that index, and the index maps a stage reads its operands through are identified with the
  coordinates they stand for.
-/
import proofs.«181084_j44066364457115_1_alg».proof.Proof.Gen.ReferenceIdeal.Read
import proofs.«181084_j44066364457115_1_alg».proof.Proof.Spec

noncomputable section

namespace Cert.RefAttend

open Cert.ReferenceIdeal Cert.ReferenceIdeal.Gen Cert.ReferenceIdeal.Read Cert.Spec Idealize.ShloMosaic Idealize.ShloMosaic.ValueIdx

/-- Position n of the flattened [16, 16384, 64] array sits in the [16, 128, 128, 64] array at row n / 128 and
    column n % 128: both are the row-major position (b · 16384 + n) · 64 + f. -/
theorem idx_reshape (b : Fin 16) (n : Fin 16384) (f : Fin 64) :
    idx_main_v4 (ix3 b n f) = ix4 b (rowOf n) (colOf n) f := by
  funext a
  apply Fin.ext
  have hb := b.isLt
  have hn := n.isLt
  have hf := f.isLt
  match a with
  | ⟨0, _⟩ => show ((b.val * 16384 + n.val) * 64 + f.val) / 1048576 = b.val; omega
  | ⟨1, _⟩ => show ((b.val * 16384 + n.val) * 64 + f.val) / 8192 % 128 = n.val / 128; omega
  | ⟨2, _⟩ => show ((b.val * 16384 + n.val) * 64 + f.val) / 64 % 128 = n.val % 128; omega
  | ⟨3, _⟩ => show ((b.val * 16384 + n.val) * 64 + f.val) % 64 = f.val; omega

/-- The left operand of the 1×1 convolution at (b, h, w, ·) and channel c is x[b, h, w, c]. -/
theorem lidx_conv (b : Fin 16) (h w : Fin 128) (f : Fin 64) (c : Fin 128) :
    lidx_main_v0 (ix4 b h w f) c = ix4 b h w c := by
  funext a
  apply Fin.ext
  match a with
  | ⟨0, _⟩ => rfl
  | ⟨1, _⟩ => rfl
  | ⟨2, _⟩ => rfl
  | ⟨3, _⟩ => rfl

/-- The right operand of the 1×1 convolution at filter f and channel c is W[c, f]. -/
theorem ridx_conv (b : Fin 16) (h w : Fin 128) (f : Fin 64) (c : Fin 128) :
    ridx_main_v0 (ix4 b h w f) c = ix2 c f := by
  funext a
  apply Fin.ext
  match a with
  | ⟨0, _⟩ => rfl
  | ⟨1, _⟩ => rfl

/-- The bias broadcast over batch and position reads bias[f]. -/
theorem idx_bias (b : Fin 16) (h w : Fin 128) (f : Fin 64) :
    idx_main_v1 (idx_main_v2 (ix4 b h w f)) = ix1 f := by
  funext a
  apply Fin.ext
  match a with
  | ⟨0, _⟩ => rfl

/-- The reference's projection stage, read at (b, n, f), is the 1×1 convolution with bias. -/
theorem proj_read (x0 : (⟨S16x128x128x128, .f32⟩ : BufTy).Contents (Elt Ideal))
    (x1 : (⟨S128x64, .f32⟩ : BufTy).Contents (Elt Ideal)) (x2 : (⟨S64, .f32⟩ : BufTy).Contents (Elt Ideal))
    (b : Fin 16) (n : Fin 16384) (f : Fin 64) :
    val_main_v4 (F := Ideal) x0 x1 x2 (ix3 b n f) = projAt x0 x1 x2 b n f := by
  rw [val_main_v4_apply, idx_reshape, val_main_v3_apply, val_main_v0_apply, val_main_v2_apply, val_main_v1_apply,
    idx_bias, Ideal.addf_def]
  unfold projAt
  refine congrArg (· + x2 (ix1 f)) (Finset.sum_congr rfl fun c _ => ?_)
  rw [lidx_conv, ridx_conv]

theorem g_eq (x0 : (⟨S16x128x128x128, .f32⟩ : BufTy).Contents (Elt Ideal))
    (x1 : (⟨S128x64, .f32⟩ : BufTy).Contents (Elt Ideal)) (x2 : (⟨S64, .f32⟩ : BufTy).Contents (Elt Ideal)) :
    val_main_v4 (F := Ideal) x0 x1 x2 = Cert.Spec.proj x0 x1 x2 := by
  funext i
  obtain ⟨b, n, f, rfl⟩ : ∃ (b : Fin 16) (n : Fin 16384) (f : Fin 64), i = ix3 b n f := ⟨i 0, i 1, i 2, eq_ix3 i⟩
  exact proj_read x0 x1 x2 b n f

theorem tx_eq (x0 : (⟨S16x128x128x128, .f32⟩ : BufTy).Contents (Elt Ideal))
    (x3 : (⟨S128x64, .f32⟩ : BufTy).Contents (Elt Ideal)) (x4 : (⟨S64, .f32⟩ : BufTy).Contents (Elt Ideal)) :
    val_main_v9 (F := Ideal) x0 x3 x4 = Cert.Spec.proj x0 x3 x4 :=
  (show val_main_v9 (F := Ideal) x0 x3 x4 = val_main_v4 (F := Ideal) x0 x3 x4 from rfl).trans (g_eq x0 x3 x4)

theorem ty_eq (x0 : (⟨S16x128x128x128, .f32⟩ : BufTy).Contents (Elt Ideal))
    (x5 : (⟨S128x64, .f32⟩ : BufTy).Contents (Elt Ideal)) (x6 : (⟨S64, .f32⟩ : BufTy).Contents (Elt Ideal)) :
    val_main_v14 (F := Ideal) x0 x5 x6 = Cert.Spec.proj x0 x5 x6 :=
  (show val_main_v14 (F := Ideal) x0 x5 x6 = val_main_v4 (F := Ideal) x0 x5 x6 from rfl).trans (g_eq x0 x5 x6)

/-- The Gram matrix's left operand at (b, i, ·) and position n is θ[b, n, i]. -/
theorem lidx_gram (b : Fin 16) (i j : Fin 64) (n : Fin 16384) : lidx_main_v15 (ix3 b i j) n = ix3 b n i := by
  funext a
  apply Fin.ext
  match a with
  | ⟨0, _⟩ => rfl
  | ⟨1, _⟩ => rfl
  | ⟨2, _⟩ => rfl

/-- The Gram matrix's right operand at (b, ·, j) and position n is φ[b, n, j]. -/
theorem ridx_gram (b : Fin 16) (i j : Fin 64) (n : Fin 16384) : ridx_main_v15 (ix3 b i j) n = ix3 b n j := by
  funext a
  apply Fin.ext
  match a with
  | ⟨0, _⟩ => rfl
  | ⟨1, _⟩ => rfl
  | ⟨2, _⟩ => rfl

theorem fm_eq (x0 : (⟨S16x128x128x128, .f32⟩ : BufTy).Contents (Elt Ideal))
    (x3 : (⟨S128x64, .f32⟩ : BufTy).Contents (Elt Ideal)) (x4 : (⟨S64, .f32⟩ : BufTy).Contents (Elt Ideal))
    (x5 : (⟨S128x64, .f32⟩ : BufTy).Contents (Elt Ideal)) (x6 : (⟨S64, .f32⟩ : BufTy).Contents (Elt Ideal)) :
    val_main_v15 (F := Ideal) x0 x3 x4 x5 x6 = Cert.Spec.gram (Cert.Spec.proj x0 x3 x4) (Cert.Spec.proj x0 x5 x6) := by
  funext i
  obtain ⟨b, p, q, rfl⟩ : ∃ (b : Fin 16) (p q : Fin 64), i = ix3 b p q := ⟨i 0, i 1, i 2, eq_ix3 i⟩
  rw [val_main_v15_apply, tx_eq, ty_eq]
  show _ = gramAt (Cert.Spec.proj x0 x3 x4) (Cert.Spec.proj x0 x5 x6) b p q
  unfold gramAt
  refine Finset.sum_congr rfl fun n _ => ?_
  rw [lidx_gram, ridx_gram]

/-! ## The softmax over the last axis -/

section Softmax

variable (x0 : (⟨S16x128x128x128, .f32⟩ : BufTy).Contents (Elt Ideal))
  (x3 : (⟨S128x64, .f32⟩ : BufTy).Contents (Elt Ideal)) (x4 : (⟨S64, .f32⟩ : BufTy).Contents (Elt Ideal))
  (x5 : (⟨S128x64, .f32⟩ : BufTy).Contents (Elt Ideal)) (x6 : (⟨S64, .f32⟩ : BufTy).Contents (Elt Ideal))

/-- The reduced index (b, p) with the coordinate j put back on the last axis is (b, p, j). -/
theorem lift_last (h : S16x64x64.Reduces [2] S16x64) (b : Fin 16) (p : Fin 64) (k : Fin (S16x64x64.size 2)) :
    h.lift (ix2 b p) k = ix3 b p (⟨k.val, k.isLt⟩ : Fin 64) := by
  funext c
  apply Fin.ext
  fin_cases c <;> rfl

/-- A row (b, p, ·) broadcast from its [16, 64, 1] column reads the column's entry (b, p). -/
theorem idx_row (b : Fin 16) (p q : Fin 64) : idx_main_v19 (idx_main_v20 (ix3 b p q)) = ix2 b p := by
  funext a
  apply Fin.ext
  match a with
  | ⟨0, _⟩ => rfl
  | ⟨1, _⟩ => rfl

theorem idx_row' (b : Fin 16) (p q : Fin 64) : idx_main_v24 (idx_main_v25 (ix3 b p q)) = ix2 b p := by
  funext a
  apply Fin.ext
  match a with
  | ⟨0, _⟩ => rfl
  | ⟨1, _⟩ => rfl

/-- The sum over the last axis at (b, p) reads the entries (b, p, k). -/
theorem idx_sum (b : Fin 16) (p : Fin 64) (k : Fin 64) : idx_main_v23 (ix2 b p) k = ix3 b p k := by
  funext a
  apply Fin.ext
  match a with
  | ⟨0, _⟩ => rfl
  | ⟨1, _⟩ => rfl
  | ⟨2, _⟩ => rfl

/-- The maximum the reference subtracts in row (b, p) is the row maximum from −∞, joined once more with −∞. -/
theorem rowmax_read (b : Fin 16) (p : Fin 64) :
    val_main_v18 (F := Ideal) x0 x3 x4 x5 x6 (ix2 b p) = rowMax (val_main_v15 (F := Ideal) x0 x3 x4 x5 x6) b p := by
  have h : S16x64x64.Reduces [2] S16x64 := by decide
  rw [val_main_v18_apply, val_main_v17_apply, val_main_cst_0_apply]
  unfold val_main_v16
  rw [Host.reduce_eq_fold_single FloatOps.maximumf _ _ reducesTo_S16x64x64_S16x64_d2 h h_S_, val_main_cst_apply,
    Ideal.maximumf_def, Ideal.ofBits_def]
  unfold rowMax
  have hf : (val_main_v15 (F := Ideal) x0 x3 x4 x5 x6 ∘ h.lift (ix2 b p))
      = fun j : Fin 64 => val_main_v15 (F := Ideal) x0 x3 x4 x5 x6 (ix3 b p j) :=
    funext fun k => congrArg (val_main_v15 (F := Ideal) x0 x3 x4 x5 x6) (lift_last h b p k)
  exact congrArg (fun f => max negInf (Finset.fold max negInf f (Finset.univ : Finset (Fin 64)))) hf

/-- The exponent's argument at (b, p, q): the Gram entry less its row's maximum. -/
theorem exp_read (b : Fin 16) (p q : Fin 64) :
    val_main_v22 (F := Ideal) x0 x3 x4 x5 x6 (ix3 b p q)
      = Ideal.exp (val_main_v15 (F := Ideal) x0 x3 x4 x5 x6 (ix3 b p q) - rowMax (val_main_v15 (F := Ideal) x0 x3 x4 x5 x6) b p) := by
  rw [val_main_v22_apply, val_main_v21_apply, val_main_v20_apply, val_main_v19_apply, idx_row, rowmax_read,
    Ideal.subf_def, Ideal.hostUnary_exp_def]

/-- The softmax's denominator in row (b, p): the sum of the row's exponentials, started from 0. -/
theorem den_read (b : Fin 16) (p : Fin 64) :
    val_main_v23 (F := Ideal) x0 x3 x4 x5 x6 (ix2 b p)
      = ∑ j' : Fin 64, Ideal.exp (val_main_v15 (F := Ideal) x0 x3 x4 x5 x6 (ix3 b p j') - rowMax (val_main_v15 (F := Ideal) x0 x3 x4 x5 x6) b p) := by
  rw [val_main_v23_apply, val_main_cst_1_apply, Ideal.ofBits_def, Ideal.ofBits_zero_f32, zero_add]
  refine Finset.sum_congr rfl fun k _ => ?_
  rw [idx_sum, exp_read]

/-- The reference's softmax stage at (b, p, q). -/
theorem sm_read (b : Fin 16) (p q : Fin 64) :
    val_main_v26 (F := Ideal) x0 x3 x4 x5 x6 (ix3 b p q) = smAt (val_main_v15 (F := Ideal) x0 x3 x4 x5 x6) b p q := by
  rw [val_main_v26_apply, exp_read, val_main_v25_apply, val_main_v24_apply, idx_row', den_read, Ideal.hostDivf_def]
  rfl

end Softmax

theorem sm_eq (x0 : (⟨S16x128x128x128, .f32⟩ : BufTy).Contents (Elt Ideal))
    (x3 : (⟨S128x64, .f32⟩ : BufTy).Contents (Elt Ideal)) (x4 : (⟨S64, .f32⟩ : BufTy).Contents (Elt Ideal))
    (x5 : (⟨S128x64, .f32⟩ : BufTy).Contents (Elt Ideal)) (x6 : (⟨S64, .f32⟩ : BufTy).Contents (Elt Ideal)) :
    val_main_v26 (F := Ideal) x0 x3 x4 x5 x6
      = Cert.Spec.softmax (Cert.Spec.gram (Cert.Spec.proj x0 x3 x4) (Cert.Spec.proj x0 x5 x6)) := by
  funext i
  obtain ⟨b, p, q, rfl⟩ : ∃ (b : Fin 16) (p q : Fin 64), i = ix3 b p q := ⟨i 0, i 1, i 2, eq_ix3 i⟩
  rw [sm_read, fm_eq]
  rfl

/-- The attention's left operand at (b, j, ·) and filter i is SM[b, i, j]. -/
theorem lidx_attend (b : Fin 16) (j : Fin 64) (n : Fin 16384) (i : Fin 64) : lidx_main_v27 (ix3 b j n) i = ix3 b i j := by
  funext a
  apply Fin.ext
  match a with
  | ⟨0, _⟩ => rfl
  | ⟨1, _⟩ => rfl
  | ⟨2, _⟩ => rfl

/-- The attention's right operand at (b, ·, n) and filter i is g[b, n, i]. -/
theorem ridx_attend (b : Fin 16) (j : Fin 64) (n : Fin 16384) (i : Fin 64) : ridx_main_v27 (ix3 b j n) i = ix3 b n i := by
  funext a
  apply Fin.ext
  match a with
  | ⟨0, _⟩ => rfl
  | ⟨1, _⟩ => rfl
  | ⟨2, _⟩ => rfl

theorem z_eq (x0 : (⟨S16x128x128x128, .f32⟩ : BufTy).Contents (Elt Ideal))
    (x1 : (⟨S128x64, .f32⟩ : BufTy).Contents (Elt Ideal)) (x2 : (⟨S64, .f32⟩ : BufTy).Contents (Elt Ideal))
    (x3 : (⟨S128x64, .f32⟩ : BufTy).Contents (Elt Ideal)) (x4 : (⟨S64, .f32⟩ : BufTy).Contents (Elt Ideal))
    (x5 : (⟨S128x64, .f32⟩ : BufTy).Contents (Elt Ideal)) (x6 : (⟨S64, .f32⟩ : BufTy).Contents (Elt Ideal)) :
    val_main_v27 (F := Ideal) x0 x1 x2 x3 x4 x5 x6
      = Cert.Spec.attend (Cert.Spec.softmax (Cert.Spec.gram (Cert.Spec.proj x0 x3 x4) (Cert.Spec.proj x0 x5 x6)))
          (Cert.Spec.proj x0 x1 x2) := by
  funext i
  obtain ⟨b, j, n, rfl⟩ : ∃ (b : Fin 16) (j : Fin 64) (n : Fin 16384), i = ix3 b j n := ⟨i 0, i 1, i 2, eq_ix3 i⟩
  rw [val_main_v27_apply, sm_eq, g_eq]
  show _ = attendAt (Cert.Spec.softmax (Cert.Spec.gram (Cert.Spec.proj x0 x3 x4) (Cert.Spec.proj x0 x5 x6)))
    (Cert.Spec.proj x0 x1 x2) b j n
  unfold attendAt
  refine Finset.sum_congr rfl fun k _ => ?_
  rw [lidx_attend, ridx_attend]

end Cert.RefAttend

end
-- ==== Proof.RefOut.lean ====
/-
  The tail of the reference: from the attention map z = stage 27, laid out [batch, filter, position], the reference
  reinterprets z at the same row-major position as [batch, row, column, filter], applies the output 1×1 convolution
  with bias, and the batch norm as written: (P − mean) · inv + β with inv = γ · rsqrt (var + ε).
  Read at an index (b, h, w, e) this is the specification's resPlain over relay z.
-/
import proofs.«181084_j44066364457115_1_alg».proof.Proof.Gen.ReferenceIdeal.Read
import proofs.«181084_j44066364457115_1_alg».proof.Proof.Spec

noncomputable section

namespace Cert.RefOut

open Cert.ReferenceIdeal Cert.ReferenceIdeal.Read Cert.Spec Idealize.ShloMosaic Idealize.ShloMosaic.ValueIdx

/-- The reshape reads z at the row-major position of (b, h, w, f); with n = 128 h + w that position is
    ((b · 64) · 16384) + (64 n + f), so the batch coordinate is b and the other two are the quotient and the
    remainder of 64 n + f by 16384: the index the relayout of the specification uses. -/
theorem reshape_read (z : (⟨S16x64x16384, .f32⟩ : BufTy).Contents (Elt Ideal)) (b : Fin 16) (h w : Fin 128) (f : Fin 64) :
    z (idx_main_v28 (ix4 b h w f)) = relayAt z b (posOf h w) f := by
  have hb := b.isLt; have hh := h.isLt; have hw := w.isLt; have hf := f.isLt
  unfold relayAt posOf
  congr 1
  funext a
  match a with
  | ⟨0, _⟩ =>
    apply Fin.ext
    show (((b.val * 128 + h.val) * 128 + w.val) * 64 + f.val) / 1048576 = b.val
    omega
  | ⟨1, _⟩ =>
    apply Fin.ext
    show (((b.val * 128 + h.val) * 128 + w.val) * 64 + f.val) / 16384 % 64 = ((h.val * 128 + w.val) * 64 + f.val) / 16384
    omega
  | ⟨2, _⟩ =>
    apply Fin.ext
    show (((b.val * 128 + h.val) * 128 + w.val) * 64 + f.val) % 16384 = ((h.val * 128 + w.val) * 64 + f.val) % 16384
    omega

/-- The two broadcasts of a per-filter vector read it at the filter coordinate (the bias). -/
theorem bcast_idx30 (b : Fin 16) (h w : Fin 128) (e : Fin 64) :
    idx_main_v30 (idx_main_v31 (ix4 b h w e)) = ix1 e := by
  funext a; match a with | ⟨0, _⟩ => rfl

/-- The same for the mean. -/
theorem bcast_idx37 (b : Fin 16) (h w : Fin 128) (e : Fin 64) :
    idx_main_v37 (idx_main_v38 (ix4 b h w e)) = ix1 e := by
  funext a; match a with | ⟨0, _⟩ => rfl

/-- The same for the scale. -/
theorem bcast_idx40 (b : Fin 16) (h w : Fin 128) (e : Fin 64) :
    idx_main_v40 (idx_main_v41 (ix4 b h w e)) = ix1 e := by
  funext a; match a with | ⟨0, _⟩ => rfl

/-- The same for the shift. -/
theorem bcast_idx43 (b : Fin 16) (h w : Fin 128) (e : Fin 64) :
    idx_main_v43 (idx_main_v44 (ix4 b h w e)) = ix1 e := by
  funext a; match a with | ⟨0, _⟩ => rfl

/-- The left index of the output convolution's contraction. -/
theorem lidx29 (b : Fin 16) (h w : Fin 128) (e k : Fin 64) : lidx_main_v29 (ix4 b h w e) k = ix4 b h w k := by
  funext a; match a with | ⟨0, _⟩ => rfl | ⟨1, _⟩ => rfl | ⟨2, _⟩ => rfl | ⟨3, _⟩ => rfl

/-- The right index of the output convolution's contraction. -/
theorem ridx29 (b : Fin 16) (h w : Fin 128) (e k : Fin 64) : ridx_main_v29 (ix4 b h w e) k = ix2 k e := by
  funext a; match a with | ⟨0, _⟩ => rfl | ⟨1, _⟩ => rfl

/-- The reference's result is the batch norm as written of the output convolution of the relaid attention map. -/
theorem res_eq (x0 : (⟨S16x128x128x128, .f32⟩ : BufTy).Contents (Elt Ideal)) (x1 : (⟨S128x64, .f32⟩ : BufTy).Contents (Elt Ideal)) (x2 : (⟨S64, .f32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 x9 x10 x11 x12 : (⟨S64, .f32⟩ : BufTy).Contents (Elt Ideal)) :
    val_main_v45 (F := Ideal) x0 x1 x2 x3 x4 x5 x6 x7 x8 x9 x10 x11 x12
      = Cert.Spec.resPlain (Cert.Spec.relay (val_main_v27 (F := Ideal) x0 x1 x2 x3 x4 x5 x6)) x7 x8 x9 x10 x11 x12 := by
  funext i
  obtain ⟨b, h, w, e, rfl⟩ : ∃ (b : Fin 16) (h w : Fin 128) (e : Fin 64), i = ix4 b h w e := ⟨i 0, i 1, i 2, i 3, eq_ix4 i⟩
  rw [val_main_v45_apply, val_main_v42_apply, val_main_v39_apply, val_main_v32_apply, val_main_v29_apply,
    val_main_v44_apply, val_main_v43_apply, val_main_v41_apply, val_main_v40_apply, val_main_v36_apply, val_main_v35_apply,
    val_main_v34_apply, val_main_v33_apply, val_main_cst_2_apply, val_main_v38_apply, val_main_v37_apply,
    val_main_v31_apply, val_main_v30_apply, bcast_idx30, bcast_idx37, bcast_idx40, bcast_idx43]
  simp only [lidx29, ridx29, val_main_v28_apply]
  generalize val_main_v27 (F := Ideal) x0 x1 x2 x3 x4 x5 x6 = z
  simp only [reshape_read]
  simp only [Ideal.addf_def, Ideal.subf_def, Ideal.mulf_def, Ideal.hostUnary_rsqrt_def, Ideal.ofBits_def]
  rfl

end Cert.RefOut

end
-- ==== Proof.RefValue.lean ====
/-
  The reference, assembled: on every device its result is the batch norm as written of the output convolution of the
  relaid attention map of the whole block, as a function of the thirteen argument arrays, and the arguments are unchanged.
-/
import proofs.«181084_j44066364457115_1_alg».proof.Proof.Gen.ReferenceIdeal.Run
import proofs.«181084_j44066364457115_1_alg».proof.Proof.Gen.ReferenceIdeal.Read
import proofs.«181084_j44066364457115_1_alg».proof.Proof.RefAttend
import proofs.«181084_j44066364457115_1_alg».proof.Proof.RefOut
import proofs.«181084_j44066364457115_1_alg».proof.Proof.Spec

noncomputable section

namespace Cert.RefValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-- The reference's result on device c, from the launch contents of the arguments. -/
theorem ref_value (c : Dev nD) :
    Cert.ReferenceIdeal.Value.res_main_v45 m c
      = Cert.Spec.resPlain (Cert.Spec.zflat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [Cert.ReferenceIdeal.Read.val_main_v45_eq, Cert.RefOut.res_eq, Cert.RefAttend.z_eq]
  rfl

/-- Every weakly fair execution of the reference ends with that result and the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v45) = Cert.Spec.resPlain (Cert.Spec.zflat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (ref_value m c), (h c).2⟩) (Cert.ReferenceIdeal.Value.run (F := Ideal) m ρ)

end Cert.RefValue

end
-- ==== Proof.Bridge.lean ====
/-
  The two batch-norm forms of the non-local block agree on the extended reals as soon as the scale, the shift and the
  mean are real numbers; the scale is real because the variance is a non-negative real and ε a positive one.
-/
import proofs.«181084_j44066364457115_1_alg».proof.Proof.Spec
import Mathlib.Data.EReal.Operations
import Mathlib.Data.EReal.Inv

noncomputable section

namespace Cert.Bridge

open Idealize.ShloMosaic Idealize.ShloMosaic.ValueIdx

/-- The two batch-norm forms agree for any extended-real p once the scale, the shift and the mean are real:
    for real p it is the ring identity; for p = ±∞ both sides are the infinity of sign(p)·sign(inv), or β at inv = 0. -/
theorem bn_eq (p : EReal) (inv beta mean : ℝ) :
    Cert.Spec.bnFolded p (inv : EReal) (beta : EReal) (mean : EReal)
      = Cert.Spec.bnPlain p (inv : EReal) (beta : EReal) (mean : EReal) := by
  unfold Cert.Spec.bnFolded Cert.Spec.bnPlain
  induction p using EReal.rec with
  | bot =>
    rw [EReal.bot_sub]
    rcases lt_trichotomy inv 0 with h | h | h
    · rw [EReal.bot_mul_coe_of_neg h, ← EReal.coe_mul, ← EReal.coe_sub, EReal.top_add_coe, EReal.top_add_coe]
    · subst h; simp
    · rw [EReal.bot_mul_coe_of_pos h, EReal.bot_add, EReal.bot_add]
  | coe x =>
    rw [← EReal.coe_mul, ← EReal.coe_mul, ← EReal.coe_sub, ← EReal.coe_sub, ← EReal.coe_add, ← EReal.coe_mul,
      ← EReal.coe_add]
    congr 1; ring
  | top =>
    rw [EReal.top_sub_coe]
    rcases lt_trichotomy inv 0 with h | h | h
    · rw [EReal.top_mul_coe_of_neg h, EReal.bot_add, EReal.bot_add]
    · subst h; simp
    · rw [EReal.top_mul_coe_of_pos h, ← EReal.coe_mul, ← EReal.coe_sub, EReal.top_add_coe, EReal.top_add_coe]

/-- ε is the positive normal number 8589935 · 2⁻³³ (about 10⁻³). -/
theorem eps_pos : ∃ r : ℝ, Cert.Spec.eps = (r : EReal) ∧ 0 < r := by
  have h : Cert.Spec.eps = (((8589935 : ℝ) * (2 : ℝ) ^ (-33 : ℤ) : ℝ) : EReal) := by
    simp [Cert.Spec.eps, Ideal.ofBits, Ideal.ieee, -EReal.coe_mul]
  exact ⟨_, h, by positivity⟩

/-- The batch-norm scale is real: var + ε is a positive real, so its reciprocal square root is the real (√(var + ε))⁻¹,
    and a real times a real is real. -/
theorem inv_real (gamma var : Cert.Spec.V1.Idx → EReal) (e : Fin 64)
    (hg : ∃ r : ℝ, gamma (ValueIdx.ix1 e) = (r : EReal))
    (hv : ∃ r : ℝ, var (ValueIdx.ix1 e) = (r : EReal) ∧ 0 ≤ r) :
    ∃ r : ℝ, Cert.Spec.invAt gamma var e = (r : EReal) := by
  obtain ⟨g, hg⟩ := hg
  obtain ⟨v, hv, hv0⟩ := hv
  obtain ⟨ε, hε, hε0⟩ := eps_pos
  have hpos : 0 < v + ε := by linarith
  refine ⟨g * (Real.sqrt (v + ε))⁻¹, ?_⟩
  unfold Cert.Spec.invAt
  rw [hg, hv, hε, ← EReal.coe_add, Ideal.rsqrt_coe, if_neg (not_lt.mpr hpos.le), if_neg hpos.ne', ← EReal.coe_mul]

/-- The two results agree entry by entry: at each filter e the scale, the shift and the mean are real, and the two
    batch-norm forms agree there whatever the convolution's value is. -/
theorem res_eq (zf : Cert.Spec.A3.Idx → EReal) (Wo : Cert.Spec.Wo2.Idx → EReal)
    (bo gamma beta mean var : Cert.Spec.V1.Idx → EReal)
    (hg : ∀ e : Fin 64, ∃ r : ℝ, gamma (ValueIdx.ix1 e) = (r : EReal))
    (hb : ∀ e : Fin 64, ∃ r : ℝ, beta (ValueIdx.ix1 e) = (r : EReal))
    (hm : ∀ e : Fin 64, ∃ r : ℝ, mean (ValueIdx.ix1 e) = (r : EReal))
    (hv : ∀ e : Fin 64, ∃ r : ℝ, var (ValueIdx.ix1 e) = (r : EReal) ∧ 0 ≤ r) :
    Cert.Spec.resFolded zf Wo bo gamma beta mean var = Cert.Spec.resPlain zf Wo bo gamma beta mean var := by
  funext i
  have key : ∀ (p : EReal) (e : Fin 64),
      Cert.Spec.bnFolded p (Cert.Spec.invAt gamma var e) (beta (ValueIdx.ix1 e)) (mean (ValueIdx.ix1 e))
        = Cert.Spec.bnPlain p (Cert.Spec.invAt gamma var e) (beta (ValueIdx.ix1 e)) (mean (ValueIdx.ix1 e)) := by
    intro p e
    obtain ⟨s, hs⟩ := inv_real gamma var e (hg e) (hv e)
    obtain ⟨b, hb⟩ := hb e
    obtain ⟨m, hm⟩ := hm e
    rw [hs, hb, hm]
    exact bn_eq p s b m
  exact key _ (i 3)

end Cert.Bridge

end
-- ==== Proof.PreFacts.lean ====
/-
  What the printed precondition says of the four batch-norm vectors: β, the mean and γ are real at every filter, and the
  variance is a non-negative real there. The precondition is a chain of "and"s of one "all" per input; only the last
  five conjuncts are opened.
-/
import proofs.«181084_j44066364457115_1_alg».proof.Pre_finite_inputs
import proofs.«181084_j44066364457115_1_alg».proof.Proof.Gen.Pre_finite_inputs
import Idealize.ShloMosaic.Lib.ReduceAll
import Idealize.ShloMosaic.Lib.ValueIdx
import Idealize.ShloMosaic.PureOps.Ideal.Laws
import Mathlib.Data.EReal.Basic

noncomputable section

namespace Cert.PreFacts

open Idealize.ShloMosaic Cert.Pre_finite_inputs

/-- The rank-0 shape has one index. -/
instance subsingleton_scalar_idx : Subsingleton S_.Idx := ⟨fun a b => funext fun d => d.elim0⟩

/-- |x| < +∞ on the extended reals says that x is a real number: the pattern 0x7F800000 is ⊤, and max x (−x) is ⊤ at both
    infinities. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  rw [Ideal.hostAbsf_def, Ideal.cmpf_def, Ideal.absf_def, Ideal.ofBits_def, htop] at h
  induction x using EReal.rec with
  | bot => simp [Ideal.cmp] at h
  | coe r => exact ⟨r, rfl⟩
  | top => simp [Ideal.cmp] at h

/-- x ≥ +0.0 on the extended reals says 0 ≤ x: the zero pattern is the real 0. -/
theorem nonneg_of_ge_zero (x : EReal)
    (h : FloatOps.cmpf (F := Ideal) (φ := .f32) .oge x (FloatOps.ofBits (F := Ideal) .f32 0x00000000#32) = 1#1) :
    0 ≤ x := by
  rw [Ideal.cmpf_def, Ideal.ofBits_def, Ideal.ofBits_zero_f32] at h
  by_contra hn
  simp [Ideal.cmp, hn] at h

/-- A pointwise "and" of two bit vectors that is 1 at an index has both operands 1 there. -/
theorem andi_apply_eq_one {s : Shape} (x y : IVec s 1) (i : s.Idx) (h : andi x y i = 1#1) : x i = 1#1 ∧ y i = 1#1 :=
  IntOp.andi_eq_one.1 h

variable [Cert.Pre_finite_inputs.Facts]

/-- One "all(|x| < +∞)" over a vector of 64, read at a filter. -/
theorem real_of_all (x : FVec Ideal S64 .f32) (bc : S_.BroadcastsInDim S64 (![] : Fin 0 → Fin S64.rank))
    (rd : S64.ReducesTo [0] S_) (hS : 0 < S_.numel)
    (h : Host.reduce IntOp.andi (cmpf .olt (Host.absf x) (broadcastInDim S64 ![] bc (constant S_ .f32 0x7F800000#32)))
      (constantI S_ 1 1#1) rd hS ValueIdx.ix0 = 1#1) (e : Fin 64) : ∃ r : ℝ, x (ValueIdx.ix1 e) = (r : EReal) :=
  real_of_abs_lt_inf _ (Host.reduce_andi_all _ _ rd hS _ h (ValueIdx.ix1 e))

/-- One "all(x ≥ 0)" over a vector of 64, read at a filter. -/
theorem nonneg_of_all (x : FVec Ideal S64 .f32) (bc : S_.BroadcastsInDim S64 (![] : Fin 0 → Fin S64.rank))
    (rd : S64.ReducesTo [0] S_) (hS : 0 < S_.numel)
    (h : Host.reduce IntOp.andi (cmpf .oge x (broadcastInDim S64 ![] bc (constant S_ .f32 0x00000000#32)))
      (constantI S_ 1 1#1) rd hS ValueIdx.ix0 = 1#1) (e : Fin 64) : 0 ≤ x (ValueIdx.ix1 e) :=
  nonneg_of_ge_zero _ (Host.reduce_andi_all _ _ rd hS _ h (ValueIdx.ix1 e))

/-- The precondition gives: γ, β and the mean are real at every filter, and the variance is a non-negative real. -/
theorem facts_of_pre (a0 : FVec Ideal S16x128x128x128 .f32) (a1 : FVec Ideal S128x64 .f32) (a2 : FVec Ideal S64 .f32)
    (a3 : FVec Ideal S128x64 .f32) (a4 : FVec Ideal S64 .f32) (a5 : FVec Ideal S128x64 .f32) (a6 : FVec Ideal S64 .f32)
    (a7 : FVec Ideal S64x64 .f32) (a8 a9 a10 a11 a12 : FVec Ideal S64 .f32)
    (h : Cert.Pre_finite_inputs.fn (F := Ideal) a0 a1 a2 a3 a4 a5 a6 a7 a8 a9 a10 a11 a12 = fun _ => 1#1) :
    (∀ e : Fin 64, ∃ r : ℝ, a9 (ValueIdx.ix1 e) = (r : EReal)) ∧ (∀ e : Fin 64, ∃ r : ℝ, a10 (ValueIdx.ix1 e) = (r : EReal))
      ∧ (∀ e : Fin 64, ∃ r : ℝ, a11 (ValueIdx.ix1 e) = (r : EReal))
      ∧ (∀ e : Fin 64, ∃ r : ℝ, a12 (ValueIdx.ix1 e) = (r : EReal) ∧ 0 ≤ r) := by
  have h0 := congrFun h ValueIdx.ix0
  dsimp only [Cert.Pre_finite_inputs.fn, fn_part1, fn_part2, fn_part3] at h0
  obtain ⟨h0, h66⟩ := andi_apply_eq_one _ _ _ h0
  obtain ⟨h0, h62⟩ := andi_apply_eq_one _ _ _ h0
  obtain ⟨h0, h57⟩ := andi_apply_eq_one _ _ _ h0
  obtain ⟨h0, h52⟩ := andi_apply_eq_one _ _ _ h0
  obtain ⟨-, h47⟩ := andi_apply_eq_one _ _ _ h0
  refine ⟨real_of_all a9 _ _ _ h47, real_of_all a10 _ _ _ h52, real_of_all a11 _ _ _ h57, fun e => ?_⟩
  obtain ⟨r, hr⟩ := real_of_all a12 _ _ _ h62 e
  have hn := nonneg_of_all a12 _ _ _ h66 e
  rw [hr] at hn
  exact ⟨r, hr, EReal.coe_nonneg.1 hn⟩

end Cert.PreFacts

end
-- ==== Proof.Algebraic.lean ====
/-
  The two programs at the ideal values, from memories that agree on the thirteen arguments: the kernel's result is the
  batch norm with the mean folded into the shift, the reference's the batch norm as written, both of the output convolution
  of the same relaid attention map of the block. The precondition makes γ, β and the mean real and the variance a
  non-negative real at every filter, and there the two batch-norm forms are one extended real at every entry. So both
  programs end with the same array on every device, and each leaves its arguments as launched.
-/
import proofs.«181084_j44066364457115_1_alg».proof.Defs
import proofs.«181084_j44066364457115_1_alg».proof.Proof.Gen.KernelIdeal
import proofs.«181084_j44066364457115_1_alg».proof.Proof.Gen.ReferenceIdeal
import proofs.«181084_j44066364457115_1_alg».proof.Proof.Gen.Pre_finite_inputs
import proofs.«181084_j44066364457115_1_alg».proof.Proof.KernelIdeal.Run
import proofs.«181084_j44066364457115_1_alg».proof.Proof.KernelIdeal.Value
import proofs.«181084_j44066364457115_1_alg».proof.Proof.RefValue
import proofs.«181084_j44066364457115_1_alg».proof.Proof.Bridge
import proofs.«181084_j44066364457115_1_alg».proof.Proof.PreFacts

noncomputable section

namespace Cert.Proof.Algebraic

open Idealize.ShloMosaic Idealize.ShloMosaic.TcCoe Idealize.SL.Sem

/-- From memories agreeing on the arguments both programs run, end with equal results and leave the arguments unchanged:
    the kernel's folded batch norm and the reference's plain one agree because the precondition makes the batch-norm
    vectors real (the variance non-negative). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W6 m c Cert.KernelIdeal.main_v17,
    Cert.KernelIdeal.Hand.run_value (F := Ideal) m ρ, ?_⟩
  refine (θ_run Cert.ReferenceIdeal.defs _ _).mono (fun r h c => ⟨(h c).1.trans ?_, (h c).2⟩)
    (Cert.RefValue.ref_run m' ρ')
  obtain ⟨h0, h1, h2, h3, h4, h5, h6, h7, h8, h9, h10, h11, h12⟩ := hagree c
  rw [h0, h1, h2, h3, h4, h5, h6, h7, h8, h9, h10, h11, h12]
  obtain ⟨hg, hb, hm, hv⟩ := Cert.PreFacts.facts_of_pre _ _ _ _ _ _ _ _ _ _ _ _ _ (hpre c)
  exact ((Cert.KernelIdeal.Val.kernel_value m c).trans (Cert.Bridge.res_eq _ _ _ _ _ _ _ hg hb hm hv)).symm

end Cert.Proof.Algebraic

end
-- ==== Proof.lean ====
/-
  The certificate of the non-local block: a Pallas program of three kernels (fused 1×1 projections; θᵀφ, softmax and the
  attention product per batch element; output 1×1 convolution with an inference batch norm folded into a scale and a
  shift) against its plain jnp reference, over the extended reals, for finite inputs with a non-negative moving variance.

  The three frames: each kernel region runs its body at every grid point on whole staging buffers and writes whole blocks
  back, the host operations between the regions run over the unscoped buffers, and no item writes an argument
  (Proof/Kernel/Run.lean, Proof/KernelIdeal/Run.lean: one text read at the two float instances); the reference is a
  straight line of host operations. The idealization rewrote nothing, so there is nothing to preserve.

  The value: region by region the kernel's arrays are the functions of Proof/Spec.lean of the arrays before them
  (Proof/KernelIdeal/Val0–2.lean, chained through @main in Proof/KernelIdeal/Value.lean), the reference's stages are the
  same functions (Proof/RefAttend.lean, Proof/RefOut.lean, Proof/RefValue.lean) — a matrix product is the same sum
  whatever its tiling, a change of float format is the identity, and both programs re-read the [batch, filter, position]
  attention map at the same row-major positions. The one difference as formulas is the batch norm: p · inv + (β − mean · inv)
  against (p − mean) · inv + β, equal as soon as inv = γ · rsqrt(var + ε), mean and β are real numbers — which is what
  finite γ, β, mean and a finite var ≥ 0 give (Proof/PreFacts.lean, Proof/Bridge.lean); p itself may be anything.
-/
import proofs.«181084_j44066364457115_1_alg».proof.Defs
import proofs.«181084_j44066364457115_1_alg».proof.Proof.Gen.Kernel
import proofs.«181084_j44066364457115_1_alg».proof.Proof.Gen.KernelIdeal
import proofs.«181084_j44066364457115_1_alg».proof.Proof.Gen.ReferenceIdeal
import proofs.«181084_j44066364457115_1_alg».proof.Proof.Gen.Pre_finite_inputs
import proofs.«181084_j44066364457115_1_alg».proof.Proof.Gen.ReferenceIdeal.Run
import proofs.«181084_j44066364457115_1_alg».proof.Proof.Kernel.Run
import proofs.«181084_j44066364457115_1_alg».proof.Proof.KernelIdeal.Run
import proofs.«181084_j44066364457115_1_alg».proof.Proof.Algebraic

noncomputable section

namespace Cert.Proof

open Idealize.ShloMosaic Idealize.SL.Sem

/-- The word-level program runs to the end and leaves its arguments alone. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Algebraic.algebraic⟩

end Cert.Proof

end
